-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S1280000x64 : Shape := ⟨2, ![1280000, 64]⟩
abbrev S1280000 : Shape := ⟨1, ![1280000]⟩
abbrev S64x64 : Shape := ⟨2, ![64, 64]⟩
abbrev S64 : Shape := ⟨1, ![64]⟩
abbrev S_ : Shape := ⟨0, ![]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S1280000x64 : S_.BroadcastsInDim S1280000x64 (![] : Fin 0 → Fin S1280000x64.rank)
  reducesTo_S1280000x64_S_d0_1 : S1280000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1280000 : S_.BroadcastsInDim S1280000 (![] : Fin 0 → Fin S1280000.rank)
  reducesTo_S1280000_S_d0 : S1280000.ReducesTo [0] S_

variable [Facts]

def fn_part5 {F : FTy → Type} [FloatOps F] (main_arg3 : IVec S1280000 32) (main_v82 : IVec S_ 1) (main_v84 : IVec S1280000 1) : IVec S_ 1 :=
  let main_c_33 : IVec S_ 1 := constantI S_ 1 1#1
  let main_v85 : IVec S_ 1 := (fun x v => Host.reduce IntOp.andi x v reducesTo_S1280000_S_d0 h_S_) main_v84 main_c_33
  let main_v86 : IVec S_ 1 := andi main_v82 main_v85
  let main_c_34 : IVec S_ 32 := constantI S_ 32 0#32
  let main_v87 : IVec S1280000 32 := broadcastInDim S1280000 ![] bcast_S_S1280000 main_c_34
  let main_v88 : IVec S1280000 1 := cmpi .sge main_arg3 main_v87
  let main_c_35 : IVec S_ 1 := constantI S_ 1 1#1
  let main_v89 : IVec S_ 1 := (fun x v => Host.reduce IntOp.andi x v reducesTo_S1280000_S_d0 h_S_) main_v88 main_c_35
  let main_v90 : IVec S_ 1 := andi main_v86 main_v89
  let main_c_36 : IVec S_ 32 := constantI S_ 32 80000#32
  let main_v91 : IVec S1280000 32 := broadcastInDim S1280000 ![] bcast_S_S1280000 main_c_36
  let main_v92 : IVec S1280000 1 := cmpi .slt main_arg3 main_v91
  let main_c_37 : IVec S_ 1 := constantI S_ 1 1#1
  let main_v93 : IVec S_ 1 := (fun x v => Host.reduce IntOp.andi x v reducesTo_S1280000_S_d0 h_S_) main_v92 main_c_37
  let main_v94 : IVec S_ 1 := andi main_v90 main_v93
  main_v94

def fn_part4 {F : FTy → Type} [FloatOps F] (main_arg2 : IVec S1280000 32) (main_arg3 : IVec S1280000 32) (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S1280000 32 := broadcastInDim S1280000 ![] bcast_S_S1280000 main_c_30
  let main_v80 : IVec S1280000 1 := cmpi .sge main_arg2 main_v79
  let main_c_31 : IVec S_ 1 := constantI S_ 1 1#1
  let main_v81 : IVec S_ 1 := (fun x v => Host.reduce IntOp.andi x v reducesTo_S1280000_S_d0 h_S_) main_v80 main_c_31
  let main_v82 : IVec S_ 1 := andi main_v78 main_v81
  let main_c_32 : IVec S_ 32 := constantI S_ 32 80000#32
  let main_v83 : IVec S1280000 32 := broadcastInDim S1280000 ![] bcast_S_S1280000 main_c_32
  let main_v84 : IVec S1280000 1 := cmpi .slt main_arg2 main_v83
  fn_part5 (F := F) main_arg3 main_v82 main_v84

def fn_part3 {F : FTy → Type} [FloatOps F] (main_arg2 : IVec S1280000 32) (main_arg3 : IVec S1280000 32) (main_arg13 : FVec F S64 .f32) (main_arg14 : FVec F S64 .f32) (main_arg15 : FVec F S64 .f32) (main_arg16 : FVec F S64 .f32) (main_arg17 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg3 main_arg16 main_arg17 main_v63 main_v67

def fn_part2 {F : FTy → Type} [FloatOps F] (main_arg2 : IVec S1280000 32) (main_arg3 : IVec S1280000 32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg2 main_arg3 main_arg13 main_arg14 main_arg15 main_arg16 main_arg17 main_v48 main_v49 main_v50

def fn_part1 {F : FTy → Type} [FloatOps F] (main_arg2 : IVec S1280000 32) (main_arg3 : IVec S1280000 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S80000x64 .f32) (main_arg1 : FVec F S1280000x64 .f32) (main_arg2 : IVec S1280000 32) (main_arg3 : IVec S1280000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S1280000x64 .f32 := Host.absf main_arg1
  let main_cst_0 : FVec F S_ .f32 := constant S_ .f32 0x7F800000#32
  let main_v5 : FVec F S1280000x64 .f32 := broadcastInDim S1280000x64 ![] bcast_S_S1280000x64 main_cst_0
  let main_v6 : IVec S1280000x64 1 := cmpf .olt main_v4 main_v5
  let main_c_1 : IVec S_ 1 := constantI S_ 1 1#1
  let main_v7 : IVec S_ 1 := (fun x v => Host.reduce IntOp.andi x v reducesTo_S1280000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S80000x64 : Shape := ⟨2, ![80000, 64]⟩
abbrev S1280000x64 : Shape := ⟨2, ![1280000, 64]⟩
abbrev S1280000 : Shape := ⟨1, ![1280000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S1x256 : Shape := ⟨2, ![1, 256]⟩
abbrev S80000x256 : Shape := ⟨2, ![80000, 256]⟩
abbrev S8000x64 : Shape := ⟨2, ![8000, 64]⟩
abbrev S8000x256 : Shape := ⟨2, ![8000, 256]⟩
abbrev S80000x128 : Shape := ⟨2, ![80000, 128]⟩
abbrev S_ : Shape := ⟨0, ![]⟩
abbrev S1280000x1 : Shape := ⟨2, ![1280000, 1]⟩
abbrev S1 : Shape := ⟨1, ![1]⟩
abbrev S1x1 : Shape := ⟨2, ![1, 1]⟩
abbrev S1280000x128 : Shape := ⟨2, ![1280000, 128]⟩
abbrev S1x64 : Shape := ⟨2, ![1, 64]⟩
abbrev S2560x64 : Shape := ⟨2, ![2560, 64]⟩
abbrev S4000x64 : Shape := ⟨2, ![4000, 64]⟩
abbrev S4000x128 : Shape := ⟨2, ![4000, 128]⟩
abbrev S8x64 : Shape := ⟨2, ![8, 64]⟩
abbrev S6x64 : Shape := ⟨2, ![6, 64]⟩
abbrev S80x64 : Shape := ⟨2, ![80, 64]⟩
abbrev S320x8x64 : Shape := ⟨3, ![320, 8, 64]⟩
abbrev S320x1x64 : Shape := ⟨3, ![320, 1, 64]⟩
abbrev S320x64 : Shape := ⟨2, ![320, 64]⟩
abbrev S10x8x64 : Shape := ⟨3, ![10, 8, 64]⟩
abbrev S10x1x64 : Shape := ⟨3, ![10, 1, 64]⟩
abbrev S10x64 : Shape := ⟨2, ![10, 64]⟩
abbrev S8000x128 : Shape := ⟨2, ![8000, 128]⟩

abbrev nBuf : Space → Nat
  | .hbm => 126
  | .vmem => 48
  | .smem => 0
  | _ => 0

abbrev bufTy : (tb : Table) → Fin (tcTables nBuf tb) → BufTy
  | .hbm, ⟨0, _⟩ => ⟨S80000x64, .f32⟩
  | .hbm, ⟨1, _⟩ => ⟨S1280000x64, .f32⟩
  | .hbm, ⟨2, _⟩ => ⟨S1280000, .i32⟩
  | .hbm, ⟨3, _⟩ => ⟨S1280000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x256, .f32⟩
  | .hbm, ⟨19, _⟩ => ⟨S256, .f32⟩
  | .hbm, ⟨20, _⟩ => ⟨S1x256, .f32⟩
  | .hbm, ⟨21, _⟩ => ⟨S80000x256, .f32⟩
  | .hbm, ⟨22, _⟩ => ⟨S80000x64, .f32⟩
  | .hbm, ⟨23, _⟩ => ⟨S80000x128, .f32⟩
  | .hbm, ⟨24, _⟩ => ⟨S80000x64, .f32⟩
  | .hbm, ⟨25, _⟩ => ⟨S_, .i32⟩
  | .hbm, ⟨26, _⟩ => ⟨S1280000, .i32⟩
  | .hbm, ⟨27, _⟩ => ⟨S1280000, .i1⟩
  | .hbm, ⟨28, _⟩ => ⟨S_, .i32⟩
  | .hbm, ⟨29, _⟩ => ⟨S1280000, .i32⟩
  | .hbm, ⟨30, _⟩ => ⟨S1280000, .i32⟩
  | .hbm, ⟨31, _⟩ => ⟨S1280000, .i32⟩
  | .hbm, ⟨32, _⟩ => ⟨S1280000x1, .i32⟩
  | .hbm, ⟨33, _⟩ => ⟨S1, .i32⟩
  | .hbm, ⟨34, _⟩ => ⟨S_, .i32⟩
  | .hbm, ⟨35, _⟩ => ⟨S1280000x1, .i32⟩
  | .hbm, ⟨36, _⟩ => ⟨S1280000x1, .i1⟩
  | .hbm, ⟨37, _⟩ => ⟨S1x1, .i32⟩
  | .hbm, ⟨38, _⟩ => ⟨S1280000x1, .i32⟩
  | .hbm, ⟨39, _⟩ => ⟨S1280000x1, .i1⟩
  | .hbm, ⟨40, _⟩ => ⟨S1280000x1, .i1⟩
  | .hbm, ⟨41, _⟩ => ⟨S_, .i1⟩
  | .hbm, ⟨42, _⟩ => ⟨S1280000, .i1⟩
  | .hbm, ⟨43, _⟩ => ⟨S1280000x128, .f32⟩
  | .hbm, ⟨44, _⟩ => ⟨S1280000x128, .i1⟩
  | .hbm, ⟨45, _⟩ => ⟨S_, .f32⟩
  | .hbm, ⟨46, _⟩ => ⟨S1280000x128, .f32⟩
  | .hbm, ⟨47, _⟩ => ⟨S1280000x128, .f32⟩
  | .hbm, ⟨48, _⟩ => ⟨S_, .i32⟩
  | .hbm, ⟨49, _⟩ => ⟨S1280000, .i32⟩
  | .hbm, ⟨50, _⟩ => ⟨S1280000, .i1⟩
  | .hbm, ⟨51, _⟩ => ⟨S_, .i32⟩
  | .hbm, ⟨52, _⟩ => ⟨S1280000, .i32⟩
  | .hbm, ⟨53, _⟩ => ⟨S1280000, .i32⟩
  | .hbm, ⟨54, _⟩ => ⟨S1280000, .i32⟩
  | .hbm, ⟨55, _⟩ => ⟨S1280000x1, .i32⟩
  | .hbm, ⟨56, _⟩ => ⟨S1, .i32⟩
  | .hbm, ⟨57, _⟩ => ⟨S_, .i32⟩
  | .hbm, ⟨58, _⟩ => ⟨S1280000x1, .i32⟩
  | .hbm, ⟨59, _⟩ => ⟨S1280000x1, .i1⟩
  | .hbm, ⟨60, _⟩ => ⟨S1x1, .i32⟩
  | .hbm, ⟨61, _⟩ => ⟨S1280000x1, .i32⟩
  | .hbm, ⟨62, _⟩ => ⟨S1280000x1, .i1⟩
  | .hbm, ⟨63, _⟩ => ⟨S1280000x1, .i1⟩
  | .hbm, ⟨64, _⟩ => ⟨S_, .i1⟩
  | .hbm, ⟨65, _⟩ => ⟨S1280000, .i1⟩
  | .hbm, ⟨66, _⟩ => ⟨S1280000x64, .f32⟩
  | .hbm, ⟨67, _⟩ => ⟨S1280000x64, .i1⟩
  | .hbm, ⟨68, _⟩ => ⟨S_, .f32⟩
  | .hbm, ⟨69, _⟩ => ⟨S1280000x64, .f32⟩
  | .hbm, ⟨70, _⟩ => ⟨S1280000x64, .f32⟩
  | .hbm, ⟨71, _⟩ => ⟨S1x64, .f32⟩
  | .hbm, ⟨72, _⟩ => ⟨S1280000x128, .f32⟩
  | .hbm, ⟨73, _⟩ => ⟨S2560x64, .f32⟩
  | .hbm, ⟨74, _⟩ => ⟨S_, .f32⟩
  | .hbm, ⟨75, _⟩ => ⟨S80000x128, .f32⟩
  | .hbm, ⟨76, _⟩ => ⟨S1280000x1, .i32⟩
  | .hbm, ⟨77, _⟩ => ⟨S80000x128, .f32⟩
  | .hbm, ⟨78, _⟩ => ⟨S80000x64, .f32⟩
  | .hbm, ⟨79, _⟩ => ⟨S80000x64, .f32⟩
  | .hbm, ⟨80, _⟩ => ⟨S80000x64, .f32⟩
  | .hbm, ⟨81, _⟩ => ⟨S80x64, .f32⟩
  | .hbm, ⟨82, _⟩ => ⟨S320x8x64, .f32⟩
  | .hbm, ⟨83, _⟩ => ⟨S320x1x64, .f32⟩
  | .hbm, ⟨84, _⟩ => ⟨S320x64, .f32⟩
  | .hbm, ⟨85, _⟩ => ⟨S_, .f32⟩
  | .hbm, ⟨86, _⟩ => ⟨S64, .f32⟩
  | .hbm, ⟨87, _⟩ => ⟨S320x1x64, .f32⟩
  | .hbm, ⟨88, _⟩ => ⟨S320x64, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S10x8x64, .f32⟩
  | .hbm, ⟨100, _⟩ => ⟨S10x1x64, .f32⟩
  | .hbm, ⟨101, _⟩ => ⟨S10x64, .f32⟩
  | .hbm, ⟨102, _⟩ => ⟨S_, .f32⟩
  | .hbm, ⟨103, _⟩ => ⟨S64, .f32⟩
  | .hbm, ⟨104, _⟩ => ⟨S10x1x64, .f32⟩
  | .hbm, ⟨105, _⟩ => ⟨S10x64, .f32⟩
  | .hbm, ⟨106, _⟩ => ⟨S_, .f32⟩
  | .hbm, ⟨107, _⟩ => ⟨S64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64, .f32⟩
  | .hbm, ⟨115, _⟩ => ⟨S64, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S80000x64, .f32⟩
  | .hbm, ⟨121, _⟩ => ⟨S1x64, .f32⟩
  | .hbm, ⟨122, _⟩ => ⟨S1x64, .f32⟩
  | .hbm, ⟨123, _⟩ => ⟨S1x64, .f32⟩
  | .hbm, ⟨124, _⟩ => ⟨S1x64, .f32⟩
  | .hbm, ⟨125, _⟩ => ⟨S1280000x64, .f32⟩
  | .local _ .vmem, ⟨0, _⟩ => ⟨S8000x64, .f32⟩
  | .local _ .vmem, ⟨1, _⟩ => ⟨S8000x64, .f32⟩
  | .local _ .vmem, ⟨2, _⟩ => ⟨S64x256, .f32⟩
  | .local _ .vmem, ⟨3, _⟩ => ⟨S1x256, .f32⟩
  | .local _ .vmem, ⟨4, _⟩ => ⟨S8000x256, .f32⟩
  | .local _ .vmem, ⟨5, _⟩ => ⟨S8000x256, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S1x64, .f32⟩
  | .local _ .vmem, ⟨10, _⟩ => ⟨S4000x128, .f32⟩
  | .local _ .vmem, ⟨11, _⟩ => ⟨S4000x128, .f32⟩
  | .local _ .vmem, ⟨12, _⟩ => ⟨S4000x64, .f32⟩
  | .local _ .vmem, ⟨13, _⟩ => ⟨S4000x64, .f32⟩
  | .local _ .vmem, ⟨14, _⟩ => ⟨S4000x128, .f32⟩
  | .local _ .vmem, ⟨15, _⟩ => ⟨S4000x128, .f32⟩
  | .local _ .vmem, ⟨16, _⟩ => ⟨S8x64, .f32⟩
  | .local _ .vmem, ⟨17, _⟩ => ⟨S8x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8000x64, .f32⟩
  | .local _ .vmem, ⟨25, _⟩ => ⟨S8000x64, .f32⟩
  | .local _ .vmem, ⟨26, _⟩ => ⟨S8x64, .f32⟩
  | .local _ .vmem, ⟨27, _⟩ => ⟨S8x64, .f32⟩
  | .local _ .vmem, ⟨28, _⟩ => ⟨S8000x64, .f32⟩
  | .local _ .vmem, ⟨29, _⟩ => ⟨S8000x64, .f32⟩
  | .local _ .vmem, ⟨30, _⟩ => ⟨S8000x64, .f32⟩
  | .local _ .vmem, ⟨31, _⟩ => ⟨S8000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S8000x64, .f32⟩
  | .local _ .vmem, ⟨37, _⟩ => ⟨S8000x64, .f32⟩
  | .local _ .vmem, ⟨38, _⟩ => ⟨S8000x128, .f32⟩
  | .local _ .vmem, ⟨39, _⟩ => ⟨S8000x128, .f32⟩
  | .local _ .vmem, ⟨40, _⟩ => ⟨S8000x64, .f32⟩
  | .local _ .vmem, ⟨41, _⟩ => ⟨S8000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S8000x64, .f32⟩
  | .local _ .vmem, ⟨47, _⟩ => ⟨S8000x64, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v7 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v8 : Ref sig .tc := ⟨.hbm, 70, rfl⟩
abbrev main_v9 : Ref sig .tc := ⟨.hbm, 71, rfl⟩
abbrev main_v10_0 : Ref sig .tc := ⟨.hbm, 72, rfl⟩
abbrev main_v10_1 : Ref sig .tc := ⟨.hbm, 73, rfl⟩
abbrev main_cst : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_v16_0 : Ref sig .tc := ⟨.hbm, 80, rfl⟩
abbrev main_v16_1 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_cst_0 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_cst_1 : Ref sig .tc := ⟨.hbm, 89, rfl⟩
abbrev main_v23 : Ref sig .tc := ⟨.hbm, 90, rfl⟩
abbrev main_cst_2 : Ref sig .tc := ⟨.hbm, 91, rfl⟩
abbrev main_v24 : Ref sig .tc := ⟨.hbm, 92, rfl⟩
abbrev main_v25 : Ref sig .tc := ⟨.hbm, 93, rfl⟩
abbrev main_cst_3 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_cst_4 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_5 : Ref sig .tc := ⟨.hbm, 106, rfl⟩
abbrev main_v36 : Ref sig .tc := ⟨.hbm, 107, rfl⟩
abbrev main_cst_6 : Ref sig .tc := ⟨.hbm, 108, rfl⟩
abbrev main_v37 : Ref sig .tc := ⟨.hbm, 109, rfl⟩
abbrev main_v38 : Ref sig .tc := ⟨.hbm, 110, rfl⟩
abbrev main_cst_7 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  concatenates_S64x64_S64x64_S64x64_S64x64_S64x256_d1 : Shape.Concatenates [S64x64, S64x64, S64x64, S64x64] S64x256 1
  concatenates_S64_S64_S64_S64_S256_d0 : Shape.Concatenates [S64, S64, S64, S64] S256 0
  shapeCasts_S256_S1x256 : S256.ShapeCasts S1x256
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  slices_S80000x256_S80000x64_0_0 : S80000x256.Slices ![0, 0] S80000x64
  slices_S80000x256_S80000x128_0_64 : S80000x256.Slices ![0, 64] S80000x128
  slices_S80000x256_S80000x64_0_192 : S80000x256.Slices ![0, 192] S80000x64
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  bcast_S1_S1x1_1 : S1.BroadcastsInDim S1x1 (![1] : Fin 1 → Fin S1x1.rank)
  bcast_S1x1_S1280000x1_0_1 : S1x1.BroadcastsInDim S1280000x1 (![0, 1] : Fin 2 → Fin S1280000x1.rank)
  reducesTo_S1280000x1_S1280000_d1 : S1280000x1.ReducesTo [1] S1280000
  h_S_ : 0 < S_.numel
  bcast_S1280000_S1280000x128_0 : S1280000.BroadcastsInDim S1280000x128 (![0] : Fin 1 → Fin S1280000x128.rank)
  bcast_S_S1280000x128 : S_.BroadcastsInDim S1280000x128 (![] : Fin 0 → Fin S1280000x128.rank)
  bcast_S1280000_S1280000x64_0 : S1280000.BroadcastsInDim S1280000x64 (![0] : Fin 1 → Fin S1280000x64.rank)
  bcast_S_S1280000x64 : S_.BroadcastsInDim S1280000x64 (![] : Fin 0 → Fin S1280000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x128_S4000x64_0_0 : ∀ a, (![0, 0] : Fin 2 → Nat) a + S4000x64.size a ≤ S4000x128.size a
  shapeCasts_S4000x64_S4000x64 : S4000x64.ShapeCasts S4000x64
  inb_S4000x128_S4000x64_0_64 : ∀ a, (![0, 64] : Fin 2 → Nat) a + S4000x64.size a ≤ S4000x128.size a
  concatenates_S4000x64_S4000x64_S4000x128_d1 : Shape.Concatenates [S4000x64, S4000x64] S4000x128 1
  inb_S4000x128_S4000x128_0_0 : ∀ a, (![0, 0] : Fin 2 → Nat) a + S4000x128.size a ≤ S4000x128.size a
  h_S4000x128 : 0 < S4000x128.numel
  reduces_S4000x64_S64 : S4000x64.Reduces [0] S64
  concatenates_S1x64_S1x64_S6x64_S8x64_d0 : Shape.Concatenates [S1x64, S1x64, S6x64] S8x64 0
  inb_S8x64_S8x64_0_0 : ∀ a, (![0, 0] : Fin 2 → Nat) a + S8x64.size a ≤ S8x64.size a
  h_S8x64 : 0 < S8x64.numel
  bcast_S_S80000x128 : S_.BroadcastsInDim S80000x128 (![] : Fin 0 → Fin S80000x128.rank)
  slices_S80000x128_S80000x64_0_0 : S80000x128.Slices ![0, 0] S80000x64
  slices_S80000x128_S80000x64_0_64 : S80000x128.Slices ![0, 64] S80000x64
  shapeCasts_S8000x64_S8000x64 : S8000x64.ShapeCasts S8000x64
  reduces_S8000x64_S64 : S8000x64.Reduces [0] S64
  shapeCasts_S2560x64_S320x8x64 : S2560x64.ShapeCasts S320x8x64
  slices_S320x8x64_S320x1x64_0_0_0 : S320x8x64.Slices ![0, 0, 0] S320x1x64
  shapeCasts_S320x1x64_S320x64 : S320x1x64.ShapeCasts S320x64
  reducesTo_S320x64_S64_d0 : S320x64.ReducesTo [0] S64
  slices_S320x8x64_S320x1x64_0_1_0 : S320x8x64.Slices ![0, 1, 0] S320x1x64
  bcast_S_S64 : S_.BroadcastsInDim S64 (![] : Fin 0 → Fin S64.rank)
  shapeCasts_S80x64_S10x8x64 : S80x64.ShapeCasts S10x8x64
  slices_S10x8x64_S10x1x64_0_0_0 : S10x8x64.Slices ![0, 0, 0] S10x1x64
  shapeCasts_S10x1x64_S10x64 : S10x1x64.ShapeCasts S10x64
  reducesTo_S10x64_S64_d0 : S10x64.ReducesTo [0] S64
  slices_S10x8x64_S10x1x64_0_1_0 : S10x8x64.Slices ![0, 1, 0] S10x1x64
  broadcasts_S1x64_S8000x64 : S1x64.Broadcasts S8000x64
  inb_S8000x128_S8000x64_0_64 : ∀ a, (![0, 64] : Fin 2 → Nat) a + S8000x64.size a ≤ S8000x128.size a
  dot_S8000x64_S64x256_S8000x256_1_0_0_1_n_n_wf : DotDims.WF S8000x64 S64x256 S8000x256 [1] [0] [0] [1] [] []
  gather_S80000x128_S1280000x1_S1280000x128_1_0_n_n_0_1_1128_wf : GatherDims.WF S80000x128 S1280000x1 S1280000x128 [1] [0] [] [0] [] 1 ![1, 128]
  gather_S80000x64_S1280000x1_S1280000x64_1_0_n_n_0_1_164_wf : GatherDims.WF S80000x64 S1280000x1 S1280000x64 [1] [0] [] [0] [] 1 ![1, 64]
  dot_S4000x64_S64x64_S4000x64_1_0_0_1_n_n_wf : DotDims.WF S4000x64 S64x64 S4000x64 [1] [0] [0] [1] [] []
  scatter_S80000x128_S1280000x1_S1280000x128_1_0_0_1_wf : ScatterDims.WF S80000x128 S1280000x1 S1280000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S80000x256.size a
  hwx0_3 : ∀ i : grid0.Coords, EltTy.bits .f32 = 32 ∨ (Rect.block (s := S80000x256) S8000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1280000x64.size a
  hwx1_0 : ∀ i : grid1.Coords, EltTy.bits .f32 = 32 ∨ (Rect.block (s := S1280000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S1280000x128.size a
  hwx1_3 : ∀ i : grid1.Coords, EltTy.bits .f32 = 32 ∨ (Rect.block (s := S1280000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S1280000x64.size a
  hwx1_4 : ∀ i : grid1.Coords, EltTy.bits .f32 = 32 ∨ (Rect.block (s := S1280000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S1280000x128.size a
  hwx1_5 : ∀ i : grid1.Coords, EltTy.bits .f32 = 32 ∨ (Rect.block (s := S1280000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S2560x64.size a
  hwx1_6 : ∀ i : grid1.Coords, EltTy.bits .f32 = 32 ∨ (Rect.block (s := S2560x64) S8x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S80000x64.size a
  hwx2_0 : ∀ i : grid2.Coords, EltTy.bits .f32 = 32 ∨ (Rect.block (s := S80000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S80000x64.size a
  hwx2_1 : ∀ i : grid2.Coords, EltTy.bits .f32 = 32 ∨ (Rect.block (s := S80000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S80000x64.size a
  hwx2_2 : ∀ i : grid2.Coords, EltTy.bits .f32 = 32 ∨ (Rect.block (s := S80000x64) S8000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S80000x64.size a
  hwx2_3 : ∀ i : grid2.Coords, EltTy.bits .f32 = 32 ∨ (Rect.block (s := S80000x64) S8000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x64.size a ≤ S80x64.size a
  hwx2_4 : ∀ i : grid2.Coords, EltTy.bits .f32 = 32 ∨ (Rect.block (s := S80x64) S8x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S80000x64.size a
  hwx3_0 : ∀ i : grid3.Coords, EltTy.bits .f32 = 32 ∨ (Rect.block (s := S80000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S80000x64.size a
  hwx3_1 : ∀ i : grid3.Coords, EltTy.bits .f32 = 32 ∨ (Rect.block (s := S80000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x64.size a ≤ S80000x64.size a
  hwx3_6 : ∀ i : grid3.Coords, EltTy.bits .f32 = 32 ∨ (Rect.block (s := S80000x64) S8000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S1280000x128.size a
  hwx4_0 : ∀ i : grid4.Coords, EltTy.bits .f32 = 32 ∨ (Rect.block (s := S1280000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S1280000x64.size a
  hwx4_1 : ∀ i : grid4.Coords, EltTy.bits .f32 = 32 ∨ (Rect.block (s := S1280000x64) S8000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x64.size a ≤ S1280000x64.size a
  hwx4_6 : ∀ i : grid4.Coords, EltTy.bits .f32 = 32 ∨ (Rect.block (s := S1280000x64) S8000x64.size (cc4_transform_6 i) (hinb4_6 i)).WholeWords (EltTy.packing .f32)

variable [Facts₀]

def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def gather_S80000x128_S1280000x1_S1280000x128_1_0_n_n_0_1_1128 : GatherDims S80000x128 S1280000x1 S1280000x128 where
  offsetDims := [1]
  collapsedSliceDims := [0]
  operandBatchingDims := []
  startIndicesBatchingDims := []
  startIndexMap := [0]
  indexVectorDim := 1
  sliceSizes := ![1, 128]
  wf := gather_S80000x128_S1280000x1_S1280000x128_1_0_n_n_0_1_1128_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S80000x128_S1280000x1_S1280000x128_1_0_0_1 : ScatterDims S80000x128 S1280000x1 S1280000x128 where
  updateWindowDims := [1]
  insertedWindowDims := [0]
  scatterDimsToOperandDims := [0]
  indexVectorDim := 1
  wf := scatter_S80000x128_S1280000x1_S1280000x128_1_0_0_1_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S4000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S8x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v4) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_0) S8000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_1) S8x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v16_0) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S8000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v10_0) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v52) S8000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S80000x64 : Shape := ⟨2, ![80000, 64]⟩
abbrev S1280000x64 : Shape := ⟨2, ![1280000, 64]⟩
abbrev S1280000 : Shape := ⟨1, ![1280000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1280000x1 : Shape := ⟨2, ![1280000, 1]⟩

abbrev nBuf : Space → Nat
  | .hbm => 157
  | .vmem => 0
  | .smem => 0
  | _ => 0

abbrev hbmTy0_0 (i : Nat) : BufTy := match i % 128 with
  | 0 => ⟨S80000x64, .f32⟩
  | 1 => ⟨S1280000x64, .f32⟩
  | 2 => ⟨S1280000, .i32⟩
  | 3 => ⟨S1280000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S80000x64, .f32⟩
  | 19 => ⟨S1x64, .f32⟩
  | 20 => ⟨S80000x64, .f32⟩
  | 21 => ⟨S80000x64, .f32⟩
  | 22 => ⟨S80000x64, .f32⟩
  | 23 => ⟨S1x64, .f32⟩
  | 24 => ⟨S80000x64, .f32⟩
  | 25 => ⟨S80000x64, .f32⟩
  | 26 => ⟨S1280000x64, .f32⟩
  | 27 => ⟨S1x64, .f32⟩
  | 28 => ⟨S1280000x64, .f32⟩
  | 29 => ⟨S1280000x64, .f32⟩
  | 30 => ⟨S80000x64, .f32⟩
  | 31 => ⟨S1x64, .f32⟩
  | 32 => ⟨S80000x64, .f32⟩
  | 33 => ⟨S80000x64, .f32⟩
  | 34 => ⟨S80000x64, .f32⟩
  | 35 => ⟨S1x64, .f32⟩
  | 36 => ⟨S80000x64, .f32⟩
  | 37 => ⟨S80000x64, .f32⟩
  | 38 => ⟨S_, .i32⟩
  | 39 => ⟨S1280000, .i32⟩
  | 40 => ⟨S1280000, .i1⟩
  | 41 => ⟨S_, .i32⟩
  | 42 => ⟨S1280000, .i32⟩
  | 43 => ⟨S1280000, .i32⟩
  | 44 => ⟨S1280000, .i32⟩
  | 45 => ⟨S1280000x1, .i32⟩
  | 46 => ⟨S1280000x64, .f32⟩
  | 47 => ⟨S_, .i32⟩
  | 48 => ⟨S1280000, .i32⟩
  | 49 => ⟨S1280000, .i1⟩
  | 50 => ⟨S_, .i32⟩
  | 51 => ⟨S1280000, .i32⟩
  | 52 => ⟨S1280000, .i32⟩
  | 53 => ⟨S1280000, .i32⟩
  | 54 => ⟨S1280000x1, .i32⟩
  | 55 => ⟨S1280000x64, .f32⟩
  | 56 => ⟨S1280000x64, .f32⟩
  | 57 => ⟨S1280000x64, .f32⟩
  | 58 => ⟨S1280000x64, .f32⟩
  | 59 => ⟨S1280000x64, .f32⟩
  | 60 => ⟨S_, .f32⟩
  | 61 => ⟨S1280000x64, .f32⟩
  | 62 => ⟨S1280000x64, .f32⟩
  | 63 => ⟨S_, .f32⟩
  | 64 => ⟨S1280000x64, .f32⟩
  | 65 => ⟨S1280000x64, .f32⟩
  | 66 => ⟨S_, .i32⟩
  | 67 => ⟨S1280000, .i32⟩
  | 68 => ⟨S1280000, .i1⟩
  | 69 => ⟨S_, .i32⟩
  | 70 => ⟨S1280000, .i32⟩
  | 71 => ⟨S1280000, .i32⟩
  | 72 => ⟨S1280000, .i32⟩
  | 73 => ⟨S1280000x1, .i32⟩
  | 74 => ⟨S1280000x64, .f32⟩
  | 75 => ⟨S1280000x64, .f32⟩
  | 76 => ⟨S_, .f32⟩
  | 77 => ⟨S80000x64, .f32⟩
  | 78 => ⟨S1280000x1, .i32⟩
  | 79 => ⟨S80000x64, .f32⟩
  | 80 => ⟨S_, .f32⟩
  | 81 => ⟨S80000x64, .f32⟩
  | 82 => ⟨S1280000x1, .i32⟩
  | 83 => ⟨S80000x64, .f32⟩
  | 84 => ⟨S_, .f32⟩
  | 85 => ⟨S80000x64, .f32⟩
  | 86 => ⟨S80000x64, .f32⟩
  | 87 => ⟨S80000x64, .f32⟩
  | 88 => ⟨S80000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S80000x64, .f32⟩
  | 96 => ⟨S80000x64, .f32⟩
  | 97 => ⟨S80000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S80000x64, .f32⟩
  | 105 => ⟨S80000x64, .f32⟩
  | 106 => ⟨S_, .f32⟩
  | 107 => ⟨S64, .f32⟩
  | 108 => ⟨S64, .f32⟩
  | 109 => ⟨S64, .f32⟩
  | 110 => ⟨S1x64, .f32⟩
  | 111 => ⟨S80000x64, .f32⟩
  | 112 => ⟨S80000x64, .f32⟩
  | 113 => ⟨S1x64, .f32⟩
  | 114 => ⟨S80000x64, .f32⟩
  | 115 => ⟨S80000x64, .f32⟩
  | 116 => ⟨S1x64, .f32⟩
  | 117 => ⟨S80000x64, .f32⟩
  | 118 => ⟨S80000x64, .f32⟩
  | 119 => ⟨S_, .f32⟩
  | 120 => ⟨S80000x64, .f32⟩
  | 121 => ⟨S80000x64, .f32⟩
  | 122 => ⟨S_, .f32⟩
  | 123 => ⟨S64, .f32⟩
  | 124 => ⟨S_, .f32⟩
  | 125 => ⟨S64, .f32⟩
  | 126 => ⟨S64, .f32⟩
  | 127 => ⟨S1x64, .f32⟩
  | _ => ⟨S80000x64, .f32⟩

abbrev hbmTy0_1 (i : Nat) : BufTy := match i % 128 with
  | 0 => ⟨S1280000x64, .f32⟩
  | 1 => ⟨S1280000x64, .f32⟩
  | 2 => ⟨S1280000x64, .f32⟩
  | 3 => ⟨S_, .f32⟩
  | 4 => ⟨S64, .f32⟩
  | 5 => ⟨S_, .f32⟩
  | 6 => ⟨S64, .f32⟩
  | 7 => ⟨S64, .f32⟩
  | 8 => ⟨S1x64, .f32⟩
  | 9 => ⟨S1280000x64, .f32⟩
  | 10 => ⟨S1280000x64, .f32⟩
  | 11 => ⟨S_, .f32⟩
  | 12 => ⟨S64, .f32⟩
  | 13 => ⟨S64, .f32⟩
  | 14 => ⟨S64, .f32⟩
  | 15 => ⟨S1x64, .f32⟩
  | 16 => ⟨S1280000x64, .f32⟩
  | 17 => ⟨S1280000x64, .f32⟩
  | 18 => ⟨S1x64, .f32⟩
  | 19 => ⟨S1280000x64, .f32⟩
  | 20 => ⟨S1280000x64, .f32⟩
  | 21 => ⟨S1x64, .f32⟩
  | 22 => ⟨S1280000x64, .f32⟩
  | 23 => ⟨S1280000x64, .f32⟩
  | 24 => ⟨S_, .f32⟩
  | 25 => ⟨S1280000x64, .f32⟩
  | 26 => ⟨S1280000x64, .f32⟩
  | 27 => ⟨S80000x64, .f32⟩
  | 28 => ⟨S1280000x64, .f32⟩
  | _ => ⟨S80000x64, .f32⟩

abbrev hbmTy (i : Nat) : BufTy := match i / 128 with
  | 0 => hbmTy0_0 i
  | 1 => hbmTy0_1 i
  | _ => ⟨S80000x64, .f32⟩

abbrev bufTy : (tb : Table) → Fin (tcTables nBuf tb) → BufTy
  | .hbm, ⟨i, _⟩ => hbmTy i
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_1 : Ref sig .tc := ⟨.hbm, 47, rfl⟩
abbrev main_v27 : Ref sig .tc := ⟨.hbm, 48, rfl⟩
abbrev main_v28 : Ref sig .tc := ⟨.hbm, 49, rfl⟩
abbrev main_c_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_cst_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call0_cst : Ref sig .tc := ⟨.hbm, 119, rfl⟩
abbrev main_call0_v0 : Ref sig .tc := ⟨.hbm, 120, rfl⟩
abbrev main_v85 : Ref sig .tc := ⟨.hbm, 121, rfl⟩
abbrev main_cst_14 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_18 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call1_cst : Ref sig .tc := ⟨.hbm, 152, rfl⟩
abbrev main_call1_v0 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S1x64_S1280000x64_0_1 : S1x64.BroadcastsInDim S1280000x64 (![0, 1] : Fin 2 → Fin S1280000x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x64 : S_.BroadcastsInDim S1280000x64 (![] : Fin 0 → Fin S1280000x64.rank)
  bcast_S_S80000x64 : S_.BroadcastsInDim S80000x64 (![] : Fin 0 → Fin S80000x64.rank)
  reducesTo_S80000x64_S64_d0 : S80000x64.ReducesTo [0] S64
  h_S_ : 0 < S_.numel
  bcast_S_S64 : S_.BroadcastsInDim S64 (![] : Fin 0 → Fin S64.rank)
  reducesTo_S1280000x64_S64_d0 : S1280000x64.ReducesTo [0] S64
  dot_S80000x64_S64x64_S80000x64_1_0_0_1_n_n_wf : DotDims.WF S80000x64 S64x64 S80000x64 [1] [0] [0] [1] [] []
  dot_S1280000x64_S64x64_S1280000x64_1_0_0_1_n_n_wf : DotDims.WF S1280000x64 S64x64 S1280000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1

variable [Facts₀]

def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def dot_S1280000x64_S64x64_S1280000x64_1_0_0_1_n_n : DotDims S1280000x64 S64x64 S1280000x64 where
  lhsContracting := [1]
  rhsContracting := [0]
  lhsNonContracting := [0]
  rhsNonContracting := [1]
  lhsBatch := []
  rhsBatch := []
  wf := dot_S1280000x64_S64x64_S1280000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf

class Facts : Prop extends Facts₀ where

variable [Facts]
-- ==== Proof.KI.Region0.lean ====
/-
  Region 0 of the idealized kernel's @main: the fused node projection. One pipeline over ten row blocks of 8000 rows;
  at each point the body loads a block of `x` (window 0), the whole 64 × 256 weight (window 1) and the 1 × 256 bias
  (window 2), and stores one 8000 × 256 block (window 3) whose value is the payload `k0_pay1` of those three loads.
  Everything here is stated at a PARAMETER `V`: the contents of the core's buffers when the region is entered. Stated:
  each window's block at a point, what the body leaves in the output's staging buffer (the canonical reading of its one
  store), the body's triple, the pipeline's proof data with exact contents, and the body obligation at every point.
-/
import proofs.«415303_j23759759082192_3_alg».proof.Proof.Gen.KernelIdeal.Launch
import proofs.«415303_j23759759082192_3_alg».proof.Proof.Gen.KernelIdeal.Skeleton
import proofs.«415303_j23759759082192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether that point fetched it or an earlier
    one did (the block index has not moved since), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S8000x64 := Rect.unit (s := S8000x64) ![0, 0] S8000x64.size inb_S8000x64_S8000x64_0_0
abbrev r0_w : Rect S64x256 := Rect.unit (s := S64x256) ![0, 0] S64x256.size inb_S64x256_S64x256_0_0
abbrev r0_b : Rect S1x256 := Rect.unit (s := S1x256) ![0, 0] S1x256.size inb_S1x256_S1x256_0_0
abbrev r0_o : Rect S8000x256 := Rect.unit (s := S8000x256) ![0, 0] S8000x256.size inb_S8000x256_S8000x256_0_0

/-- What the body leaves in the output window's staging buffer, from the three input blocks: its one store. -/
def out0_3 (x0 : Vec F S8000x64 .f32) (x1 : Vec F S64x256 .f32) (x2 : Vec F S1x256 .f32) : Vec F S8000x256 .f32 :=
  View.canon [⟨r0_o, k0_pay1 (View.ld x0 r0_x) (View.ld x1 r0_w) (View.ld x2 r0_b)⟩]

/-- The one store covers the buffer. -/
theorem cover0_3 (p0 : Vec F S8000x256 .f32) (y : S8000x256.Idx) :
    ∃ pc ∈ ([⟨r0_o, p0⟩] : List (View.Piece (Elt F) S8000x256 .f32)), y ∈ pc.1.set :=
  View.cover_of_tiled [⟨r0_o, p0⟩] S8000x256.size (by rfl) y

set_option maxHeartbeats 1000000 in
/-- The body on whole staging memrefs: the inputs at read contents, the output at anything, runs to the continuation
    holding the inputs as they were and the output at `out0_3` of them. -/
theorem sound_kernel0 (c : Dev nD) (E : Set ℕ) (i : grid0.Coords)
    (arg1 : Memref sig .tc .vmem S8000x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S8000x256 .f32) (harg4 : arg4.IsWhole)
    (x0 : Vec F S8000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__xproj_kernel i arg1 harg1 arg2 harg2 arg3 harg3 arg4 harg4) K := by
  simp only [cc0__xproj_kernel_eq_skeleton]; unfold cc0__xproj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the idealized kernel's @main: the edge gate. One pipeline over 320 row blocks of 4000 edges; at each point the body loads a block of the edge features (window 0), the 64 × 64 weight (window 1), the 1 × 64 bias (window 2), a 4000 × 128 block of gathered source rows (window 3) and a 4000 × 64 block of gathered destination rows (window 4), and stores a 4000 × 128 block (window 5) and an 8 × 64 block of partial sums (window 6).
  Everything here is stated at a PARAMETER `V`: the contents of the core's buffers when the region is entered. Stated:
  each window's block at a point, what the body leaves in each output's staging buffer (the canonical reading of its one
  store), the body's triple, the pipeline's proof data with exact contents, and the body obligation at every point.
-/
import proofs.«415303_j23759759082192_3_alg».proof.Proof.Gen.KernelIdeal.Launch
import proofs.«415303_j23759759082192_3_alg».proof.Proof.Gen.KernelIdeal.Skeleton
import proofs.«415303_j23759759082192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: whole buffers, and the two 64-column halves of the 128-wide gathered block. -/
abbrev r1_e : Rect S4000x64 := Rect.unit (s := S4000x64) ![0, 0] S4000x64.size inb_S4000x64_S4000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_lo : Rect S4000x128 := Rect.unit (s := S4000x128) ![0, 0] S4000x64.size inb_S4000x128_S4000x64_0_0
abbrev r1_hi : Rect S4000x128 := Rect.unit (s := S4000x128) ![0, 64] S4000x64.size inb_S4000x128_S4000x64_0_64
abbrev r1_o : Rect S4000x128 := Rect.unit (s := S4000x128) ![0, 0] S4000x128.size inb_S4000x128_S4000x128_0_0
abbrev r1_s : Rect S8x64 := Rect.unit (s := S8x64) ![0, 0] S8x64.size inb_S8x64_S8x64_0_0

/-- What the body leaves in output window 5's staging buffer (the 4000 × 128 block [gate · message | gate]), from the five
    input blocks: its one store. -/
def out1_5 (x0 : Vec F S4000x64 .f32) (x1 : Vec F S64x64 .f32) (x2 : Vec F S1x64 .f32) (x3 : Vec F S4000x128 .f32) (x4 : Vec F S4000x64 .f32) : Vec F S4000x128 .f32 :=
  View.canon [⟨r1_o, k1_pay2 (View.ld x0 r1_e) (View.ld x1 r1_w) (View.ld x2 r1_b) (View.ld x3 r1_lo) (View.ld x3 r1_hi) (View.ld x4 r1_e)⟩]

/-- What the body leaves in output window 6's staging buffer (the 8 × 64 block of partial sums), from the input blocks. -/
def out1_6 (x0 : Vec F S4000x64 .f32) (x1 : Vec F S64x64 .f32) (x2 : Vec F S1x64 .f32) (x3 : Vec F S4000x128 .f32) (x4 : Vec F S4000x64 .f32) : Vec F S8x64 .f32 :=
  View.canon [⟨r1_s, k1_pay3 (View.ld x0 r1_e) (View.ld x1 r1_w) (View.ld x2 r1_b) (View.ld x3 r1_hi) (View.ld x4 r1_e)⟩]

/-- An input window's current staging buffer holds its block at every point, whether that point fetched it or an earlier
    one did (the block index has not moved since), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one store into each output buffer covers it. -/
theorem cover1_5 (p0 : Vec F S4000x128 .f32) (y : S4000x128.Idx) :
    ∃ pc ∈ ([⟨r1_o, p0⟩] : List (View.Piece (Elt F) S4000x128 .f32)), y ∈ pc.1.set :=
  View.cover_of_tiled [⟨r1_o, p0⟩] S4000x128.size (by rfl) y
theorem cover1_6 (p0 : Vec F S8x64 .f32) (y : S8x64.Idx) :
    ∃ pc ∈ ([⟨r1_s, p0⟩] : List (View.Piece (Elt F) S8x64 .f32)), y ∈ pc.1.set :=
  View.cover_of_tiled [⟨r1_s, p0⟩] S8x64.size (by rfl) y

set_option maxHeartbeats 2000000 in
/-- The body on whole staging memrefs: the inputs at read contents, the outputs at anything, runs to the continuation
    holding the inputs as they were and the outputs at `out1_5` and `out1_6` of them. -/
theorem sound_kernel1 (c : Dev nD) (E : Set ℕ) (i : grid1.Coords)
    (arg1 : Memref sig .tc .vmem S4000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S4000x128 .f32) (harg4 : arg4.IsWhole)
    (arg5 : Memref sig .tc .vmem S4000x64 .f32) (harg5 : arg5.IsWhole) (arg6 : Memref sig .tc .vmem S4000x128 .f32) (harg6 : arg6.IsWhole)
    (arg7 : Memref sig .tc .vmem S8x64 .f32) (harg7 : arg7.IsWhole)
    (x0 : Vec F S4000x64 .f32) (x1 : Vec F S64x64 .f32) (x2 : Vec F S1x64 .f32) (x3 : Vec F S4000x128 .f32) (x4 : Vec F S4000x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E
          (cc1__edge_gate_kernel i arg1 harg1 arg2 harg2 arg3 harg3 arg4 harg4 arg5 harg5 arg6 harg6 arg7 harg7) K := by
  simp only [cc1__edge_gate_kernel_eq_skeleton]; unfold cc1__edge_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The proof data of pipeline 1 on core `c`: the arrays as the region finds them; after the body at point `t` each
    input's buffer at its block and each output's at its `out1_*` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the idealized kernel's @main: the node combine. One pipeline over ten row blocks of 8000 nodes; at each point the body loads three 8000 × 64 blocks (windows 0, 1, 2) and stores an 8000 × 64 block (window 3) and an 8 × 64 block of partial sums (window 4).
  Everything here is stated at a PARAMETER `V`: the contents of the core's buffers when the region is entered. Stated:
  each window's block at a point, what the body leaves in each output's staging buffer (the canonical reading of its one
  store), the body's triple, the pipeline's proof data with exact contents, and the body obligation at every point.
-/
import proofs.«415303_j23759759082192_3_alg».proof.Proof.Gen.KernelIdeal.Launch
import proofs.«415303_j23759759082192_3_alg».proof.Proof.Gen.KernelIdeal.Skeleton
import proofs.«415303_j23759759082192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_x : Rect S8000x64 := Rect.unit (s := S8000x64) ![0, 0] S8000x64.size inb_S8000x64_S8000x64_0_0
abbrev r2_s : Rect S8x64 := Rect.unit (s := S8x64) ![0, 0] S8x64.size inb_S8x64_S8x64_0_0

/-- What the body leaves in output window 3's staging buffer (the 8000 × 64 block of the combined node value), from the
    three input blocks: its one store. -/
def out2_3 (x0 x1 x2 : Vec F S8000x64 .f32) : Vec F S8000x64 .f32 :=
  View.canon [⟨r2_x, k2_pay1 (View.ld x0 r2_x) (View.ld x1 r2_x) (View.ld x2 r2_x)⟩]

/-- What the body leaves in output window 4's staging buffer (the 8 × 64 block of partial sums), from the input blocks. -/
def out2_4 (x0 x1 x2 : Vec F S8000x64 .f32) : Vec F S8x64 .f32 :=
  View.canon [⟨r2_s, k2_pay2 (View.ld x0 r2_x) (View.ld x1 r2_x) (View.ld x2 r2_x)⟩]

/-- An input window's current staging buffer holds its block at every point, whether that point fetched it or an earlier
    one did (the block index has not moved since), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one store into window 3's buffer covers it. -/
theorem cover2_3 (p0 : Vec F S8000x64 .f32) (y : S8000x64.Idx) :
    ∃ pc ∈ ([⟨r2_x, p0⟩] : List (View.Piece (Elt F) S8000x64 .f32)), y ∈ pc.1.set :=
  View.cover_of_tiled [⟨r2_x, p0⟩] S8000x64.size (by rfl) y

/-- The one store into window 4's buffer covers it. -/
theorem cover2_4 (p0 : Vec F S8x64 .f32) (y : S8x64.Idx) :
    ∃ pc ∈ ([⟨r2_s, p0⟩] : List (View.Piece (Elt F) S8x64 .f32)), y ∈ pc.1.set :=
  View.cover_of_tiled [⟨r2_s, p0⟩] S8x64.size (by rfl) y

set_option maxHeartbeats 1000000 in
/-- The body on whole staging memrefs: the inputs at read contents, the outputs at anything, runs to the continuation
    holding the inputs as they were and each output at its `out2_*` of them. Each output is read once before its store;
    the value read is not used. -/
theorem sound_kernel2 (c : Dev nD) (E : Set ℕ) (i : grid2.Coords)
    (arg1 : Memref sig .tc .vmem S8000x64 .f32) (harg1 : arg1.IsWhole) (arg2 : Memref sig .tc .vmem S8000x64 .f32) (harg2 : arg2.IsWhole)
    (arg3 : Memref sig .tc .vmem S8000x64 .f32) (harg3 : arg3.IsWhole) (arg4 : Memref sig .tc .vmem S8000x64 .f32) (harg4 : arg4.IsWhole)
    (arg5 : Memref sig .tc .vmem S8x64 .f32) (harg5 : arg5.IsWhole)
    (x0 : Vec F S8000x64 .f32) (x1 : Vec F S8000x64 .f32) (x2 : Vec F S8000x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)
            ∗ owns (c : Thread nD τ) arg5 fullShare (out2_4 x0 x1 x2)) -∗ K ⟨⟩))
      ⊢ wp frame (wpE (defs₀ (F := F)) Variants.none c none) E (cc2__x_stats_kernel i arg1 harg1 arg2 harg2 arg3 harg3 arg4 harg4 arg5 harg5) K := by
  simp only [cc2__x_stats_kernel_eq_skeleton]; unfold cc2__x_stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-- The proof data of pipeline 2 on core `c`: the arrays as the region finds them; after the body at point `t` each
    input's buffer at its block and each output's at its `out2_*` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]
theorem after2_4 (c : Dev nD) (t : Fin cfg2.N) :
    (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the idealized kernel's @main: the node normalisation. One pipeline over ten row blocks of 8000 nodes; at each point the body loads a block of the combined value (window 0), a block of the residual (window 1) and four 1 × 64 rows (windows 2 to 5: mean, variance, scale, shift), and stores an 8000 × 64 block (window 6).
  Everything here is stated at a PARAMETER `V`: the contents of the core's buffers when the region is entered. Stated:
  each window's block at a point, what the body leaves in each output's staging buffer (the canonical reading of its one
  store), the body's triple, the pipeline's proof data with exact contents, and the body obligation at every point.
-/
import proofs.«415303_j23759759082192_3_alg».proof.Proof.Gen.KernelIdeal.Launch
import proofs.«415303_j23759759082192_3_alg».proof.Proof.Gen.KernelIdeal.Skeleton
import proofs.«415303_j23759759082192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_x : Rect S8000x64 := Rect.unit (s := S8000x64) ![0, 0] S8000x64.size inb_S8000x64_S8000x64_0_0
abbrev r3_v : Rect S1x64 := Rect.unit (s := S1x64) ![0, 0] S1x64.size inb_S1x64_S1x64_0_0

/-- What the body leaves in output window 6's staging buffer (an 8000 × 64 block of the normalised node output), from the
    six input blocks (value, residual, mean, variance, scale, shift): its one store. -/
def out3_6 (x0 x1 : Vec F S8000x64 .f32) (x2 x3 x4 x5 : Vec F S1x64 .f32) : Vec F S8000x64 .f32 :=
  View.canon [⟨r3_x, k3_pay1 (View.ld x0 r3_x) (View.ld x2 r3_v) (View.ld x3 r3_v) (View.ld x4 r3_v) (View.ld x5 r3_v) (View.ld x1 r3_x)⟩]

/-- An input window's current staging buffer holds its block at every point, whether that point fetched it or an earlier
    one did (the block index has not moved since), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The one store covers the buffer. -/
theorem cover3_6 (p0 : Vec F S8000x64 .f32) (y : S8000x64.Idx) :
    ∃ pc ∈ ([⟨r3_x, p0⟩] : List (View.Piece (Elt F) S8000x64 .f32)), y ∈ pc.1.set :=
  View.cover_of_tiled [⟨r3_x, p0⟩] S8000x64.size (by rfl) y

set_option maxHeartbeats 1000000 in
/-- The body on whole staging memrefs: the inputs at read contents, the output at anything, runs to the continuation
    holding the inputs as they were and the output at `out3_6` of them. The output's own earlier contents are read once
    and dropped before the store. -/
theorem sound_kernel3 (c : Dev nD) (E : Set ℕ) (i : grid3.Coords)
    (arg1 : Memref sig .tc .vmem S8000x64 .f32) (harg1 : arg1.IsWhole)
    (arg2 : Memref sig .tc .vmem S8000x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S8000x64 .f32) (harg7 : arg7.IsWhole)
    (x0 x1 : Vec F S8000x64 .f32) (x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__bn_apply_kernel i arg1 harg1 arg2 harg2 arg3 harg3 arg4 harg4 arg5 harg5 arg6 harg6 arg7 harg7) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at point `t` each
    input's buffer at its block and the output's at `out3_6` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  Region 4 of the idealized kernel's @main: the edge normalisation. One pipeline over 160 row blocks of 8000 edges; at each point the body loads an 8000 × 128 block whose upper half is the gate (window 0), a block of the residual (window 1) and four 1 × 64 rows (windows 2 to 5: mean, variance, scale, shift), and stores an 8000 × 64 block (window 6).
  Everything here is stated at a PARAMETER `V`: the contents of the core's buffers when the region is entered. Stated:
  each window's block at a point, what the body leaves in each output's staging buffer (the canonical reading of its one
  store), the body's triple, the pipeline's proof data with exact contents, and the body obligation at every point.
-/
import proofs.«415303_j23759759082192_3_alg».proof.Proof.Gen.KernelIdeal.Launch
import proofs.«415303_j23759759082192_3_alg».proof.Proof.Gen.KernelIdeal.Skeleton
import proofs.«415303_j23759759082192_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rectangles the body loads and stores through: whole buffers, and the upper 64-column half of the 128-wide block. -/
abbrev r4_x : Rect S8000x64 := Rect.unit (s := S8000x64) ![0, 0] S8000x64.size inb_S8000x64_S8000x64_0_0
abbrev r4_v : Rect S1x64 := Rect.unit (s := S1x64) ![0, 0] S1x64.size inb_S1x64_S1x64_0_0
abbrev r4_hi : Rect S8000x128 := Rect.unit (s := S8000x128) ![0, 64] S8000x64.size inb_S8000x128_S8000x64_0_64

/-- What the body leaves in output window 6's staging buffer (an 8000 × 64 block of the normalised edge output), from the
    six input blocks (the 128-wide block whose upper half is the gate, residual, mean, variance, scale, shift): its one store. -/
def out4_6 (x0 : Vec F S8000x128 .f32) (x1 : Vec F S8000x64 .f32) (x2 x3 x4 x5 : Vec F S1x64 .f32) : Vec F S8000x64 .f32 :=
  View.canon [⟨r4_x, k4_pay1 (View.ld x0 r4_hi) (View.ld x2 r4_v) (View.ld x3 r4_v) (View.ld x4 r4_v) (View.ld x5 r4_v) (View.ld x1 r4_x)⟩]

/-- An input window's current staging buffer holds its block at every point, whether that point fetched it or an earlier
    one did (the block index has not moved since), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- The one store covers the buffer. -/
theorem cover4_6 (p0 : Vec F S8000x64 .f32) (y : S8000x64.Idx) :
    ∃ pc ∈ ([⟨r4_x, p0⟩] : List (View.Piece (Elt F) S8000x64 .f32)), y ∈ pc.1.set :=
  View.cover_of_tiled [⟨r4_x, p0⟩] S8000x64.size (by rfl) y

set_option maxHeartbeats 2000000 in
/-- The body on whole staging memrefs: the six inputs at read contents, the output at anything, runs to the continuation
    holding the inputs as they were and the output at `out4_6` of them. The output's own buffer is read once before the
    store; that value is not used. -/
theorem sound_kernel4 (c : Dev nD) (E : Set ℕ) (i : grid4.Coords)
    (arg1 : Memref sig .tc .vmem S8000x128 .f32) (harg1 : arg1.IsWhole) (arg2 : Memref sig .tc .vmem S8000x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S8000x64 .f32) (harg7 : arg7.IsWhole)
    (x0 : Vec F S8000x128 .f32) (x1 : Vec F S8000x64 .f32) (x2 x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E (cc4__bn_apply_kernel i arg1 harg1 arg2 harg2 arg3 harg3 arg4 harg4 arg5 harg5 arg6 harg6 arg7 harg7) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-- The proof data of pipeline 4 on core `c`: the arrays as the region finds them; after the body at point `t` each
    input's buffer at its block and the output's at `out4_6` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the idealized kernel's @main, from the launch to the return: thirteen items in order, eight stretches of host
  operations and five kernel regions. The contents of a core's buffers at each boundary are a fold from the launch memory:
  a host stretch applies its operations; a region leaves its arrays at what its pipeline's write-backs leave (its inputs as
  entered, each output at the blocks its points wrote) and every other buffer as entered. Every weakly fair execution ends
  with every unscoped buffer at the last boundary's contents; no item writes an argument, so each argument ends as launched.
-/
import proofs.«415303_j23759759082192_3_alg».proof.Proof.KI.Region0
import proofs.«415303_j23759759082192_3_alg».proof.Proof.KI.Region1
import proofs.«415303_j23759759082192_3_alg».proof.Proof.KI.Region2
import proofs.«415303_j23759759082192_3_alg».proof.Proof.KI.Region3
import proofs.«415303_j23759759082192_3_alg».proof.Proof.KI.Region4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the host stretch `hostOps1_1`. -/
abbrev W4 : Dev nD → Valuation τ sig (Elt F) := fun c => StableHlo.after hostOps1_1 (W3 m ρ c)
abbrev V4 : (c : Dev nD) → (b : Ref sig .tc) → Buf (Elt F) ((c : Thread nD τ).loc b) := fun c b => W4 m ρ c b
/-- After the host stretch `hostOps1_2`. -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- After the host stretch `hostOps1_3`. -/
abbrev W6 : Dev nD → Valuation τ sig (Elt F) := fun c => StableHlo.after hostOps1_3 (W5 m ρ c)
abbrev V6 : (c : Dev nD) → (b : Ref sig .tc) → Buf (Elt F) ((c : Thread nD τ).loc b) := fun c b => W6 m ρ c b
/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- After the host stretch `hostOps2`. -/
abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b
/-- At region 2's exit: its arrays at what the pipeline leaves, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)
/-- After the host stretch `hostOps3`. -/
abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b
/-- At region 3's exit: its arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)
/-- After the host stretch `hostOps4`. -/
abbrev W12 : Dev nD → Valuation τ sig (Elt F) := fun c => StableHlo.after hostOps4 (W11 m ρ c)
abbrev V12 : (c : Dev nD) → (b : Ref sig .tc) → Buf (Elt F) ((c : Thread nD τ).loc b) := fun c b => W12 m ρ c b
/-- At region 4's exit: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V10 m ρ) c
  | ⟨4, _⟩ => fun c => dat4 (V12 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps1_1_fresh' : (hostOps1_1 : List (HloOp τ sig (Elt F))).Forall fun op => op.fresh = ∅ := by
  simp only [List.Forall]; repeat' constructor
theorem hostOps1_2_fresh' : (hostOps1_2 : List (HloOp τ sig (Elt F))).Forall fun op => op.fresh = ∅ := by
  simp only [List.Forall]; repeat' constructor
theorem hostOps1_3_fresh' : (hostOps1_3 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem hostOps4_fresh' : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W13 m ρ c) ∗ ∃ r, prngReg c r)

/-! ## The regions as items -/

set_option backward.isDefEq.respectTransparency.types false in
/-- Region 0: entered from every unscoped buffer at `W1`, left at `W2`. Its arrays are split out of the unscoped buffers
    and put back at the exit contents; the generator register goes into the pipeline's invariant and comes out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W6`, left at `W7`. Its arrays are split out of the unscoped buffers
    and put back at the exit contents; the generator register goes into the pipeline's invariant and comes out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W8`, left at `W9`. Its arrays are split out of the unscoped buffers
    and put back at the exit contents; the generator register goes into the pipeline's invariant and comes out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W10`, left at `W11`. Its arrays are split out of the unscoped buffers
    and put back at the exit contents; the generator register goes into the pipeline's invariant and comes out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W12`, left at `W13`. Its arrays are split out of the unscoped buffers
    and put back at the exit contents; the generator register goes into the pipeline's invariant and comes out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .host (hseg hostOps1_1 hostOps1_1_sub hostOps1_1_fresh' (W3 m ρ)),
    .host (hseg hostOps1_2 hostOps1_2_sub hostOps1_2_fresh' (W4 m ρ)),
    .host (hseg hostOps1_3 hostOps1_3_sub hostOps1_3_fresh' (W5 m ρ)),
    .region (reg1 m ρ),
    .host (hseg hostOps2 hostOps2_sub hostOps2_fresh' (W7 m ρ)),
    .region (reg2 m ρ),
    .host (hseg hostOps3 hostOps3_sub hostOps3_fresh' (W9 m ρ)),
    .region (reg3 m ρ),
    .host (hseg hostOps4 hostOps4_sub hostOps4_fresh' (W11 m ρ)),
    .region (reg4 m ρ) ]

/-- @main is the run of its items. -/
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and every
    final state holds every unscoped buffer of every core at the last boundary's contents `W13`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Hand

end
-- ==== Proof.KI.Carry.lean ====
/-
  What each item of the idealized kernel's @main leaves alone. A host stretch changes only the buffers its operations write;
  a region changes only its output windows' arrays (an input window's array ends as entered, every other buffer is untouched).
  Hence every buffer that no item writes, each argument among them, holds its launch contents at the end.
-/
import proofs.«415303_j23759759082192_3_alg».proof.Proof.KI.Run
import proofs.«415303_j23759759082192_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

theorem W1_keep (c : Dev nD) (b : Ref sig .tc) (hb : b ∉ hostOps0_W) : W1 m ρ c b = W0 m ρ c b :=
  StableHlo.after_of_writes_sub hostOps0 _ hostOps0_writes hb
theorem W3_keep (c : Dev nD) (b : Ref sig .tc) (hb : b ∉ hostOps1_W) : W3 m ρ c b = W2 m ρ c b :=
  StableHlo.after_of_writes_sub hostOps1 _ hostOps1_writes hb
theorem W4_keep (c : Dev nD) (b : Ref sig .tc) (hb : b ∉ hostOps1_1_W) : W4 m ρ c b = W3 m ρ c b :=
  StableHlo.after_of_writes_sub hostOps1_1 _ hostOps1_1_writes hb
theorem W5_keep (c : Dev nD) (b : Ref sig .tc) (hb : b ∉ hostOps1_2_W) : W5 m ρ c b = W4 m ρ c b :=
  StableHlo.after_of_writes_sub hostOps1_2 _ hostOps1_2_writes hb
theorem W6_keep (c : Dev nD) (b : Ref sig .tc) (hb : b ∉ hostOps1_3_W) : W6 m ρ c b = W5 m ρ c b :=
  StableHlo.after_of_writes_sub hostOps1_3 _ hostOps1_3_writes hb
theorem W8_keep (c : Dev nD) (b : Ref sig .tc) (hb : b ∉ hostOps2_W) : W8 m ρ c b = W7 m ρ c b :=
  StableHlo.after_of_writes_sub hostOps2 _ hostOps2_writes hb
theorem W10_keep (c : Dev nD) (b : Ref sig .tc) (hb : b ∉ hostOps3_W) : W10 m ρ c b = W9 m ρ c b :=
  StableHlo.after_of_writes_sub hostOps3 _ hostOps3_writes hb
theorem W12_keep (c : Dev nD) (b : Ref sig .tc) (hb : b ∉ hostOps4_W) : W12 m ρ c b = W11 m ρ c b :=
  StableHlo.after_of_writes_sub hostOps4 _ hostOps4_writes hb
theorem arr3_out : Pipeline.arrRef spec3 6 = main_v47 := rfl
theorem arr4_out : Pipeline.arrRef spec4 6 = main_v52 := rfl
set_option maxHeartbeats 2000000 in
theorem W2_keep (c : Dev nD) (b : Ref sig .tc) (hb : b ≠ main_v3) : W2 m ρ c b = W1 m ρ c b := by
  by_cases h : ∀ w, Pipeline.arrRef spec0 w ≠ b
  · exact W2_of_ne m ρ c b h
  · push Not at h
    obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb
set_option maxHeartbeats 2000000 in
theorem W7_keep (c : Dev nD) (b : Ref sig .tc) (hb : b ≠ main_v10_0 ∧ b ≠ main_v10_1) : W7 m ρ c b = W6 m ρ c b := by
  by_cases h : ∀ w, Pipeline.arrRef spec1 w ≠ b
  · exact W7_of_ne m ρ c b h
  · push Not at h
    obtain ⟨w, rfl⟩ := h
    match w with
    | ⟨0, _⟩ => exact (W7_arr m ρ c 0).trans (((dat1 (V6 m ρ) c).arrAt_in 0 rfl _).trans (A_eq1 (V6 m ρ) c 0))
    | ⟨1, _⟩ => exact (W7_arr m ρ c 1).trans (((dat1 (V6 m ρ) c).arrAt_in 1 rfl _).trans (A_eq1 (V6 m ρ) c 1))
    | ⟨2, _⟩ => exact (W7_arr m ρ c 2).trans (((dat1 (V6 m ρ) c).arrAt_in 2 rfl _).trans (A_eq1 (V6 m ρ) c 2))
    | ⟨3, _⟩ => exact (W7_arr m ρ c 3).trans (((dat1 (V6 m ρ) c).arrAt_in 3 rfl _).trans (A_eq1 (V6 m ρ) c 3))
    | ⟨4, _⟩ => exact (W7_arr m ρ c 4).trans (((dat1 (V6 m ρ) c).arrAt_in 4 rfl _).trans (A_eq1 (V6 m ρ) c 4))
    | ⟨5, _⟩ => exact absurd rfl hb.1
    | ⟨6, _⟩ => exact absurd rfl hb.2
set_option maxHeartbeats 2000000 in
theorem W9_keep (c : Dev nD) (b : Ref sig .tc) (hb : b ≠ main_v16_0 ∧ b ≠ main_v16_1) : W9 m ρ c b = W8 m ρ c b := by
  by_cases h : ∀ w, Pipeline.arrRef spec2 w ≠ b
  · exact W9_of_ne m ρ c b h
  · push Not at h
    obtain ⟨w, rfl⟩ := h
    match w with
    | ⟨0, _⟩ => exact (W9_arr m ρ c 0).trans (((dat2 (V8 m ρ) c).arrAt_in 0 rfl _).trans (A_eq2 (V8 m ρ) c 0))
    | ⟨1, _⟩ => exact (W9_arr m ρ c 1).trans (((dat2 (V8 m ρ) c).arrAt_in 1 rfl _).trans (A_eq2 (V8 m ρ) c 1))
    | ⟨2, _⟩ => exact (W9_arr m ρ c 2).trans (((dat2 (V8 m ρ) c).arrAt_in 2 rfl _).trans (A_eq2 (V8 m ρ) c 2))
    | ⟨3, _⟩ => exact absurd rfl hb.1
    | ⟨4, _⟩ => exact absurd rfl hb.2
set_option maxHeartbeats 2000000 in
theorem W11_keep (c : Dev nD) (b : Ref sig .tc) (hb : b ≠ main_v47) : W11 m ρ c b = W10 m ρ c b := by
  by_cases h : ∀ w, Pipeline.arrRef spec3 w ≠ b
  · exact W11_of_ne m ρ c b h
  · push Not at h
    obtain ⟨w, rfl⟩ := h
    match w with
    | ⟨0, _⟩ => exact (W11_arr m ρ c 0).trans (((dat3 (V10 m ρ) c).arrAt_in 0 rfl _).trans (A_eq3 (V10 m ρ) c 0))
    | ⟨1, _⟩ => exact (W11_arr m ρ c 1).trans (((dat3 (V10 m ρ) c).arrAt_in 1 rfl _).trans (A_eq3 (V10 m ρ) c 1))
    | ⟨2, _⟩ => exact (W11_arr m ρ c 2).trans (((dat3 (V10 m ρ) c).arrAt_in 2 rfl _).trans (A_eq3 (V10 m ρ) c 2))
    | ⟨3, _⟩ => exact (W11_arr m ρ c 3).trans (((dat3 (V10 m ρ) c).arrAt_in 3 rfl _).trans (A_eq3 (V10 m ρ) c 3))
    | ⟨4, _⟩ => exact (W11_arr m ρ c 4).trans (((dat3 (V10 m ρ) c).arrAt_in 4 rfl _).trans (A_eq3 (V10 m ρ) c 4))
    | ⟨5, _⟩ => exact (W11_arr m ρ c 5).trans (((dat3 (V10 m ρ) c).arrAt_in 5 rfl _).trans (A_eq3 (V10 m ρ) c 5))
    | ⟨6, _⟩ => exact absurd arr3_out hb
set_option maxHeartbeats 2000000 in
theorem W13_keep (c : Dev nD) (b : Ref sig .tc) (hb : b ≠ main_v52) : W13 m ρ c b = W12 m ρ c b := by
  by_cases h : ∀ w, Pipeline.arrRef spec4 w ≠ b
  · exact W13_of_ne m ρ c b h
  · push Not at h
    obtain ⟨w, rfl⟩ := h
    match w with
    | ⟨0, _⟩ => exact (W13_arr m ρ c 0).trans (((dat4 (V12 m ρ) c).arrAt_in 0 rfl _).trans (A_eq4 (V12 m ρ) c 0))
    | ⟨1, _⟩ => exact (W13_arr m ρ c 1).trans (((dat4 (V12 m ρ) c).arrAt_in 1 rfl _).trans (A_eq4 (V12 m ρ) c 1))
    | ⟨2, _⟩ => exact (W13_arr m ρ c 2).trans (((dat4 (V12 m ρ) c).arrAt_in 2 rfl _).trans (A_eq4 (V12 m ρ) c 2))
    | ⟨3, _⟩ => exact (W13_arr m ρ c 3).trans (((dat4 (V12 m ρ) c).arrAt_in 3 rfl _).trans (A_eq4 (V12 m ρ) c 3))
    | ⟨4, _⟩ => exact (W13_arr m ρ c 4).trans (((dat4 (V12 m ρ) c).arrAt_in 4 rfl _).trans (A_eq4 (V12 m ρ) c 4))
    | ⟨5, _⟩ => exact (W13_arr m ρ c 5).trans (((dat4 (V12 m ρ) c).arrAt_in 5 rfl _).trans (A_eq4 (V12 m ρ) c 5))
    | ⟨6, _⟩ => exact absurd arr4_out hb

/-- A buffer no item writes holds its launch contents at the end. -/
theorem W13_keep_all (c : Dev nD) (b : Ref sig .tc) (h1 : b ∉ hostOps0_W) (h2 : b ≠ main_v3) (h3 : b ∉ hostOps1_W) (h4 : b ∉ hostOps1_1_W) (h5 : b ∉ hostOps1_2_W) (h6 : b ∉ hostOps1_3_W) (h7 : b ≠ main_v10_0 ∧ b ≠ main_v10_1) (h8 : b ∉ hostOps2_W) (h9 : b ≠ main_v16_0 ∧ b ≠ main_v16_1) (h10 : b ∉ hostOps3_W) (h11 : b ≠ main_v47) (h12 : b ∉ hostOps4_W) (h13 : b ≠ main_v52) :
    W13 m ρ c b = m ((c : Thread nD τ).loc b) :=
  (W13_keep m ρ c b h13).trans <| (W12_keep m ρ c b h12).trans <| (W11_keep m ρ c b h11).trans <| (W10_keep m ρ c b h10).trans <| (W9_keep m ρ c b h9).trans <| (W8_keep m ρ c b h8).trans <| (W7_keep m ρ c b h7).trans <| (W6_keep m ρ c b h6).trans <| (W5_keep m ρ c b h5).trans <| (W4_keep m ρ c b h4).trans <| (W3_keep m ρ c b h3).trans <| (W2_keep m ρ c b h2).trans <| (W1_keep m ρ c b h1)

theorem W13_main_arg0 (c : Dev nD) : W13 m ρ c main_arg0 = m ((c : Thread nD τ).loc main_arg0) :=
  W13_keep_all m ρ c main_arg0 (by decide) (by decide) (by decide) (by decide) (by decide) (by decide) (by decide) (by decide) (by decide) (by decide) (by decide) (by decide) (by decide)
theorem W13_main_arg1 (c : Dev nD) : W13 m ρ c main_arg1 = m ((c : Thread nD τ).loc main_arg1) :=
  W13_keep_all m ρ c main_arg1 (by decide) (by decide) (by decide) (by decide) (by decide) (by decide) (by decide) (by decide) (by decide) (by decide) (by decide) (by decide) (by decide)
theorem W13_main_arg2 (c : Dev nD) : W13 m ρ c main_arg2 = m ((c : Thread nD τ).loc main_arg2) :=
  W13_keep_all m ρ c main_arg2 (by decide) (by decide) (by decide) (by decide) (by decide) (by decide) (by decide) (by decide) (by decide) (by decide) (by decide) (by decide) (by decide)
theorem W13_main_arg3 (c : Dev nD) : W13 m ρ c main_arg3 = m ((c : Thread nD τ).loc main_arg3) :=
  W13_keep_all m ρ c main_arg3 (by decide) (by decide) (by decide) (by decide) (by decide) (by decide) (by decide) (by decide) (by decide) (by decide) (by decide) (by decide) (by decide)
theorem W13_main_arg4 (c : Dev nD) : W13 m ρ c main_arg4 = m ((c : Thread nD τ).loc main_arg4) :=
  W13_keep_all m ρ c main_arg4 (by decide) (by decide) (by decide) (by decide) (by decide) (by decide) (by decide) (by decide) (by decide) (by decide) (by decide) (by decide) (by decide)
theorem W13_main_arg5 (c : Dev nD) : W13 m ρ c main_arg5 = m ((c : Thread nD τ).loc main_arg5) :=
  W13_keep_all m ρ c main_arg5 (by decide) (by decide) (by decide) (by decide) (by decide) (by decide) (by decide) (by decide) (by decide) (by decide) (by decide) (by decide) (by decide)
theorem W13_main_arg6 (c : Dev nD) : W13 m ρ c main_arg6 = m ((c : Thread nD τ).loc main_arg6) :=
  W13_keep_all m ρ c main_arg6 (by decide) (by decide) (by decide) (by decide) (by decide) (by decide) (by decide) (by decide) (by decide) (by decide) (by decide) (by decide) (by decide)
theorem W13_main_arg7 (c : Dev nD) : W13 m ρ c main_arg7 = m ((c : Thread nD τ).loc main_arg7) :=
  W13_keep_all m ρ c main_arg7 (by decide) (by decide) (by decide) (by decide) (by decide) (by decide) (by decide) (by decide) (by decide) (by decide) (by decide) (by decide) (by decide)
theorem W13_main_arg8 (c : Dev nD) : W13 m ρ c main_arg8 = m ((c : Thread nD τ).loc main_arg8) :=
  W13_keep_all m ρ c main_arg8 (by decide) (by decide) (by decide) (by decide) (by decide) (by decide) (by decide) (by decide) (by decide) (by decide) (by decide) (by decide) (by decide)
theorem W13_main_arg9 (c : Dev nD) : W13 m ρ c main_arg9 = m ((c : Thread nD τ).loc main_arg9) :=
  W13_keep_all m ρ c main_arg9 (by decide) (by decide) (by decide) (by decide) (by decide) (by decide) (by decide) (by decide) (by decide) (by decide) (by decide) (by decide) (by decide)
theorem W13_main_arg10 (c : Dev nD) : W13 m ρ c main_arg10 = m ((c : Thread nD τ).loc main_arg10) :=
  W13_keep_all m ρ c main_arg10 (by decide) (by decide) (by decide) (by decide) (by decide) (by decide) (by decide) (by decide) (by decide) (by decide) (by decide) (by decide) (by decide)
theorem W13_main_arg11 (c : Dev nD) : W13 m ρ c main_arg11 = m ((c : Thread nD τ).loc main_arg11) :=
  W13_keep_all m ρ c main_arg11 (by decide) (by decide) (by decide) (by decide) (by decide) (by decide) (by decide) (by decide) (by decide) (by decide) (by decide) (by decide) (by decide)
theorem W13_main_arg12 (c : Dev nD) : W13 m ρ c main_arg12 = m ((c : Thread nD τ).loc main_arg12) :=
  W13_keep_all m ρ c main_arg12 (by decide) (by decide) (by decide) (by decide) (by decide) (by decide) (by decide) (by decide) (by decide) (by decide) (by decide) (by decide) (by decide)
theorem W13_main_arg13 (c : Dev nD) : W13 m ρ c main_arg13 = m ((c : Thread nD τ).loc main_arg13) :=
  W13_keep_all m ρ c main_arg13 (by decide) (by decide) (by decide) (by decide) (by decide) (by decide) (by decide) (by decide) (by decide) (by decide) (by decide) (by decide) (by decide)
theorem W13_main_arg14 (c : Dev nD) : W13 m ρ c main_arg14 = m ((c : Thread nD τ).loc main_arg14) :=
  W13_keep_all m ρ c main_arg14 (by decide) (by decide) (by decide) (by decide) (by decide) (by decide) (by decide) (by decide) (by decide) (by decide) (by decide) (by decide) (by decide)
theorem W13_main_arg15 (c : Dev nD) : W13 m ρ c main_arg15 = m ((c : Thread nD τ).loc main_arg15) :=
  W13_keep_all m ρ c main_arg15 (by decide) (by decide) (by decide) (by decide) (by decide) (by decide) (by decide) (by decide) (by decide) (by decide) (by decide) (by decide) (by decide)
theorem W13_main_arg16 (c : Dev nD) : W13 m ρ c main_arg16 = m ((c : Thread nD τ).loc main_arg16) :=
  W13_keep_all m ρ c main_arg16 (by decide) (by decide) (by decide) (by decide) (by decide) (by decide) (by decide) (by decide) (by decide) (by decide) (by decide) (by decide) (by decide)
theorem W13_main_arg17 (c : Dev nD) : W13 m ρ c main_arg17 = m ((c : Thread nD τ).loc main_arg17) :=
  W13_keep_all m ρ c main_arg17 (by decide) (by decide) (by decide) (by decide) (by decide) (by decide) (by decide) (by decide) (by decide) (by decide) (by decide) (by decide) (by decide)

/-- THE FRAME: every weakly fair execution of @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c),
    (h c _ (mem_uc main_arg10 (by decide))).trans (W13_main_arg10 m ρ c),
    (h c _ (mem_uc main_arg11 (by decide))).trans (W13_main_arg11 m ρ c),
    (h c _ (mem_uc main_arg12 (by decide))).trans (W13_main_arg12 m ρ c),
    (h c _ (mem_uc main_arg13 (by decide))).trans (W13_main_arg13 m ρ c),
    (h c _ (mem_uc main_arg14 (by decide))).trans (W13_main_arg14 m ρ c),
    (h c _ (mem_uc main_arg15 (by decide))).trans (W13_main_arg15 m ρ c),
    (h c _ (mem_uc main_arg16 (by decide))).trans (W13_main_arg16 m ρ c),
    (h c _ (mem_uc main_arg17 (by decide))).trans (W13_main_arg17 m ρ c)⟩) (run m ρ)

end Cert.KernelIdeal.Hand

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  The layer as mathematics, on the extended reals, index by index.

  A graph of 80000 nodes and 1280000 edges, features of width 64. Five affine maps of rows (`lin`): A, B, D, E of the node
  features and C of the edge features. The gate of edge `e` is the logistic function of D at the edge's source row plus E at
  its destination row plus C at the edge. A node's new value is its A row plus the quotient of two sums over the edges that
  arrive at it: the gates times B at their source rows, over the gates plus a small constant. Both the node values and the
  gates are then normalised per column by their mean and (biased) variance over all rows, scaled, shifted, cut at zero and
  added to the input.
-/
import proofs.«415303_j23759759082192_3_alg».proof.Proof.LibIndex
import Idealize.ShloMosaic.PureOps.Ideal
import Idealize.ShloMosaic.Lib.ValueIdx

noncomputable section

open scoped BigOperators

namespace Cert.Gcn

open Idealize.ShloMosaic Idealize.ShloMosaic.ValueIdx

/-- The float literals both programs carry, as the extended reals their words denote. -/
def zeroL : EReal := Ideal.ofBits .f32 0x00000000#32
def oneL : EReal := Ideal.ofBits .f32 0x3F800000#32
def eps6 : EReal := Ideal.ofBits .f32 0x358637BD#32
def eps5 : EReal := Ideal.ofBits .f32 0x3727C5AC#32
def cntN : EReal := Ideal.ofBits .f32 0x479C4000#32
def cntE : EReal := Ideal.ofBits .f32 0x499C4000#32

abbrev TN : Type := (⟨2, ![80000, 64]⟩ : Shape).Idx → EReal
abbrev TE : Type := (⟨2, ![1280000, 64]⟩ : Shape).Idx → EReal
abbrev TW : Type := (⟨2, ![64, 64]⟩ : Shape).Idx → EReal
abbrev TB : Type := (⟨1, ![64]⟩ : Shape).Idx → EReal
abbrev TI : Type := IVec ⟨1, ![1280000]⟩ 32

/-- The eighteen inputs. -/
structure Inputs where
  x : TN
  e : TE
  src : TI
  dst : TI
  WA : TW
  bA : TB
  WB : TW
  bB : TB
  WC : TW
  bC : TB
  WD : TW
  bD : TB
  WE : TW
  bE : TB
  gx : TB
  bx : TB
  ge : TB
  be : TB

/-- Row `i` of `x` times the matrix `W`, plus the bias, at column `j`. -/
def lin {M : Nat} (x : (⟨2, ![M, 64]⟩ : Shape).Idx → EReal) (W : TW) (b : TB) (i : Fin M) (j : Fin 64) : EReal :=
  (∑ k : Fin 64, x (ix2 i k) * W (ix2 k j)) + b (ix1 j)

/-- An index word as a node row (clamped into range; an in-range word is itself). -/
def rowOf (idx : TI) (e : Fin 1280000) : Fin 80000 := crow 80000 (by decide) (idx (ix1 e))

/-- The edges that arrive at node `n`. -/
def arriving (dst : TI) (n : Fin 80000) : Finset (Fin 1280000) :=
  Finset.univ.filter fun e : Fin 1280000 => (dst (ix1 e)).toInt = (n.val : Int)

variable (I : Inputs)

/-- The gate of edge `e`, column `j`. -/
def gate (e : Fin 1280000) (j : Fin 64) : EReal :=
  Ideal.logistic ((lin I.x I.WD I.bD (rowOf I.src e) j + lin I.x I.WE I.bE (rowOf I.dst e) j) + lin I.e I.WC I.bC e j)

/-- The sum of gated messages arriving at node `n`. -/
def num (n : Fin 80000) (j : Fin 64) : EReal :=
  zeroL + ∑ e ∈ arriving I.dst n, gate I e j * lin I.x I.WB I.bB (rowOf I.src e) j

/-- The sum of gates arriving at node `n`, plus the small constant. -/
def den (n : Fin 80000) (j : Fin 64) : EReal :=
  (zeroL + ∑ e ∈ arriving I.dst n, gate I e j) + eps6

/-- The combined node value before normalisation. -/
def comb (n : Fin 80000) (j : Fin 64) : EReal :=
  lin I.x I.WA I.bA n j + Ideal.div (num I n j) (den I n j)

/-- Column mean and biased column variance of `M` rows, `cnt` the row count as a float. -/
def mean {M : Nat} (v : Fin M → Fin 64 → EReal) (cnt : EReal) (j : Fin 64) : EReal :=
  Ideal.div (zeroL + ∑ i : Fin M, v i j) cnt
def var {M : Nat} (v : Fin M → Fin 64 → EReal) (cnt : EReal) (j : Fin 64) : EReal :=
  Ideal.div (zeroL + ∑ i : Fin M, (v i j - mean v cnt j) * (v i j - mean v cnt j)) cnt

/-- Normalise by given mean and variance rows, scale and shift. -/
def norm (v mu va g b : EReal) : EReal := ((v - mu) * Ideal.rsqrt (va + eps5)) * g + b

/-- The residual plus the normalised value cut at zero. -/
def resid (r v mu va g b : EReal) : EReal := r + max (norm v mu va g b) zeroL

/-- In-range index words, and arrays of real numbers. -/
def InRange (idx : TI) : Prop := ∀ e : Fin 1280000, 0 ≤ (idx (ix1 e)).toInt ∧ (idx (ix1 e)).toInt < 80000
def IsReal {S : Shape} (x : S.Idx → EReal) : Prop := ∀ p, ∃ r : ℝ, x p = (r : EReal)

/-- What the precondition says of the inputs: the two index arrays in range, every float array real. -/
structure Inputs.Ok (I : Inputs) : Prop where
  src : InRange I.src
  dst : InRange I.dst
  x : IsReal I.x
  e : IsReal I.e
  WA : IsReal I.WA
  bA : IsReal I.bA
  WB : IsReal I.WB
  bB : IsReal I.bB
  WC : IsReal I.WC
  bC : IsReal I.bC
  WD : IsReal I.WD
  bD : IsReal I.bD
  WE : IsReal I.WE
  bE : IsReal I.bE
  gx : IsReal I.gx
  bx : IsReal I.bx
  ge : IsReal I.ge
  be : IsReal I.be

/-- The two results. -/
def xnew : TN := fun p =>
  resid (I.x p) (comb I (p 0) (p 1)) (mean (comb I) cntN (p 1)) (var (comb I) cntN (p 1)) (I.gx (ix1 (p 1))) (I.bx (ix1 (p 1)))
def enew : TE := fun p =>
  resid (I.e p) (gate I (p 0) (p 1)) (mean (gate I) cntE (p 1)) (var (gate I) cntE (p 1)) (I.ge (ix1 (p 1))) (I.be (ix1 (p 1)))

/-- The gate as the edge kernel computes it from the arrays it is handed: the edge block `e`, the weight, the bias row, the
    128-wide gathered block `bd` (whose upper half is D at the source) and the gathered block `exd` (E at the destination). -/
def gateOf (e : TE) (w : TW) (b : (⟨2, ![1, 64]⟩ : Shape).Idx → EReal) (bd : (⟨2, ![1280000, 128]⟩ : Shape).Idx → EReal) (exd : TE)
    (r : Fin 1280000) (j : Fin 64) : EReal :=
  Ideal.logistic ((bd (ix2 r (Fin.natAdd 64 j)) + exd (ix2 r j)) + ((∑ k : Fin 64, e (ix2 r k) * w (ix2 k j)) + b (ix2 0 j)))

/-- Row `i` of `x` times column `q` of a 64 × 256 matrix, plus entry `q` of a bias row: the fused projection. -/
def affineAt (x : TN) (w : (⟨2, ![64, 256]⟩ : Shape).Idx → EReal) (b : (⟨2, ![1, 256]⟩ : Shape).Idx → EReal)
    (i : Fin 80000) (q : Fin 256) : EReal :=
  (∑ k : Fin 64, x (ix2 i k) * w (ix2 k q)) + b (ix2 0 q)

/-- The node combine as the kernel computes it from the three arrays it is handed. -/
def combOf (ax nm dn : TN) (n : Fin 80000) (j : Fin 64) : EReal :=
  ax (ix2 n j) + Ideal.div (nm (ix2 n j)) (dn (ix2 n j) + eps6)

end Cert.Gcn

end
-- ==== Proof.KI.Inputs.lean ====
/-
  The idealized kernel's eighteen argument arrays as the layer's inputs.
-/
import proofs.«415303_j23759759082192_3_alg».proof.KernelIdeal
import proofs.«415303_j23759759082192_3_alg».proof.Proof.Spec

noncomputable section

namespace Cert.KernelIdeal.Hand

open Cert.KernelIdeal Cert.Gcn
open Idealize.ShloMosaic Idealize.ShloMosaic.TcCoe Idealize.SL.Sem

/-- The eighteen argument arrays of core `c` at launch, as the layer's inputs. -/
def inputs (m : (ℓ : Loc nD τ sig) → Buf (Elt Ideal) ℓ) (c : Dev nD) : Inputs where
  x := m ((c.tc : Thread nD τ).loc main_arg0)
  e := m ((c.tc : Thread nD τ).loc main_arg1)
  src := m ((c.tc : Thread nD τ).loc main_arg2)
  dst := m ((c.tc : Thread nD τ).loc main_arg3)
  WA := m ((c.tc : Thread nD τ).loc main_arg4)
  bA := m ((c.tc : Thread nD τ).loc main_arg5)
  WB := m ((c.tc : Thread nD τ).loc main_arg6)
  bB := m ((c.tc : Thread nD τ).loc main_arg7)
  WC := m ((c.tc : Thread nD τ).loc main_arg8)
  bC := m ((c.tc : Thread nD τ).loc main_arg9)
  WD := m ((c.tc : Thread nD τ).loc main_arg10)
  bD := m ((c.tc : Thread nD τ).loc main_arg11)
  WE := m ((c.tc : Thread nD τ).loc main_arg12)
  bE := m ((c.tc : Thread nD τ).loc main_arg13)
  gx := m ((c.tc : Thread nD τ).loc main_arg14)
  bx := m ((c.tc : Thread nD τ).loc main_arg15)
  ge := m ((c.tc : Thread nD τ).loc main_arg16)
  be := m ((c.tc : Thread nD τ).loc main_arg17)

end Cert.KernelIdeal.Hand

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KI.Value0.lean ====
/-
  Region 0's output array after its ten points, at the extended reals: entry (i, q) of the 80000 × 256 array is row i of the node
  features times column q of the 64 × 256 weight, plus entry q of the bias row. Each point writes the block of its own 8000 rows,
  and the ten blocks cover the array.
-/
import proofs.«415303_j23759759082192_3_alg».proof.Proof.KI.Region0
import proofs.«415303_j23759759082192_3_alg».proof.Proof.Spec
import proofs.«415303_j23759759082192_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Both zero offsets, however spelt. -/
theorem zero_off0 : (![0, 0] : Fin 2 → Nat) = fun _ => 0 := funext fun a => by fin_cases a <;> rfl

/-- The whole result array as one function of the three arrays the region reads: the affine map, entry by entry. -/
def proj0 (x : TN) (w : (⟨2, ![64, 256]⟩ : Shape).Idx → EReal) (b : (⟨2, ![1, 256]⟩ : Shape).Idx → EReal) :
    (⟨2, ![80000, 256]⟩ : Shape).Idx → EReal :=
  fun p => affineAt x w b (p 0) (p 1)

/-- The body's stored value at an entry of its block: the block's row times the weight's column (the narrowing of both
    operands is the identity on the extended reals, the accumulator is zero), plus the bias row spread over the rows. -/
theorem pay0_apply (x0 : Vec Ideal S8000x64 .f32) (x1 : Vec Ideal S64x256 .f32) (x2 : Vec Ideal S1x256 .f32)
    (p : Fin 8000) (q : Fin 256) :
    k0_pay1 x0 x1 x2 (ix2 p q) = (∑ k : Fin 64, x0 (ix2 p k) * x1 (ix2 k q)) + x2 (ix2 0 q) := by
  unfold k0_pay1
  rw [addf_apply]
  refine congrArg₂ (· + ·) ((Cert.PlainDot.matmul_zero_apply (M := 8000) (K := 64) (N := 256)
    dot_S8000x64_S64x256_S8000x256_1_0_0_1_n_n rfl none _ _ (ix2 p q)).trans ?_) ?_
  · refine Finset.sum_congr rfl fun k _ => ?_
    rw [truncf_apply, truncf_apply, shapeCast_self]
  · rw [shapeCast_self]
    exact broadcastTo_apply x2 broadcasts_S1x256_S8000x256 (ix2 p q) (ix2 0 q)
      (fun a => by match a with | ⟨0, _⟩ => rfl | ⟨1, _⟩ => rfl)

/-- The printed index maps over the ten points: the feature block and the result block sit at block row `t`, block column 0;
    the weight and the bias row are whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `8000 t + p` of the feature array. -/
theorem xblk_apply (c : Dev nD) (t : Fin cfg0.N) (p : Fin 8000) (k : Fin 64) (r : Fin 80000)
    (hr : r.val = t.val * 8000 + p.val) :
    (iblk0 V c 0 t : Vec Ideal S8000x64 .f32) (ix2 p k) = (V c main_arg0 : S80000x64.Idx → EReal) (ix2 r k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 8000 + 1 * p.val = r.val; rw [e0, hr]; omega
  | ⟨1, _⟩ => show win0_0.index t (1 : Fin 2) * 64 + 1 * k.val = k.val; rw [e1]; omega

/-- The weight block at any point is the weight array. -/
theorem wblk_apply (c : Dev nD) (t : Fin cfg0.N) (k : Fin 64) (q : Fin 256) :
    (iblk0 V c 1 t : Vec Ideal S64x256 .f32) (ix2 k q) = (V c main_v0 : S64x256.Idx → EReal) (ix2 k q) := by
  obtain ⟨-, -, e2, e3, -⟩ := idx_facts0 t
  unfold iblk0
  rw [View.read_apply]
  show V c main_v0 _ = V c main_v0 _
  congr 1
  funext a; apply Fin.ext
  match a with
  | ⟨0, _⟩ => show win0_1.index t (0 : Fin 2) * 64 + 1 * k.val = k.val; rw [e2]; omega
  | ⟨1, _⟩ => show win0_1.index t (1 : Fin 2) * 256 + 1 * q.val = q.val; rw [e3]; omega

/-- The bias block at any point is the bias row. -/
theorem bblk_apply (c : Dev nD) (t : Fin cfg0.N) (q : Fin 256) :
    (iblk0 V c 2 t : Vec Ideal S1x256 .f32) (ix2 0 q) = (V c main_v2 : S1x256.Idx → EReal) (ix2 0 q) := by
  obtain ⟨-, -, -, -, e4, e5, -⟩ := idx_facts0 t
  unfold iblk0
  rw [View.read_apply]
  show V c main_v2 _ = V c main_v2 _
  congr 1
  funext a; apply Fin.ext
  match a with
  | ⟨0, _⟩ => show win0_2.index t (0 : Fin 2) * 1 + 1 * 0 = 0; rw [e4]
  | ⟨1, _⟩ => show win0_2.index t (1 : Fin 2) * 256 + 1 * q.val = q.val; rw [e5]; omega

/-- Entry `(p, q)` of the result block at point `t` is entry `(8000 t + p, q)` of the result array. -/
theorem oblk_emb (t : Fin cfg0.N) (p : Fin 8000) (q : Fin 256) (r : Fin 80000) (hr : r.val = t.val * 8000 + p.val) :
    ((cfg0.win 3).blk t).view.emb (ix2 p q) = (ix2 r q : S80000x256.Idx) := by
  obtain ⟨-, -, -, -, -, -, e6, e7⟩ := idx_facts0 t
  funext a; apply Fin.ext
  match a with
  | ⟨0, _⟩ => show win0_3.index t (0 : Fin 2) * 8000 + 1 * p.val = r.val; rw [e6, hr]; omega
  | ⟨1, _⟩ => show win0_3.index t (1 : Fin 2) * 256 + 1 * q.val = q.val; rw [e7]; omega

/-- What the body stores at point `t`, entry by entry of its block, is the affine map of the three arrays read at the entry's
    place in the result array. -/
theorem blk_val0 (c : Dev nD) (t : Fin cfg0.N) (j : S8000x256.Idx) :
    k0_pay1 (iblk0 V c 0 t) (iblk0 V c 1 t) (iblk0 V c 2 t) j
      = proj0 (V c main_arg0) (V c main_v0) (V c main_v2) (((cfg0.win 3).blk t).view.emb j) := by
  obtain ⟨p, q, rfl⟩ : ∃ (p : Fin 8000) (q : Fin 256), j = ix2 p q := ⟨j 0, j 1, eq_ix2 j⟩
  have hN : cfg0.N = 10 := N_0
  have hr : t.val * 8000 + p.val < 80000 := by have := t.isLt; omega
  rw [pay0_apply, oblk_emb t p q ⟨t.val * 8000 + p.val, hr⟩ rfl]
  show _ = affineAt _ _ _ ⟨_, hr⟩ q
  unfold affineAt
  refine congrArg₂ (· + ·) (Finset.sum_congr rfl fun k _ => ?_) ?_
  · rw [xblk_apply V c t p k ⟨_, hr⟩ rfl, wblk_apply V c t k q]
  · exact bblk_apply V c t q

/-- What point `t` writes back is block `t` of the affine map of the arrays as the region finds them. -/
theorem flushed0_eq (c : Dev nD) (t : Fin cfg0.N) :
    (dat0 (F := Ideal) V c).flushed 3 t
      = ((cfg0.win 3).blk t).view.read (Elt Ideal) (proj0 (V c main_arg0) (V c main_v0) (V c main_v2)) := by
  show (cfg0.win 3).cut (grid0.coords t) ((dat0 V c).after 3 t) = _
  rw [after0_3]
  unfold out0_3
  rw [View.canon_unit_zero zero_off0]
  simp only [View.ld_unit_zero (S := S8000x64) zero_off0, View.ld_unit_zero (S := S64x256) zero_off0,
    View.ld_unit_zero (S := S1x256) zero_off0]
  funext j
  exact blk_val0 V c t j

/-- An entry of the result array is in point `t`'s block iff each coordinate is in the block's range on its axis. -/
theorem mem_blk0 (t : Fin cfg0.N) (i : S80000x256.Idx) :
    i ∈ ((cfg0.win 3).blk t).view.set ↔ ∀ a : Fin 2, win0_3.index t a * S8000x256.size a ≤ (i a).val
      ∧ (i a).val < win0_3.index t a * S8000x256.size a + S8000x256.size a := by
  show i ∈ ((View.whole main_v3).slice (win0_3.rect t)).set ↔ _
  rw [View.set_slice_whole, Rect.mem_set_unit]
  exact Iff.rfl

/-- Row `r` of the result array is written by point `r / 8000`: the ten blocks cover the array. -/
theorem cover0 (i : S80000x256.Idx) :
    ∃ t : Fin cfg0.N, (cfg0.win 3).flush t = true ∧ i ∈ ((cfg0.win 3).blk t).view.set := by
  have hi0 : (i 0).val < 80000 := (i 0).isLt
  have hi1 : (i 1).val < 256 := (i 1).isLt
  obtain ⟨t, ht⟩ : ∃ t : Fin cfg0.N, t.val = (i 0).val / 8000 :=
    ⟨⟨(i 0).val / 8000, by rw [show cfg0.N = 10 from N_0]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 8000 ≤ (i 0).val ∧ (i 0).val < win0_3.index t (0 : Fin 2) * 8000 + 8000
    rw [e6, ht]; omega
  | ⟨1, _⟩ =>
    show win0_3.index t (1 : Fin 2) * 256 ≤ (i 1).val ∧ (i 1).val < win0_3.index t (1 : Fin 2) * 256 + 256
    rw [e7]; omega

/-- The result array after the ten points: the affine map of the arrays as the region finds them. -/
theorem final0 (c : Dev nD) :
    (dat0 (F := Ideal) V c).arrAt 3 cfg0.N = proj0 (V c main_arg0) (V c main_v0) (V c main_v2) :=
  (dat0 V c).arrAt_eq_of_cover 3 _ (fun t _ => flushed0_eq V c t) cover0

/-- Region 0's result array, entry by entry. -/
theorem final0_apply (c : Dev nD) (i : Fin 80000) (q : Fin 256) :
    (dat0 (F := Ideal) V c).arrAt 3 cfg0.N (ix2 i q)
      = affineAt (V c main_arg0) (V c main_v0) (V c main_v2) i q :=
  congrFun (final0 V c) (ix2 i q)

end Cert.KernelIdeal.Hand

end
-- ==== Proof.Spec2.lean ====
/-
  Three small forms the kernel's host stretches compute: the sum of a family over the edges arriving at a node, the mean of a
  column from its tiles' sums, and the variance of a column from its tiles' sums and sums of squares.
-/
import proofs.«415303_j23759759082192_3_alg».proof.Proof.Spec

noncomputable section

open scoped BigOperators

namespace Cert.Gcn

open Idealize.ShloMosaic Idealize.ShloMosaic.ValueIdx

/-- Zero plus the sum of `u` over the edges arriving at node `n`. -/
def arrSum (dst : TI) (u : Fin 1280000 → EReal) (n : Fin 80000) : EReal := zeroL + ∑ e ∈ arriving dst n, u e

/-- The column mean from the tiles' sums. -/
def tileMean {T : Nat} (s : Fin T → EReal) (cnt : EReal) : EReal := Ideal.div (zeroL + ∑ t : Fin T, s t) cnt

/-- The column variance from the tiles' sums `s1` and sums of squares `s2`: the mean of the squares minus the squared mean. -/
def tileVar {T : Nat} (s1 s2 : Fin T → EReal) (cnt : EReal) : EReal := tileMean s2 cnt - tileMean s1 cnt * tileMean s1 cnt

end Cert.Gcn

end
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«415303_j23759759082192_3_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.KI.HostA.lean ====
/-
  The layout stretches of the idealized kernel's @main, read at an entry, from ANY contents W of the buffers before the stretch:
  the four weights laid side by side and the four biases end to end (as one row); the three column ranges cut out of the fused
  projection; a bias, or a statistic, viewed as a row.
-/
import proofs.«415303_j23759759082192_3_alg».proof.Proof.Gen.KernelIdeal.Launch
import proofs.«415303_j23759759082192_3_alg».proof.Proof.Spec2
import proofs.«415303_j23759759082192_3_alg».proof.Proof.LibIndex
import proofs.«415303_j23759759082192_3_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.ShloMosaic.StableHlo

variable (W : Valuation τ sig (Elt Ideal))

/-- The side-by-side weight as one term of the four weights: the first stretch's first operation. -/
theorem ops0_v0_eq : after (hostOps0 (F := Ideal)) W main_v0
    = concatenate S64x256 1 [⟨S64x64, W main_arg4⟩, ⟨S64x64, W main_arg6⟩, ⟨S64x64, W main_arg10⟩, ⟨S64x64, W main_arg12⟩]
        concatenates_S64x64_S64x64_S64x64_S64x64_S64x256_d1 := by
  simp only [hostOps0]; after_results; rfl

/-- The bias row as one term of the four biases: laid end to end, then viewed as a row. -/
theorem ops0_v2_eq : after (hostOps0 (F := Ideal)) W main_v2
    = shapeCast S1x256 (concatenate S256 0 [⟨S64, W main_arg5⟩, ⟨S64, W main_arg7⟩, ⟨S64, W main_arg11⟩, ⟨S64, W main_arg13⟩]
        concatenates_S64_S64_S64_S64_S256_d0) shapeCasts_S256_S1x256 := by
  simp only [hostOps0]; after_results; rfl

/-- The first stretch: the 64 × 256 weight is [A | B | D | E], the 1 × 256 bias row likewise. Column 64 p + j lies in piece p,
    after p pieces of 64 columns, at column j of that piece. -/
theorem ops0_w_A (k j : Fin 64) : after (hostOps0 (F := Ideal)) W main_v0 (ix2 k (Fin.castAdd 192 j)) = W main_arg4 (ix2 k j) := by
  rw [ops0_v0_eq]
  exact concatenate_apply_piece (1 : Fin S64x256.rank) _ _ _ 0 (by simp) S64x64 (W main_arg4) rfl rfl 0 rfl (ix2 k j)
    (fun b hb => by match b with | ⟨0, _⟩ => rfl | ⟨1, _⟩ => exact absurd rfl hb) (Nat.zero_add _)
theorem ops0_w_B (k j : Fin 64) : after (hostOps0 (F := Ideal)) W main_v0 (ix2 k ⟨64 + j.val, by omega⟩) = W main_arg6 (ix2 k j) := by
  rw [ops0_v0_eq]
  exact concatenate_apply_piece (1 : Fin S64x256.rank) _ _ _ 1 (by simp) S64x64 (W main_arg6) rfl rfl 64 rfl (ix2 k j)
    (fun b hb => by match b with | ⟨0, _⟩ => rfl | ⟨1, _⟩ => exact absurd rfl hb) rfl
theorem ops0_w_D (k j : Fin 64) : after (hostOps0 (F := Ideal)) W main_v0 (ix2 k ⟨128 + j.val, by omega⟩) = W main_arg10 (ix2 k j) := by
  rw [ops0_v0_eq]
  exact concatenate_apply_piece (1 : Fin S64x256.rank) _ _ _ 2 (by simp) S64x64 (W main_arg10) rfl rfl 128 rfl (ix2 k j)
    (fun b hb => by match b with | ⟨0, _⟩ => rfl | ⟨1, _⟩ => exact absurd rfl hb) rfl
theorem ops0_w_E (k j : Fin 64) : after (hostOps0 (F := Ideal)) W main_v0 (ix2 k (Fin.natAdd 192 j)) = W main_arg12 (ix2 k j) := by
  rw [ops0_v0_eq]
  exact concatenate_apply_piece (1 : Fin S64x256.rank) _ _ _ 3 (by simp) S64x64 (W main_arg12) rfl rfl 192 rfl (ix2 k j)
    (fun b hb => by match b with | ⟨0, _⟩ => rfl | ⟨1, _⟩ => exact absurd rfl hb) rfl
theorem ops0_b_A (j : Fin 64) : after (hostOps0 (F := Ideal)) W main_v2 (ix2 0 (Fin.castAdd 192 j)) = W main_arg5 (ix1 j) := by
  rw [ops0_v2_eq]
  refine (shapeCast_a_1a_apply _ _ 0 _).trans ?_
  exact concatenate_apply_piece (0 : Fin S256.rank) _ _ _ 0 (by simp) S64 (W main_arg5) rfl rfl 0 rfl (ix1 j)
    (fun b hb => absurd (Subsingleton.elim _ _) hb) (Nat.zero_add _)
theorem ops0_b_B (j : Fin 64) : after (hostOps0 (F := Ideal)) W main_v2 (ix2 0 ⟨64 + j.val, by omega⟩) = W main_arg7 (ix1 j) := by
  rw [ops0_v2_eq]
  refine (shapeCast_a_1a_apply _ _ 0 _).trans ?_
  exact concatenate_apply_piece (0 : Fin S256.rank) _ _ _ 1 (by simp) S64 (W main_arg7) rfl rfl 64 rfl (ix1 j)
    (fun b hb => absurd (Subsingleton.elim _ _) hb) rfl
theorem ops0_b_D (j : Fin 64) : after (hostOps0 (F := Ideal)) W main_v2 (ix2 0 ⟨128 + j.val, by omega⟩) = W main_arg11 (ix1 j) := by
  rw [ops0_v2_eq]
  refine (shapeCast_a_1a_apply _ _ 0 _).trans ?_
  exact concatenate_apply_piece (0 : Fin S256.rank) _ _ _ 2 (by simp) S64 (W main_arg11) rfl rfl 128 rfl (ix1 j)
    (fun b hb => absurd (Subsingleton.elim _ _) hb) rfl
theorem ops0_b_E (j : Fin 64) : after (hostOps0 (F := Ideal)) W main_v2 (ix2 0 (Fin.natAdd 192 j)) = W main_arg13 (ix1 j) := by
  rw [ops0_v2_eq]
  refine (shapeCast_a_1a_apply _ _ 0 _).trans ?_
  exact concatenate_apply_piece (0 : Fin S256.rank) _ _ _ 3 (by simp) S64 (W main_arg13) rfl rfl 192 rfl (ix1 j)
    (fun b hb => absurd (Subsingleton.elim _ _) hb) rfl

/-- The second stretch: columns 0..63, 64..191 and 192..255 of the fused projection. A slice at (n, c) is the operand at
    (n, offset + c). -/
theorem ops1_v4 (n : Fin 80000) (j : Fin 64) : after (hostOps1 (F := Ideal)) W main_v4 (ix2 n j) = W main_v3 (ix2 n (Fin.castAdd 192 j)) := by
  have e : after (hostOps1 (F := Ideal)) W main_v4 = extractStridedSlice S80000x64 ![0, 0] (W main_v3) slices_S80000x256_S80000x64_0_0 := by
    simp only [hostOps1]; after_results
  rw [e]
  exact extractStridedSlice_apply _ _ _ _ _ (fun a => by
    match a with
    | ⟨0, _⟩ => exact (Nat.zero_add _).symm
    | ⟨1, _⟩ => exact (Nat.zero_add _).symm)
theorem ops1_v5 (n : Fin 80000) (q : Fin 128) : after (hostOps1 (F := Ideal)) W main_v5 (ix2 n q) = W main_v3 (ix2 n ⟨64 + q.val, by omega⟩) := by
  have e : after (hostOps1 (F := Ideal)) W main_v5 = extractStridedSlice S80000x128 ![0, 64] (W main_v3) slices_S80000x256_S80000x128_0_64 := by
    simp only [hostOps1]; after_results
  rw [e]
  exact extractStridedSlice_apply _ _ _ _ _ (fun a => by
    match a with
    | ⟨0, _⟩ => exact (Nat.zero_add _).symm
    | ⟨1, _⟩ => rfl)
theorem ops1_v6 (n : Fin 80000) (j : Fin 64) : after (hostOps1 (F := Ideal)) W main_v6 (ix2 n j) = W main_v3 (ix2 n (Fin.natAdd 192 j)) := by
  have e : after (hostOps1 (F := Ideal)) W main_v6 = extractStridedSlice S80000x64 ![0, 192] (W main_v3) slices_S80000x256_S80000x64_0_192 := by
    simp only [hostOps1]; after_results
  rw [e]
  exact extractStridedSlice_apply _ _ _ _ _ (fun a => by
    match a with
    | ⟨0, _⟩ => exact (Nat.zero_add _).symm
    | ⟨1, _⟩ => rfl)

/-- The edge bias as a row. -/
theorem ops1_3_v9 (j : Fin 64) : after (hostOps1_3 (F := Ideal)) W main_v9 (ix2 0 j) = W main_arg9 (ix1 j) := by
  have e : after (hostOps1_3 (F := Ideal)) W main_v9 = shapeCast S1x64 (W main_arg9) shapeCasts_S64_S1x64 := by
    simp only [hostOps1_3]; after_results; rfl
  rw [e]
  exact shapeCast_a_1a_apply _ _ 0 j

/-- The last stretch: the edge statistics, scale and shift as rows. -/
theorem ops4_v48 (j : Fin 64) : after (hostOps4 (F := Ideal)) W main_v48 (ix2 0 j) = W main_v25 (ix1 j) := by
  have e : after (hostOps4 (F := Ideal)) W main_v48 = shapeCast S1x64 (W main_v25) shapeCasts_S64_S1x64 := by
    simp only [hostOps4]; after_results; rfl
  rw [e]
  exact shapeCast_a_1a_apply _ _ 0 j
theorem ops4_v49 (j : Fin 64) : after (hostOps4 (F := Ideal)) W main_v49 (ix2 0 j) = W main_v29 (ix1 j) := by
  have e : after (hostOps4 (F := Ideal)) W main_v49 = shapeCast S1x64 (W main_v29) shapeCasts_S64_S1x64 := by
    simp only [hostOps4]; after_results; rfl
  rw [e]
  exact shapeCast_a_1a_apply _ _ 0 j
theorem ops4_v50 (j : Fin 64) : after (hostOps4 (F := Ideal)) W main_v50 (ix2 0 j) = W main_arg16 (ix1 j) := by
  have e : after (hostOps4 (F := Ideal)) W main_v50 = shapeCast S1x64 (W main_arg16) shapeCasts_S64_S1x64 := by
    simp only [hostOps4]; after_results; rfl
  rw [e]
  exact shapeCast_a_1a_apply _ _ 0 j
theorem ops4_v51 (j : Fin 64) : after (hostOps4 (F := Ideal)) W main_v51 (ix2 0 j) = W main_arg17 (ix1 j) := by
  have e : after (hostOps4 (F := Ideal)) W main_v51 = shapeCast S1x64 (W main_arg17) shapeCasts_S64_S1x64 := by
    simp only [hostOps4]; after_results; rfl
  rw [e]
  exact shapeCast_a_1a_apply _ _ 0 j

end Cert.KernelIdeal.Hand

end
-- ==== Proof.KI.Chain1.lean ====
/-
  The fused projection is the four affine maps side by side: columns 0..63 of region 0's result are the A rows, columns
  64..127 the B rows, 128..191 the D rows and 192..255 the E rows, because the fused weight is the four weights side by side
  and the fused bias the four biases end to end.
-/
import proofs.«415303_j23759759082192_3_alg».proof.Proof.KI.Carry
import proofs.«415303_j23759759082192_3_alg».proof.Proof.KI.Inputs
import proofs.«415303_j23759759082192_3_alg».proof.Proof.KI.Value0
import proofs.«415303_j23759759082192_3_alg».proof.Proof.KI.HostA

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

theorem proj_A (c : Dev nD) (n : Fin 80000) (j : Fin 64) :
    V2 m ρ c main_v3 (ix2 n (Fin.castAdd 192 j)) = lin (inputs m c).x (inputs m c).WA (inputs m c).bA n j := by
  refine (congrFun (W2_arr m ρ c 3) _).trans ?_
  refine (final0_apply (V1 m ρ) c n _).trans ?_
  unfold affineAt lin
  refine congrArg₂ (· + ·) (Finset.sum_congr rfl fun k _ => congrArg₂ (· * ·) ?_ ?_) ?_
  · exact congrFun (W1_keep m ρ c main_arg0 (by decide)) _
  · exact ops0_w_A (W0 m ρ c) k j
  · exact ops0_b_A (W0 m ρ c) j
theorem proj_B (c : Dev nD) (n : Fin 80000) (j : Fin 64) :
    V2 m ρ c main_v3 (ix2 n ⟨64 + j.val, by omega⟩) = lin (inputs m c).x (inputs m c).WB (inputs m c).bB n j := by
  refine (congrFun (W2_arr m ρ c 3) _).trans ?_
  refine (final0_apply (V1 m ρ) c n _).trans ?_
  unfold affineAt lin
  refine congrArg₂ (· + ·) (Finset.sum_congr rfl fun k _ => congrArg₂ (· * ·) ?_ ?_) ?_
  · exact congrFun (W1_keep m ρ c main_arg0 (by decide)) _
  · exact ops0_w_B (W0 m ρ c) k j
  · exact ops0_b_B (W0 m ρ c) j
theorem proj_D (c : Dev nD) (n : Fin 80000) (j : Fin 64) :
    V2 m ρ c main_v3 (ix2 n ⟨128 + j.val, by omega⟩) = lin (inputs m c).x (inputs m c).WD (inputs m c).bD n j := by
  refine (congrFun (W2_arr m ρ c 3) _).trans ?_
  refine (final0_apply (V1 m ρ) c n _).trans ?_
  unfold affineAt lin
  refine congrArg₂ (· + ·) (Finset.sum_congr rfl fun k _ => congrArg₂ (· * ·) ?_ ?_) ?_
  · exact congrFun (W1_keep m ρ c main_arg0 (by decide)) _
  · exact ops0_w_D (W0 m ρ c) k j
  · exact ops0_b_D (W0 m ρ c) j
theorem proj_E (c : Dev nD) (n : Fin 80000) (j : Fin 64) :
    V2 m ρ c main_v3 (ix2 n (Fin.natAdd 192 j)) = lin (inputs m c).x (inputs m c).WE (inputs m c).bE n j := by
  refine (congrFun (W2_arr m ρ c 3) _).trans ?_
  refine (final0_apply (V1 m ρ) c n _).trans ?_
  unfold affineAt lin
  refine congrArg₂ (· + ·) (Finset.sum_congr rfl fun k _ => congrArg₂ (· * ·) ?_ ?_) ?_
  · exact congrFun (W1_keep m ρ c main_arg0 (by decide)) _
  · exact ops0_w_E (W0 m ρ c) k j
  · exact ops0_b_E (W0 m ρ c) j

end Cert.KernelIdeal.Hand

end
-- ==== Proof.KI.Value1.lean ====
/-
  Region 1's two output arrays after its 320 points, at the extended reals. The 1280000 × 128 array holds, in its lower 64 columns,
  the gate times the lower half of the gathered source block, and in its upper 64 columns the gate itself. The 2560 × 64 array holds,
  in rows 8t and 8t + 1, the column sums over the 4000 edges of block t of the gate and of its square.
-/
import proofs.«415303_j23759759082192_3_alg».proof.Proof.KI.Region1
import proofs.«415303_j23759759082192_3_alg».proof.Proof.Spec
import proofs.«415303_j23759759082192_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The gate of row p, column q of a block, from the loaded vectors. -/
def gateB (x0 : S4000x64.Idx → EReal) (x1 : S64x64.Idx → EReal) (x2 : S1x64.Idx → EReal) (xh : S4000x64.Idx → EReal) (x4 : S4000x64.Idx → EReal)
    (p : Fin 4000) (q : Fin 64) : EReal :=
  Ideal.logistic ((xh (ix2 p q) + x4 (ix2 p q)) + ((∑ k : Fin 64, x0 (ix2 p k) * x1 (ix2 k q)) + x2 (ix2 0 q)))

/-- The body's gate payload at row p, column q is the block gate: format changes are the identity on the extended reals, the matrix
    product into the zero accumulator is the sum over the 64 contracted columns, and the bias row is broadcast down the rows. -/
theorem pay1_apply (v0 : Vec Ideal S4000x64 .f32) (v2 : Vec Ideal S64x64 .f32) (v5 : Vec Ideal S1x64 .f32) (v11 v13 : Vec Ideal S4000x64 .f32)
    (p : Fin 4000) (q : Fin 64) :
    k1_pay1 (F := Ideal) v0 v2 v5 v11 v13 (ix2 p q) = gateB v0 v2 v5 v11 v13 p q := by
  unfold k1_pay1 gateB
  rw [shapeCast_self, shapeCast_self, shapeCast_self]
  refine congrArg Ideal.logistic ?_
  refine congrArg₂ (· + ·) rfl (congrArg₂ (· + ·) ?_ ?_)
  · exact Cert.PlainDot.matmul_zero_apply _ rfl none _ _ (ix2 p q)
  · exact broadcastTo_1b_ab_apply v5 _ p q

/-- The two half loads of the 128-wide block read its lower and its upper 64 columns. -/
theorem ld_lo_apply (x3 : Vec Ideal S4000x128 .f32) (p : Fin 4000) (q : Fin 64) :
    (View.ld x3 r1_lo : S4000x64.Idx → EReal) (ix2 p q) = x3 (ix2 p (Fin.castAdd 64 q)) := by
  refine congrArg x3 (funext fun a => Fin.ext ?_)
  match a with
  | ⟨0, _⟩ => show 0 + 1 * p.val = p.val; omega
  | ⟨1, _⟩ => show 0 + 1 * q.val = q.val; omega
theorem ld_hi_apply (x3 : Vec Ideal S4000x128 .f32) (p : Fin 4000) (q : Fin 64) :
    (View.ld x3 r1_hi : S4000x64.Idx → EReal) (ix2 p q) = x3 (ix2 p (Fin.natAdd 64 q)) := by
  refine congrArg x3 (funext fun a => Fin.ext ?_)
  match a with
  | ⟨0, _⟩ => show 0 + 1 * p.val = p.val; omega
  | ⟨1, _⟩ => show 64 + 1 * q.val = 64 + q.val; omega

/-- The stored 128-wide value is the concatenation along the columns of gate times the lower half load, and the gate. -/
theorem pay2_lo (v0 : Vec Ideal S4000x64 .f32) (v2 : Vec Ideal S64x64 .f32) (v5 : Vec Ideal S1x64 .f32) (v9 v11 v13 : Vec Ideal S4000x64 .f32)
    (p : Fin 4000) (q : Fin 64) :
    k1_pay2 (F := Ideal) v0 v2 v5 v9 v11 v13 (ix2 p (Fin.castAdd 64 q)) = k1_pay1 (F := Ideal) v0 v2 v5 v11 v13 (ix2 p q) * v9 (ix2 p q) := by
  unfold k1_pay2
  rw [shapeCast_self]
  refine (concatenate_pair_apply_left (t := S4000x128) (s₁ := S4000x64) (s₂ := S4000x64) (1 : Fin 2) _ _ _ (ix2 p (Fin.castAdd 64 q)) rfl (ix2 p q) (fun b => ?_)).trans rfl
  match b with
  | ⟨0, _⟩ => rfl
  | ⟨1, _⟩ => rfl

theorem pay2_hi (v0 : Vec Ideal S4000x64 .f32) (v2 : Vec Ideal S64x64 .f32) (v5 : Vec Ideal S1x64 .f32) (v9 v11 v13 : Vec Ideal S4000x64 .f32)
    (p : Fin 4000) (q : Fin 64) :
    k1_pay2 (F := Ideal) v0 v2 v5 v9 v11 v13 (ix2 p (Fin.natAdd 64 q)) = k1_pay1 (F := Ideal) v0 v2 v5 v11 v13 (ix2 p q) := by
  unfold k1_pay2
  refine concatenate_pair_apply_right (t := S4000x128) (s₁ := S4000x64) (s₂ := S4000x64) (1 : Fin 2) _ _ _ (ix2 p (Fin.natAdd 64 q)) rfl rfl (ix2 p q) (fun b hb => ?_) ?_
  · match b with
    | ⟨0, _⟩ => rfl
    | ⟨1, _⟩ => exact absurd rfl hb
  · show q.val + 64 = 64 + q.val; omega

/-- The stored 8-row value is the concatenation along the rows of the column sums of the gate, of its square, and six zero rows. -/
theorem pay3_row0 (v0 : Vec Ideal S4000x64 .f32) (v2 : Vec Ideal S64x64 .f32) (v5 : Vec Ideal S1x64 .f32) (v11 v13 : Vec Ideal S4000x64 .f32) (q : Fin 64) :
    k1_pay3 (F := Ideal) v0 v2 v5 v11 v13 (ix2 (0 : Fin 8) q) = ∑ r : Fin 4000, k1_pay1 (F := Ideal) v0 v2 v5 v11 v13 (ix2 r q) := by
  unfold k1_pay3
  refine (concatenate_apply_piece (t := S8x64) (0 : Fin 2) _ _ (ix2 (0 : Fin 8) q) 0 (by exact Nat.zero_lt_succ _) S1x64 _ rfl rfl 0 rfl (ix2 (0 : Fin 1) q) (fun b hb => ?_) rfl).trans ?_
  · match b with
    | ⟨0, _⟩ => exact absurd rfl hb
    | ⟨1, _⟩ => rfl
  refine (shapeCast_a_1a_apply _ _ 0 q).trans ?_
  refine (Ideal.multiReduction_add_single _ _ _ _ _ (ix1 q)).trans ?_
  refine Finset.sum_congr rfl fun k _ => congrArg _ (funext fun a => Fin.ext ?_)
  match a with
  | ⟨0, _⟩ => rfl
  | ⟨1, _⟩ => rfl

theorem pay3_row1 (v0 : Vec Ideal S4000x64 .f32) (v2 : Vec Ideal S64x64 .f32) (v5 : Vec Ideal S1x64 .f32) (v11 v13 : Vec Ideal S4000x64 .f32) (q : Fin 64) :
    k1_pay3 (F := Ideal) v0 v2 v5 v11 v13 (ix2 (1 : Fin 8) q)
      = ∑ r : Fin 4000, k1_pay1 (F := Ideal) v0 v2 v5 v11 v13 (ix2 r q) * k1_pay1 (F := Ideal) v0 v2 v5 v11 v13 (ix2 r q) := by
  unfold k1_pay3
  refine (concatenate_apply_piece (t := S8x64) (0 : Fin 2) _ _ (ix2 (1 : Fin 8) q) 1 (by exact Nat.succ_lt_succ (Nat.zero_lt_succ _)) S1x64 _ rfl rfl 1 rfl (ix2 (0 : Fin 1) q) (fun b hb => ?_) rfl).trans ?_
  · match b with
    | ⟨0, _⟩ => exact absurd rfl hb
    | ⟨1, _⟩ => rfl
  refine (shapeCast_a_1a_apply _ _ 0 q).trans ?_
  refine (Ideal.multiReduction_add_single _ _ _ _ _ (ix1 q)).trans ?_
  refine Finset.sum_congr rfl fun k _ => ?_
  have e : reduces_S4000x64_S64.lift (ix1 q) k = ix2 k q := funext fun a => Fin.ext (by
    match a with
    | ⟨0, _⟩ => rfl
    | ⟨1, _⟩ => rfl)
  rw [e]
  rfl

theorem pay3_rest (v0 : Vec Ideal S4000x64 .f32) (v2 : Vec Ideal S64x64 .f32) (v5 : Vec Ideal S1x64 .f32) (v11 v13 : Vec Ideal S4000x64 .f32)
    (n : Nat) (hn : n + 2 < 8) (q : Fin 64) :
    k1_pay3 (F := Ideal) v0 v2 v5 v11 v13 (ix2 (⟨n + 2, hn⟩ : Fin 8) q) = Ideal.ofBits .f32 0x00000000#32 := by
  unfold k1_pay3
  refine (concatenate_apply_piece (t := S8x64) (0 : Fin 2) _ _ (ix2 (⟨n + 2, hn⟩ : Fin 8) q) 2 (by exact Nat.lt_succ_self _) S6x64 _ rfl rfl 2 rfl (ix2 (⟨n, by omega⟩ : Fin 6) q) (fun b hb => ?_) ?_).trans rfl
  · match b with
    | ⟨0, _⟩ => exact absurd rfl hb
    | ⟨1, _⟩ => rfl
  · show 2 + n = n + 2; omega

/-- Global edge row of row p of block T. -/
def row1 (T : Fin 320) (p : Fin 4000) : Fin 1280000 := ⟨4000 * T.val + p.val, by have := T.isLt; have := p.isLt; omega⟩

/-- What region 1 leaves in its 1280000 × 128 result, by coordinates: gate times the lower half of the gathered block, then the gate. -/
def G5c (e : TE) (w : TW) (b : S1x64.Idx → EReal) (bd : S1280000x128.Idx → EReal) (exd : TE) (r : Fin 1280000) (q' : Fin 128) : EReal :=
  if h : q'.val < 64 then gateOf e w b bd exd r ⟨q'.val, h⟩ * bd (ix2 r q')
  else gateOf e w b bd exd r ⟨q'.val - 64, by have := q'.isLt; omega⟩
def G5 (e : TE) (w : TW) (b : S1x64.Idx → EReal) (bd : S1280000x128.Idx → EReal) (exd : TE) : S1280000x128.Idx → EReal :=
  fun i => G5c e w b bd exd (i 0) (i 1)

/-- What region 1 leaves in its 2560 × 64 result, by block, row in the block and column: column sums of the gate, of its square, zeros. -/
def G6c (e : TE) (w : TW) (b : S1x64.Idx → EReal) (bd : S1280000x128.Idx → EReal) (exd : TE) (T : Fin 320) (r : Fin 8) (q : Fin 64) : EReal :=
  if r.val = 0 then ∑ p : Fin 4000, gateOf e w b bd exd (row1 T p) q
  else if r.val = 1 then ∑ p : Fin 4000, gateOf e w b bd exd (row1 T p) q * gateOf e w b bd exd (row1 T p) q
  else Ideal.ofBits .f32 0x00000000#32
def G6 (e : TE) (w : TW) (b : S1x64.Idx → EReal) (bd : S1280000x128.Idx → EReal) (exd : TE) : S2560x64.Idx → EReal :=
  fun i => G6c e w b bd exd ⟨(i 0).val / 8, by have h : (i 0).val < 2560 := (i 0).isLt; omega⟩ ⟨(i 0).val % 8, by omega⟩ (i 1)

section Block
variable (x0 : Vec Ideal S4000x64 .f32) (x1 : Vec Ideal S64x64 .f32) (x2 : Vec Ideal S1x64 .f32) (x3 : Vec Ideal S4000x128 .f32) (x4 : Vec Ideal S4000x64 .f32)
  (e : TE) (w : TW) (b : S1x64.Idx → EReal) (bd : S1280000x128.Idx → EReal) (exd : TE) (T : Fin 320)
  (h0 : ∀ (p : Fin 4000) (k : Fin 64), x0 (ix2 p k) = e (ix2 (row1 T p) k)) (h1 : x1 = w) (h2 : x2 = b)
  (h3 : ∀ (p : Fin 4000) (k : Fin 128), x3 (ix2 p k) = bd (ix2 (row1 T p) k))
  (h4 : ∀ (p : Fin 4000) (k : Fin 64), x4 (ix2 p k) = exd (ix2 (row1 T p) k))
include h0 h1 h2 h3 h4

/-- The body's gate on a block whose loaded vectors are rows 4000 T … of the arrays is the gate of those rows. -/
theorem gate_block (p : Fin 4000) (q : Fin 64) :
    k1_pay1 (F := Ideal) x0 x1 x2 (View.ld x3 r1_hi) x4 (ix2 p q) = gateOf e w b bd exd (row1 T p) q := by
  rw [pay1_apply]
  unfold gateB gateOf
  subst h1 h2
  exact congrArg Ideal.logistic (congrArg₂ (· + ·) (congrArg₂ (· + ·) ((ld_hi_apply x3 p q).trans (h3 p _)) (h4 p q))
    (congrArg₂ (· + ·) (Finset.sum_congr rfl fun k _ => congrArg (· * _) (h0 p k)) rfl))

theorem block5 (p : Fin 4000) (q' : Fin 128) :
    k1_pay2 (F := Ideal) x0 x1 x2 (View.ld x3 r1_lo) (View.ld x3 r1_hi) x4 (ix2 p q') = G5c e w b bd exd (row1 T p) q' := by
  unfold G5c
  by_cases h : q'.val < 64
  · obtain ⟨q, rfl⟩ : ∃ q : Fin 64, q' = Fin.castAdd 64 q := ⟨⟨q'.val, h⟩, Fin.ext rfl⟩
    rw [dif_pos h, pay2_lo, gate_block x0 x1 x2 x3 x4 e w b bd exd T h0 h1 h2 h3 h4, ld_lo_apply, h3]
    rfl
  · obtain ⟨q, rfl⟩ : ∃ q : Fin 64, q' = Fin.natAdd 64 q := ⟨⟨q'.val - 64, by have := q'.isLt; omega⟩, Fin.ext (by show q'.val = 64 + (q'.val - 64); omega)⟩
    rw [dif_neg h, pay2_hi, gate_block x0 x1 x2 x3 x4 e w b bd exd T h0 h1 h2 h3 h4]
    exact congrArg (gateOf e w b bd exd (row1 T p)) (Fin.ext (by show q.val = 64 + q.val - 64; omega))

theorem block6 (r : Fin 8) (q : Fin 64) :
    k1_pay3 (F := Ideal) x0 x1 x2 (View.ld x3 r1_hi) x4 (ix2 r q) = G6c e w b bd exd T r q := by
  unfold G6c
  match r with
  | ⟨0, _⟩ =>
    rw [if_pos rfl]
    refine (pay3_row0 x0 x1 x2 _ x4 q).trans (Finset.sum_congr rfl fun p _ => ?_)
    exact gate_block x0 x1 x2 x3 x4 e w b bd exd T h0 h1 h2 h3 h4 p q
  | ⟨1, _⟩ =>
    rw [if_neg (show ¬ (1 : ℕ) = 0 from Nat.one_ne_zero), if_pos rfl]
    refine (pay3_row1 x0 x1 x2 _ x4 q).trans (Finset.sum_congr rfl fun p _ => ?_)
    rw [gate_block x0 x1 x2 x3 x4 e w b bd exd T h0 h1 h2 h3 h4 p q]
  | ⟨n + 2, hn⟩ =>
    rw [if_neg (by show ¬ n + 2 = 0; omega), if_neg (by show ¬ n + 2 = 1; omega)]
    exact pay3_rest x0 x1 x2 _ x4 n hn q
end Block

theorem hz : (![0, 0] : Fin 2 → Nat) = fun _ => 0 := funext fun a => by
  match a with
  | ⟨0, _⟩ => rfl
  | ⟨1, _⟩ => rfl

/-- The printed index maps, decided over the grid: the row-blocked windows are on block t, the whole ones on block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- A grid point as a block number below 320. -/
def tT (t : Fin cfg1.N) : Fin 320 := ⟨t.val, Nat.lt_of_lt_of_eq t.isLt N_1⟩

/-- Each input window's block at point t, read where it lies in its array. -/
theorem iblk1_0_apply (c : Dev nD) (t : Fin cfg1.N) (p : Fin 4000) (k : Fin 64) :
    (iblk1 V c 0 t : Vec Ideal S4000x64 .f32) (ix2 p k) = (V c main_arg1 : TE) (ix2 (row1 (tT t) p) k) := by
  obtain ⟨e0, e1, -⟩ := idx_facts1 t
  show V c main_arg1 (((cfg1.win 0).blk t).view.emb (ix2 p k)) = _
  refine congrArg (V c main_arg1) (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 64 + 1 * k.val = k.val; rw [e1]; omega
theorem iblk1_1_eq (c : Dev nD) (t : Fin cfg1.N) : (iblk1 V c 1 t : Vec Ideal S64x64 .f32) = (V c main_arg8 : TW) := by
  obtain ⟨-, -, e0, e1, -⟩ := idx_facts1 t
  funext y
  show V c main_arg8 (((cfg1.win 1).blk t).view.emb y) = _
  refine congrArg (V c main_arg8) (funext fun a => Fin.ext ?_)
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega
theorem iblk1_2_eq (c : Dev nD) (t : Fin cfg1.N) : (iblk1 V c 2 t : Vec Ideal S1x64 .f32) = (V c main_v9 : S1x64.Idx → EReal) := by
  obtain ⟨-, -, -, -, e0, e1, -⟩ := idx_facts1 t
  funext y
  show V c main_v9 (((cfg1.win 2).blk t).view.emb y) = _
  refine congrArg (V c main_v9) (funext fun a => Fin.ext ?_)
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega
theorem iblk1_3_apply (c : Dev nD) (t : Fin cfg1.N) (p : Fin 4000) (k : Fin 128) :
    (iblk1 V c 3 t : Vec Ideal S4000x128 .f32) (ix2 p k) = (V c main_v7 : S1280000x128.Idx → EReal) (ix2 (row1 (tT t) p) k) := by
  obtain ⟨-, -, -, -, -, -, e0, e1, -⟩ := idx_facts1 t
  show V c main_v7 (((cfg1.win 3).blk t).view.emb (ix2 p k)) = _
  refine congrArg (V c main_v7) (funext fun a => Fin.ext ?_)
  match a with
  | ⟨0, _⟩ => show win1_3.index t (0 : Fin 2) * 4000 + 1 * p.val = 4000 * t.val + p.val; rw [e0]; omega
  | ⟨1, _⟩ => show win1_3.index t (1 : Fin 2) * 128 + 1 * k.val = k.val; rw [e1]; omega
theorem iblk1_4_apply (c : Dev nD) (t : Fin cfg1.N) (p : Fin 4000) (k : Fin 64) :
    (iblk1 V c 4 t : Vec Ideal S4000x64 .f32) (ix2 p k) = (V c main_v8 : TE) (ix2 (row1 (tT t) p) k) := by
  obtain ⟨-, -, -, -, -, -, -, -, e0, e1, -⟩ := idx_facts1 t
  show V c main_v8 (((cfg1.win 4).blk t).view.emb (ix2 p k)) = _
  refine congrArg (V c main_v8) (funext fun a => Fin.ext ?_)
  match a with
  | ⟨0, _⟩ => show win1_4.index t (0 : Fin 2) * 4000 + 1 * p.val = 4000 * t.val + p.val; rw [e0]; omega
  | ⟨1, _⟩ => show win1_4.index t (1 : Fin 2) * 64 + 1 * k.val = k.val; rw [e1]; omega

/-- What point t writes back to the 1280000 × 128 result is block t of G5 of the arrays. -/
theorem flushed5_eq (c : Dev nD) (t : Fin cfg1.N) :
    (dat1 (F := Ideal) V c).flushed 5 t = ((cfg1.win 5).blk t).view.read (Elt Ideal) (G5 (V c main_arg1) (V c main_arg8) (V c main_v9) (V c main_v7) (V c main_v8)) := by
  show (cfg1.win 5).cut (grid1.coords t) ((dat1 V c).after 5 t) = _
  rw [after1_5]
  unfold out1_5
  rw [View.canon_unit_zero hz]
  simp only [View.ld_unit_zero (S := S4000x64) hz, View.ld_unit_zero (S := S64x64) hz, View.ld_unit_zero (S := S1x64) hz]
  obtain ⟨-, -, -, -, -, -, -, -, -, -, e0, e1, -⟩ := idx_facts1 t
  refine funext fun (j : S4000x128.Idx) => ?_
  obtain ⟨p, q', rfl⟩ : ∃ (p : Fin 4000) (q' : Fin 128), j = ix2 p q' := ⟨j 0, j 1, eq_ix2 j⟩
  refine (block5 (iblk1 V c 0 t) (iblk1 V c 1 t) (iblk1 V c 2 t) (iblk1 V c 3 t) (iblk1 V c 4 t) (V c main_arg1) (V c main_arg8) (V c main_v9) (V c main_v7) (V c main_v8) (tT t) (iblk1_0_apply V c t) (iblk1_1_eq V c t) (iblk1_2_eq V c t) (iblk1_3_apply V c t) (iblk1_4_apply V c t) p q').trans ?_
  refine congrArg₂ (G5c (V c main_arg1) (V c main_arg8) (V c main_v9) (V c main_v7) (V c main_v8)) (Fin.ext ?_) (Fin.ext ?_)
  · show 4000 * t.val + p.val = win1_5.index t (0 : Fin 2) * 4000 + 1 * p.val; rw [e0]; omega
  · show q'.val = win1_5.index t (1 : Fin 2) * 128 + 1 * q'.val; rw [e1]; omega

/-- What point t writes back to the 2560 × 64 result is block t of G6 of the arrays. -/
theorem flushed6_eq (c : Dev nD) (t : Fin cfg1.N) :
    (dat1 (F := Ideal) V c).flushed 6 t = ((cfg1.win 6).blk t).view.read (Elt Ideal) (G6 (V c main_arg1) (V c main_arg8) (V c main_v9) (V c main_v7) (V c main_v8)) := by
  show (cfg1.win 6).cut (grid1.coords t) ((dat1 V c).after 6 t) = _
  rw [after1_6]
  unfold out1_6
  rw [View.canon_unit_zero hz]
  simp only [View.ld_unit_zero (S := S4000x64) hz, View.ld_unit_zero (S := S64x64) hz, View.ld_unit_zero (S := S1x64) hz]
  obtain ⟨-, -, -, -, -, -, -, -, -, -, -, -, e0, e1⟩ := idx_facts1 t
  refine funext fun (j : S8x64.Idx) => ?_
  obtain ⟨r, q, rfl⟩ : ∃ (r : Fin 8) (q : Fin 64), j = ix2 r q := ⟨j 0, j 1, eq_ix2 j⟩
  refine (block6 (iblk1 V c 0 t) (iblk1 V c 1 t) (iblk1 V c 2 t) (iblk1 V c 3 t) (iblk1 V c 4 t) (V c main_arg1) (V c main_arg8) (V c main_v9) (V c main_v7) (V c main_v8) (tT t) (iblk1_0_apply V c t) (iblk1_1_eq V c t) (iblk1_2_eq V c t) (iblk1_3_apply V c t) (iblk1_4_apply V c t) r q).trans ?_
  refine congr (congr (congrArg (G6c (V c main_arg1) (V c main_arg8) (V c main_v9) (V c main_v7) (V c main_v8)) (Fin.ext ?_)) (Fin.ext ?_)) (Fin.ext ?_)
  · show t.val = (win1_6.index t (0 : Fin 2) * 8 + 1 * r.val) / 8; rw [e0]; omega
  · show r.val = (win1_6.index t (0 : Fin 2) * 8 + 1 * r.val) % 8; rw [e0]; omega
  · show q.val = win1_6.index t (1 : Fin 2) * 64 + 1 * q.val; rw [e1]; omega

/-- An index of the result is in point t's block iff each coordinate is in the block's range on its axis. -/
theorem mem_blk5 (t : Fin cfg1.N) (i : S1280000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v10_0).slice (win1_5.rect t)).set ↔ _
  rw [View.set_slice_whole, Rect.mem_set_unit]
  exact Iff.rfl
theorem mem_blk6 (t : Fin cfg1.N) (i : S2560x64.Idx) :
    i ∈ ((cfg1.win 6).blk t).view.set ↔ ∀ a : Fin 2, win1_6.index t a * S8x64.size a ≤ (i a).val ∧ (i a).val < win1_6.index t a * S8x64.size a + S8x64.size a := by
  show i ∈ ((View.whole main_v10_1).slice (win1_6.rect t)).set ↔ _
  rw [View.set_slice_whole, Rect.mem_set_unit]
  exact Iff.rfl

/-- Row r of the 1280000 × 128 result is written by point r / 4000; row r of the 2560 × 64 result by point r / 8. -/
theorem cover5 (i : S1280000x128.Idx) : ∃ t : Fin cfg1.N, (cfg1.win 5).flush t = true ∧ i ∈ ((cfg1.win 5).blk t).view.set := by
  have hi0 : (i 0).val < 1280000 := (i 0).isLt
  have hi1 : (i 1).val < 128 := (i 1).isLt
  have hlt : (i 0).val / 4000 < cfg1.N := Nat.lt_of_lt_of_eq (show (i 0).val / 4000 < 320 by omega) N_1.symm
  obtain ⟨-, -, -, -, -, -, -, -, -, -, e0, e1, -⟩ := idx_facts1 ⟨(i 0).val / 4000, hlt⟩
  have e0' : win1_5.index ⟨(i 0).val / 4000, hlt⟩ (0 : Fin 2) = (i 0).val / 4000 := e0
  refine ⟨⟨(i 0).val / 4000, hlt⟩, flush1_5 _, ?_⟩
  rw [mem_blk5]
  intro a
  match a with
  | ⟨0, _⟩ =>
    show win1_5.index ⟨(i 0).val / 4000, hlt⟩ (0 : Fin 2) * 4000 ≤ (i 0).val ∧ (i 0).val < win1_5.index ⟨(i 0).val / 4000, hlt⟩ (0 : Fin 2) * 4000 + 4000
    rw [e0']; omega
  | ⟨1, _⟩ =>
    show win1_5.index ⟨(i 0).val / 4000, hlt⟩ (1 : Fin 2) * 128 ≤ (i 1).val ∧ (i 1).val < win1_5.index ⟨(i 0).val / 4000, hlt⟩ (1 : Fin 2) * 128 + 128
    rw [e1]; omega
theorem cover6 (i : S2560x64.Idx) : ∃ t : Fin cfg1.N, (cfg1.win 6).flush t = true ∧ i ∈ ((cfg1.win 6).blk t).view.set := by
  have hi0 : (i 0).val < 2560 := (i 0).isLt
  have hi1 : (i 1).val < 64 := (i 1).isLt
  have hlt : (i 0).val / 8 < cfg1.N := Nat.lt_of_lt_of_eq (show (i 0).val / 8 < 320 by omega) N_1.symm
  obtain ⟨-, -, -, -, -, -, -, -, -, -, -, -, e0, e1⟩ := idx_facts1 ⟨(i 0).val / 8, hlt⟩
  have e0' : win1_6.index ⟨(i 0).val / 8, hlt⟩ (0 : Fin 2) = (i 0).val / 8 := e0
  refine ⟨⟨(i 0).val / 8, hlt⟩, flush1_6 _, ?_⟩
  rw [mem_blk6]
  intro a
  match a with
  | ⟨0, _⟩ =>
    show win1_6.index ⟨(i 0).val / 8, hlt⟩ (0 : Fin 2) * 8 ≤ (i 0).val ∧ (i 0).val < win1_6.index ⟨(i 0).val / 8, hlt⟩ (0 : Fin 2) * 8 + 8
    rw [e0']; omega
  | ⟨1, _⟩ =>
    show win1_6.index ⟨(i 0).val / 8, hlt⟩ (1 : Fin 2) * 64 ≤ (i 1).val ∧ (i 1).val < win1_6.index ⟨(i 0).val / 8, hlt⟩ (1 : Fin 2) * 64 + 64
    rw [e1]; omega

/-- The two result arrays after the last point. -/
theorem final5 (c : Dev nD) : (dat1 (F := Ideal) V c).arrAt 5 cfg1.N = G5 (V c main_arg1) (V c main_arg8) (V c main_v9) (V c main_v7) (V c main_v8) :=
  (dat1 (F := Ideal) V c).arrAt_eq_of_cover 5 (G5 (V c main_arg1) (V c main_arg8) (V c main_v9) (V c main_v7) (V c main_v8)) (fun t _ => flushed5_eq V c t) cover5
theorem final6 (c : Dev nD) : (dat1 (F := Ideal) V c).arrAt 6 cfg1.N = G6 (V c main_arg1) (V c main_arg8) (V c main_v9) (V c main_v7) (V c main_v8) :=
  (dat1 (F := Ideal) V c).arrAt_eq_of_cover 6 (G6 (V c main_arg1) (V c main_arg8) (V c main_v9) (V c main_v7) (V c main_v8)) (fun t _ => flushed6_eq V c t) cover6

/-- The gate at edge `r`, column `j`, from the arrays the region is handed. -/
abbrev g1 (c : Dev nD) (r : Fin 1280000) (j : Fin 64) : EReal :=
  gateOf (V c main_arg1) (V c main_arg8) (V c main_v9) (V c main_v7) (V c main_v8) r j

theorem final1_5_lo (c : Dev nD) (r : Fin 1280000) (j : Fin 64) :
    (dat1 (F := Ideal) V c).arrAt 5 cfg1.N (ix2 r (Fin.castAdd 64 j)) = g1 V c r j * V c main_v7 (ix2 r (Fin.castAdd 64 j)) := by
  refine (congrFun (final5 V c) (ix2 r (Fin.castAdd 64 j))).trans ?_
  show G5c (V c main_arg1) (V c main_arg8) (V c main_v9) (V c main_v7) (V c main_v8) r (Fin.castAdd 64 j) = _
  unfold G5c
  rw [dif_pos (show (Fin.castAdd 64 j).val < 64 from j.isLt)]
  rfl
theorem final1_5_hi (c : Dev nD) (r : Fin 1280000) (j : Fin 64) :
    (dat1 (F := Ideal) V c).arrAt 5 cfg1.N (ix2 r (Fin.natAdd 64 j)) = g1 V c r j := by
  refine (congrFun (final5 V c) (ix2 r (Fin.natAdd 64 j))).trans ?_
  show G5c (V c main_arg1) (V c main_arg8) (V c main_v9) (V c main_v7) (V c main_v8) r (Fin.natAdd 64 j) = _
  unfold G5c
  rw [dif_neg (show ¬ (Fin.natAdd 64 j).val < 64 from by show ¬ 64 + j.val < 64; omega)]
  exact congrArg (gateOf (V c main_arg1) (V c main_arg8) (V c main_v9) (V c main_v7) (V c main_v8) r) (Fin.ext (by show 64 + j.val - 64 = j.val; omega))
theorem final1_6_sum (c : Dev nD) (t : Fin 320) (j : Fin 64) :
    (dat1 (F := Ideal) V c).arrAt 6 cfg1.N (ix2 ⟨8 * t.val, by omega⟩ j)
      = ∑ r : Fin 4000, g1 V c ⟨4000 * t.val + r.val, by omega⟩ j := by
  refine (congrFun (final6 V c) (ix2 ⟨8 * t.val, by omega⟩ j)).trans ?_
  show G6c (V c main_arg1) (V c main_arg8) (V c main_v9) (V c main_v7) (V c main_v8) ⟨8 * t.val / 8, _⟩ ⟨8 * t.val % 8, _⟩ j = _
  unfold G6c
  rw [if_pos (show 8 * t.val % 8 = 0 by omega)]
  refine Finset.sum_congr rfl fun r _ => ?_
  exact congrArg (fun x => gateOf (V c main_arg1) (V c main_arg8) (V c main_v9) (V c main_v7) (V c main_v8) x j) (Fin.ext (by show 4000 * (8 * t.val / 8) + r.val = 4000 * t.val + r.val; omega))
theorem final1_6_sq (c : Dev nD) (t : Fin 320) (j : Fin 64) :
    (dat1 (F := Ideal) V c).arrAt 6 cfg1.N (ix2 ⟨8 * t.val + 1, by omega⟩ j)
      = ∑ r : Fin 4000, g1 V c ⟨4000 * t.val + r.val, by omega⟩ j * g1 V c ⟨4000 * t.val + r.val, by omega⟩ j := by
  refine (congrFun (final6 V c) (ix2 ⟨8 * t.val + 1, by omega⟩ j)).trans ?_
  show G6c (V c main_arg1) (V c main_arg8) (V c main_v9) (V c main_v7) (V c main_v8) ⟨(8 * t.val + 1) / 8, _⟩ ⟨(8 * t.val + 1) % 8, _⟩ j = _
  unfold G6c
  rw [if_neg (show ¬ (8 * t.val + 1) % 8 = 0 by omega), if_pos (show (8 * t.val + 1) % 8 = 1 by omega)]
  refine Finset.sum_congr rfl fun r _ => ?_
  have hx : (row1 ⟨(8 * t.val + 1) / 8, by omega⟩ r) = ⟨4000 * t.val + r.val, by omega⟩ :=
    Fin.ext (by show 4000 * ((8 * t.val + 1) / 8) + r.val = 4000 * t.val + r.val; omega)
  rw [hx]

end Cert.KernelIdeal.Hand

end
-- ==== Proof.KI.HostTake.lean ====
/-
  The two row gathers of the idealized kernel's @main, read at an entry, from ANY contents W of the buffers before the stretch.
  The gather shifts a negative index word by the row count, reads the row at the clamped word, and replaces the row by a filler
  unless the word lies in [0, 79999]; for index words in range it reads the row at the word.
-/
import proofs.«415303_j23759759082192_3_alg».proof.Proof.Gen.KernelIdeal.Launch
import proofs.«415303_j23759759082192_3_alg».proof.Proof.Spec2
import proofs.«415303_j23759759082192_3_alg».proof.Proof.LibIndex
import proofs.«415303_j23759759082192_3_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.ShloMosaic.StableHlo

/-! ## The words -/

/-- A word that is not negative as a signed integer is kept by the select on "the word is below zero". -/
private theorem keep_word (v : BitVec 32) (h0 : 0 ≤ v.toInt) :
    Scalar.select (IntOp.cmpi .slt v 0#32) (IntOp.addi v 80000#32) v = v := by
  have hc : IntOp.cmpi .slt v 0#32 = 0#1 := by
    show BitVec.ofBool (v.slt 0#32) = 0#1
    rw [BitVec.slt_eq_decide, BitVec.toInt_zero, decide_eq_false (by omega)]
    rfl
  rw [hc]
  exact if_neg (by decide)

/-- A word in [0, 80000) passes both bounds of the mask: it is at least 0 and at most 79999. -/
private theorem mask_word (v : BitVec 32) (h0 : 0 ≤ v.toInt) (h1 : v.toInt < 80000) :
    IntOp.andi (IntOp.cmpi .sge v 0#32) (IntOp.cmpi .sle v 79999#32) = 1#1 := by
  have ha : IntOp.cmpi .sge v 0#32 = 1#1 := by
    show BitVec.ofBool ((0#32).sle v) = 1#1
    rw [BitVec.sle_eq_decide, BitVec.toInt_zero, decide_eq_true h0]
    rfl
  have hb : IntOp.cmpi .sle v 79999#32 = 1#1 := by
    show BitVec.ofBool (v.sle 79999#32) = 1#1
    rw [BitVec.sle_eq_decide, show (79999#32 : BitVec 32).toInt = 79999 by decide, decide_eq_true (by omega)]
    rfl
  rw [ha, hb]
  decide

/-- The conjunction of ones, from one, is one. -/
private theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi (1#1) (1#1) = 1#1 by decide]
    exact ih

/-! ## The index column and the row mask -/

/-- The index column the gather reads: each word, shifted by the row count when negative, as a column. -/
private def takeCol (idx : IVec S1280000 32) : IVec S1280000x1 32 :=
  broadcastInDim S1280000x1 ![0] bcast_S1280000_S1280000x1_0
    (select (cmpi .slt idx (broadcastInDim S1280000 ![] bcast_S_S1280000 (constantI S_ 32 0#32)))
      (addi idx (broadcastInDim S1280000 ![] bcast_S_S1280000 (constantI S_ 32 80000#32))) idx)

/-- The two bounds of the mask, before the reduction: the column's word is at least 0 and at most 79999. -/
private def takeBounds (w : IVec S1280000x1 32) : IVec S1280000x1 1 :=
  andi (cmpi .sge w (broadcastInDim S1280000x1 ![] bcast_S_S1280000x1 (constantI S_ 32 0#32)))
    (cmpi .sle w (broadcastInDim S1280000x1 ![0, 1] bcast_S1x1_S1280000x1_0_1
      (broadcastInDim S1x1 ![1] bcast_S1_S1x1_1 (constantI S1 32 79999#32))))

/-- For index words in range the column holds the words themselves. -/
private theorem takeCol_apply (idx : IVec S1280000 32) (hr : InRange idx) (i : S1280000x1.Idx) :
    takeCol idx i = idx (ix1 (i 0)) := by
  unfold takeCol
  rw [broadcastInDim_apply _ bcast_S1280000_S1280000x1_0 _ i (ix1 (i 0)) (fun a => match a with
    | ⟨0, _⟩ => by show (i 0).val = if (1280000 : Nat) = 1 then 0 else (i 0).val; rw [if_neg (by decide)])]
  exact keep_word (idx (ix1 (i 0))) (hr (i 0)).1

/-- For index words in range both bounds hold at every row of the column. -/
private theorem takeBounds_apply (idx : IVec S1280000 32) (hr : InRange idx) (i : S1280000x1.Idx) :
    takeBounds (takeCol idx) i = 1#1 := by
  show IntOp.andi (IntOp.cmpi .sge (takeCol idx i) 0#32) (IntOp.cmpi .sle (takeCol idx i) 79999#32) = 1#1
  rw [takeCol_apply idx hr i]
  exact mask_word _ (hr (i 0)).1 (hr (i 0)).2

/-- The conjunction over the unit axis of a column of ones, from one, is one at every row. -/
private theorem reduce_ones (x : IVec S1280000x1 1) (hx : ∀ i, x i = 1#1) (j : S1280000.Idx) :
    Host.reduce IntOp.andi x (constantI S_ 1 1#1) reducesTo_S1280000x1_S1280000_d1 h_S_ j = 1#1 := by
  rw [Host.reduce_eq_foldl]
  exact foldl_andi_one _ hx _

/-- The gather under a mask of ones, for index words in range: the operand's row at the word. -/
private theorem take_apply {D : Nat} (hb : S1280000.BroadcastsInDim ⟨2, ![1280000, D]⟩ ![0])
    (wf : GatherDims.WF ⟨2, ![80000, D]⟩ ⟨2, ![1280000, 1]⟩ ⟨2, ![1280000, D]⟩ [1] [0] [] [0] [] 1 ![1, D])
    (x : (⟨2, ![80000, D]⟩ : Shape).Idx → EReal) (filler : (⟨2, ![1280000, D]⟩ : Shape).Idx → EReal)
    (idx : IVec S1280000 32) (hr : InRange idx) (m : IVec S1280000 1) (hm : ∀ j, m j = 1#1)
    (e : Fin 1280000) (q : Fin D) :
    select (broadcastInDim ⟨2, ![1280000, D]⟩ ![0] hb m)
        (Host.gather (rowGatherDims 80000 1280000 D wf) x (takeCol idx)) filler (ix2 e q)
      = x (ix2 (rowOf idx e) q) := by
  have hm' : broadcastInDim ⟨2, ![1280000, D]⟩ ![0] hb m (ix2 e q) = 1#1 := hm _
  show Scalar.select (broadcastInDim ⟨2, ![1280000, D]⟩ ![0] hb m (ix2 e q))
    (Host.gather (rowGatherDims 80000 1280000 D wf) x (takeCol idx) (ix2 e q)) (filler (ix2 e q)) = _
  rw [hm', gatherRows_apply (by decide : 0 < 80000), takeCol_apply idx hr]
  exact if_pos rfl

/-- Contents moved to a buffer's own type and back are the contents. -/
private theorem ofBuf_toBuf {Val : EltTy → Type} {T : BufTy} (x : TRef sig T) (v : T.Contents Val) :
    x.ofBuf (x.toBuf v) = v := by
  obtain ⟨r, h, _, _⟩ := x
  subst h
  rfl

variable (W : Valuation τ sig (Elt Ideal))

theorem ops1_1_v7 (hr : InRange (W main_arg2)) (e : Fin 1280000) (q : Fin 128) :
    after (hostOps1_1 (F := Ideal)) W main_v7 (ix2 e q) = W main_v5 (ix2 (rowOf (W main_arg2) e) q) := by
  -- the stretch's result as one term of W's buffers, the mask named: it is one at every row
  obtain ⟨m, hm1, he⟩ : ∃ m : IVec S1280000 1, (∀ j, m j = 1#1) ∧
      after (hostOps1_1 (F := Ideal)) W main_v7 =
        select (broadcastInDim S1280000x128 ![0] bcast_S1280000_S1280000x128_0 m)
          (Host.gather gather_S80000x128_S1280000x1_S1280000x128_1_0_n_n_0_1_1128 (W main_v5) (takeCol (W main_arg2)))
          (broadcastInDim S1280000x128 ![] bcast_S_S1280000x128 (constant (F := Ideal) S_ .f32 0x7FC00000#32)) := by
    simp only [hostOps1_1]
    after_results_simp
    simp only [ofBuf_toBuf]
    generalize hm : Host.reduce IntOp.andi _ (constantI S_ 1 1#1) reducesTo_S1280000x1_S1280000_d1 h_S_ = m
    refine ⟨m, fun j => ?_, rfl⟩
    rw [← hm]
    exact reduce_ones (takeBounds (takeCol (W main_arg2))) (takeBounds_apply _ hr) j
  rw [he]
  exact take_apply bcast_S1280000_S1280000x128_0 gather_S80000x128_S1280000x1_S1280000x128_1_0_n_n_0_1_1128_wf
    (W main_v5) _ (W main_arg2) hr m hm1 e q

theorem ops1_2_v8 (hr : InRange (W main_arg3)) (e : Fin 1280000) (j : Fin 64) :
    after (hostOps1_2 (F := Ideal)) W main_v8 (ix2 e j) = W main_v6 (ix2 (rowOf (W main_arg3) e) j) := by
  -- the stretch's result as one term of W's buffers, the mask named: it is one at every row
  obtain ⟨m, hm1, he⟩ : ∃ m : IVec S1280000 1, (∀ i, m i = 1#1) ∧
      after (hostOps1_2 (F := Ideal)) W main_v8 =
        select (broadcastInDim S1280000x64 ![0] bcast_S1280000_S1280000x64_0 m)
          (Host.gather gather_S80000x64_S1280000x1_S1280000x64_1_0_n_n_0_1_164 (W main_v6) (takeCol (W main_arg3)))
          (broadcastInDim S1280000x64 ![] bcast_S_S1280000x64 (constant (F := Ideal) S_ .f32 0x7FC00000#32)) := by
    simp only [hostOps1_2]
    after_results_simp
    simp only [ofBuf_toBuf]
    generalize hm : Host.reduce IntOp.andi _ (constantI S_ 1 1#1) reducesTo_S1280000x1_S1280000_d1 h_S_ = m
    refine ⟨m, fun i => ?_, rfl⟩
    rw [← hm]
    exact reduce_ones (takeBounds (takeCol (W main_arg3))) (takeBounds_apply _ hr) i
  rw [he]
  exact take_apply bcast_S1280000_S1280000x64_0 gather_S80000x64_S1280000x1_S1280000x64_1_0_n_n_0_1_164_wf
    (W main_v6) _ (W main_arg3) hr m hm1 e j

end Cert.KernelIdeal.Hand

end
-- ==== Proof.KI.Chain2.lean ====
/-
  The edge gate as the kernel computes it is the layer's gate: the 128-wide gathered block holds B then D at the edge's source
  row, the 64-wide one E at its destination row, so region 1 stores the gate times the B row beside the gate, and the tiles' column
  sums of the gate and of its square.
-/
import proofs.«415303_j23759759082192_3_alg».proof.Proof.KI.Chain1
import proofs.«415303_j23759759082192_3_alg».proof.Proof.KI.Value1
import proofs.«415303_j23759759082192_3_alg».proof.Proof.KI.HostTake

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The source and destination index arrays, the edge features, the edge weight and the edge bias hold their launch contents
    where the gathers and region 1 read them: no item before writes an argument. -/
theorem src_Chain2 (c : Dev nD) : W3 m ρ c main_arg2 = (inputs m c).src :=
  (W3_keep m ρ c main_arg2 (by decide)).trans <| (W2_keep m ρ c main_arg2 (by decide)).trans <| (W1_keep m ρ c main_arg2 (by decide))
theorem dst_Chain2 (c : Dev nD) : W4 m ρ c main_arg3 = (inputs m c).dst :=
  (W4_keep m ρ c main_arg3 (by decide)).trans <| (W3_keep m ρ c main_arg3 (by decide)).trans <| (W2_keep m ρ c main_arg3 (by decide)).trans <| (W1_keep m ρ c main_arg3 (by decide))
theorem e_Chain2 (c : Dev nD) : W6 m ρ c main_arg1 = (inputs m c).e :=
  (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide))
theorem wC_Chain2 (c : Dev nD) : W6 m ρ c main_arg8 = (inputs m c).WC :=
  (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide))
theorem bC_Chain2 (c : Dev nD) : W5 m ρ c main_arg9 = (inputs m c).bC :=
  (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide))

/-- The gathered source block is carried from its stretch to region 1's entry, the gathered destination block likewise, and
    the two slices they are gathered from across the stretches in between. -/
theorem v7_Chain2 (c : Dev nD) : W6 m ρ c main_v7 = W4 m ρ c main_v7 :=
  (W6_keep m ρ c main_v7 (by decide)).trans (W5_keep m ρ c main_v7 (by decide))
theorem v8_Chain2 (c : Dev nD) : W6 m ρ c main_v8 = W5 m ρ c main_v8 :=
  W6_keep m ρ c main_v8 (by decide)
theorem v6_Chain2 (c : Dev nD) : W4 m ρ c main_v6 = W3 m ρ c main_v6 :=
  W4_keep m ρ c main_v6 (by decide)
theorem bd_lo (c : Dev nD) (hI : (inputs m c).Ok) (e : Fin 1280000) (j : Fin 64) :
    V6 m ρ c main_v7 (ix2 e (Fin.castAdd 64 j)) = lin (inputs m c).x (inputs m c).WB (inputs m c).bB (rowOf (inputs m c).src e) j := by
  have hr : InRange (W3 m ρ c main_arg2) := by rw [src_Chain2]; exact hI.src
  refine (congrFun (v7_Chain2 m ρ c) _).trans ?_
  refine (ops1_1_v7 (W3 m ρ c) hr e (Fin.castAdd 64 j)).trans ?_
  rw [src_Chain2]
  refine (ops1_v5 (W2 m ρ c) (rowOf (inputs m c).src e) (Fin.castAdd 64 j)).trans ?_
  exact proj_B m ρ c (rowOf (inputs m c).src e) j
theorem bd_hi (c : Dev nD) (hI : (inputs m c).Ok) (e : Fin 1280000) (j : Fin 64) :
    V6 m ρ c main_v7 (ix2 e (Fin.natAdd 64 j)) = lin (inputs m c).x (inputs m c).WD (inputs m c).bD (rowOf (inputs m c).src e) j := by
  have hr : InRange (W3 m ρ c main_arg2) := by rw [src_Chain2]; exact hI.src
  refine (congrFun (v7_Chain2 m ρ c) _).trans ?_
  refine (ops1_1_v7 (W3 m ρ c) hr e (Fin.natAdd 64 j)).trans ?_
  rw [src_Chain2]
  refine (ops1_v5 (W2 m ρ c) (rowOf (inputs m c).src e) (Fin.natAdd 64 j)).trans ?_
  refine Eq.trans ?_ (proj_D m ρ c (rowOf (inputs m c).src e) j)
  refine congrArg _ (congrArg _ (Fin.ext ?_))
  show 64 + (64 + j.val) = 128 + j.val
  omega
theorem exd (c : Dev nD) (hI : (inputs m c).Ok) (e : Fin 1280000) (j : Fin 64) :
    V6 m ρ c main_v8 (ix2 e j) = lin (inputs m c).x (inputs m c).WE (inputs m c).bE (rowOf (inputs m c).dst e) j := by
  have hr : InRange (W4 m ρ c main_arg3) := by rw [dst_Chain2]; exact hI.dst
  refine (congrFun (v8_Chain2 m ρ c) _).trans ?_
  refine (ops1_2_v8 (W4 m ρ c) hr e j).trans ?_
  rw [dst_Chain2]
  refine (congrFun (v6_Chain2 m ρ c) _).trans ?_
  refine (ops1_v6 (W2 m ρ c) (rowOf (inputs m c).dst e) j).trans ?_
  exact proj_E m ρ c (rowOf (inputs m c).dst e) j

/-- The gate computed from arrays that hold the edge features, the edge weight, the edge bias as a row, D at the source row
    in the upper half of the gathered block and E at the destination row, is the layer's gate. -/
theorem gateOf_eq_Chain2 (I : Inputs) (ev : TE) (w : TW) (b : (⟨2, ![1, 64]⟩ : Shape).Idx → EReal)
    (bd : (⟨2, ![1280000, 128]⟩ : Shape).Idx → EReal) (xd : TE) (r : Fin 1280000) (j : Fin 64)
    (he : ev = I.e) (hw : w = I.WC) (hb : b (ix2 0 j) = I.bC (ix1 j))
    (hbd : bd (ix2 r (Fin.natAdd 64 j)) = lin I.x I.WD I.bD (rowOf I.src r) j)
    (hxd : xd (ix2 r j) = lin I.x I.WE I.bE (rowOf I.dst r) j) :
    gateOf ev w b bd xd r j = gate I r j := by
  subst he hw
  unfold gateOf gate
  rw [hbd, hxd, hb]
  rfl

/-- The edge bias row at region 1's entry is the launch bias. -/
theorem v9_Chain2 (c : Dev nD) (j : Fin 64) : W6 m ρ c main_v9 (ix2 0 j) = (inputs m c).bC (ix1 j) :=
  (ops1_3_v9 (W5 m ρ c) j).trans (congrFun (bC_Chain2 m ρ c) (ix1 j))

theorem gate_K (c : Dev nD) (hI : (inputs m c).Ok) (e : Fin 1280000) (j : Fin 64) :
    g1 (V6 m ρ) c e j = gate (inputs m c) e j := by
  exact gateOf_eq_Chain2 (inputs m c) _ _ _ _ _ e j (e_Chain2 m ρ c) (wC_Chain2 m ρ c) (v9_Chain2 m ρ c j)
    (bd_hi m ρ c hI e j) (exd m ρ c hI e j)
theorem out_lo (c : Dev nD) (hI : (inputs m c).Ok) (e : Fin 1280000) (j : Fin 64) :
    V7 m ρ c main_v10_0 (ix2 e (Fin.castAdd 64 j)) = gate (inputs m c) e j * lin (inputs m c).x (inputs m c).WB (inputs m c).bB (rowOf (inputs m c).src e) j := by
  refine (congrFun (W7_arr m ρ c 5) _).trans ?_
  refine (final1_5_lo (V6 m ρ) c e j).trans ?_
  exact congrArg₂ (· * ·) (gate_K m ρ c hI e j) (bd_lo m ρ c hI e j)
theorem out_hi (c : Dev nD) (hI : (inputs m c).Ok) (e : Fin 1280000) (j : Fin 64) :
    V7 m ρ c main_v10_0 (ix2 e (Fin.natAdd 64 j)) = gate (inputs m c) e j := by
  refine (congrFun (W7_arr m ρ c 5) _).trans ?_
  exact (final1_5_hi (V6 m ρ) c e j).trans (gate_K m ρ c hI e j)
theorem stats_e_sum (c : Dev nD) (hI : (inputs m c).Ok) (t : Fin 320) (j : Fin 64) :
    V7 m ρ c main_v10_1 (ix2 ⟨8 * t.val, by omega⟩ j) = ∑ r : Fin 4000, gate (inputs m c) ⟨4000 * t.val + r.val, by omega⟩ j := by
  refine (congrFun (W7_arr m ρ c 6) _).trans ?_
  have hs : (∑ r : Fin 4000, g1 (V6 m ρ) c ⟨4000 * t.val + r.val, by omega⟩ j)
      = ∑ r : Fin 4000, gate (inputs m c) ⟨4000 * t.val + r.val, by omega⟩ j :=
    Finset.sum_congr rfl fun r _ => gate_K m ρ c hI _ j
  exact (final1_6_sum (V6 m ρ) c t j).trans hs
theorem stats_e_sq (c : Dev nD) (hI : (inputs m c).Ok) (t : Fin 320) (j : Fin 64) :
    V7 m ρ c main_v10_1 (ix2 ⟨8 * t.val + 1, by omega⟩ j)
      = ∑ r : Fin 4000, gate (inputs m c) ⟨4000 * t.val + r.val, by omega⟩ j * gate (inputs m c) ⟨4000 * t.val + r.val, by omega⟩ j := by
  refine (congrFun (W7_arr m ρ c 6) _).trans ?_
  have hs : (∑ r : Fin 4000, g1 (V6 m ρ) c ⟨4000 * t.val + r.val, by omega⟩ j * g1 (V6 m ρ) c ⟨4000 * t.val + r.val, by omega⟩ j)
      = ∑ r : Fin 4000, gate (inputs m c) ⟨4000 * t.val + r.val, by omega⟩ j * gate (inputs m c) ⟨4000 * t.val + r.val, by omega⟩ j :=
    Finset.sum_congr rfl fun r _ => congrArg₂ (· * ·) (gate_K m ρ c hI _ j) (gate_K m ρ c hI _ j)
  exact (final1_6_sq (V6 m ρ) c t j).trans hs

end Cert.KernelIdeal.Hand

end
-- ==== Proof.KI.Value2.lean ====
/-
  Region 2's two output arrays after its ten points, at the extended reals. The 80000 × 64 array holds the combined node value:
  the first input plus the quotient of the second by the third plus a small constant. The 80 × 64 array holds, in rows 8t and 8t + 1,
  the column sums over the 8000 nodes of block t of that value and of its square.
-/
import proofs.«415303_j23759759082192_3_alg».proof.Proof.KI.Region2
import proofs.«415303_j23759759082192_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The combined value at node `n`, column `j`, from the arrays the region is handed. -/
abbrev c2 (c : Dev nD) (n : Fin 80000) (j : Fin 64) : EReal :=
  combOf (V c main_v4) (V c main_v14) (V c main_v15) n j

/-! ## The payloads, index by index -/

theorem zero_offsets2 : (![0, 0] : Fin 2 → Nat) = fun _ => 0 := funext fun a => by fin_cases a <;> rfl

/-- The first store's value at an entry: the first block plus the quotient of the second by the third plus the constant. -/
theorem pay2_1_apply (x0 x1 x2 : Vec Ideal S8000x64 .f32) (p : Fin 8000) (q : Fin 64) :
    k2_pay1 x0 x1 x2 (ix2 p q) = x0 (ix2 p q) + Ideal.div (x1 (ix2 p q)) (x2 (ix2 p q) + eps6) := by
  unfold k2_pay1
  simp only [shapeCast_self]
  rfl

/-- A sum over the rows of an 8000 × 64 vector, read at a column, is the sum over the row coordinate. -/
theorem sum_rows2 (v : FVec Ideal S8000x64 .f32) (h : S8000x64.Reduces [0] S64) (hφ : FKind.Formats FTy.f32)
    (hacc : (0x00000000#32 : BitVec 32) = FKind.add.neutral FTy.f32 hφ) (q : Fin 64) :
    multiReduction .add [0] S64 v 0x00000000#32 h hφ hacc (ix1 q) = ∑ r : Fin 8000, v (ix2 r q) := by
  refine (Ideal.multiReduction_add_single v _ h hφ hacc (ix1 q)).trans ?_
  show ∑ r : Fin 8000, v (h.lift (ix1 q) r) = _
  refine Finset.sum_congr rfl fun r _ => congrArg v ?_
  funext a
  apply Fin.ext
  match a with
  | ⟨0, _⟩ => rfl
  | ⟨1, _⟩ => rfl

section Stack
variable {α : Type} (u v : S1x64.Idx → α) (z : S6x64.Idx → α) (h : Shape.Concatenates [S1x64, S1x64, S6x64] S8x64 0)

/-- Two rows and a 6-row block stacked along axis 0: row 0 is the first row, -/
theorem stack2_row0 (q : Fin 64) :
    concatenate S8x64 0 [⟨S1x64, u⟩, ⟨S1x64, v⟩, ⟨S6x64, z⟩] h (ix2 (0 : Fin 8) q) = u (ix2 (0 : Fin 1) q) :=
  concatenate_apply_piece (t := S8x64) (0 : Fin 2) [⟨S1x64, u⟩, ⟨S1x64, v⟩, ⟨S6x64, z⟩] h (ix2 (0 : Fin 8) q) 0 (by show (0 : Nat) < 3; omega) S1x64 u rfl rfl 0 rfl
    (ix2 (0 : Fin 1) q) (fun b hb => by match b with | ⟨0, _⟩ => exact absurd rfl hb | ⟨1, _⟩ => rfl) rfl

/-- row 1 the second, -/
theorem stack2_row1 (q : Fin 64) :
    concatenate S8x64 0 [⟨S1x64, u⟩, ⟨S1x64, v⟩, ⟨S6x64, z⟩] h (ix2 (1 : Fin 8) q) = v (ix2 (0 : Fin 1) q) :=
  concatenate_apply_piece (t := S8x64) (0 : Fin 2) [⟨S1x64, u⟩, ⟨S1x64, v⟩, ⟨S6x64, z⟩] h (ix2 (1 : Fin 8) q) 1 (by show (1 : Nat) < 3; omega) S1x64 v rfl rfl 1 rfl
    (ix2 (0 : Fin 1) q) (fun b hb => by match b with | ⟨0, _⟩ => exact absurd rfl hb | ⟨1, _⟩ => rfl) rfl

/-- and rows 2 to 7 the block's. -/
theorem stack2_rest (p : Fin 8) (hp : 2 ≤ p.val) (q : Fin 64) :
    concatenate S8x64 0 [⟨S1x64, u⟩, ⟨S1x64, v⟩, ⟨S6x64, z⟩] h (ix2 p q) = z (ix2 (⟨p.val - 2, by omega⟩ : Fin 6) q) :=
  concatenate_apply_piece (t := S8x64) (0 : Fin 2) [⟨S1x64, u⟩, ⟨S1x64, v⟩, ⟨S6x64, z⟩] h (ix2 p q) 2 (by show (2 : Nat) < 3; omega) S6x64 z rfl rfl 2 rfl
    (ix2 (⟨p.val - 2, by omega⟩ : Fin 6) q) (fun b hb => by match b with | ⟨0, _⟩ => exact absurd rfl hb | ⟨1, _⟩ => rfl)
    (by show 2 + (p.val - 2) = p.val; omega)
end Stack

/-- The second store's value: row 0 is the column sums of the first store's value, -/
theorem pay2_2_row0 (x0 x1 x2 : Vec Ideal S8000x64 .f32) (q : Fin 64) :
    k2_pay2 x0 x1 x2 (ix2 (0 : Fin 8) q) = ∑ r : Fin 8000, k2_pay1 x0 x1 x2 (ix2 r q) := by
  unfold k2_pay2
  dsimp only
  rw [stack2_row0, shapeCast_a_1a_apply]
  exact sum_rows2 _ _ _ _ q

/-- row 1 the column sums of its square, -/
theorem pay2_2_row1 (x0 x1 x2 : Vec Ideal S8000x64 .f32) (q : Fin 64) :
    k2_pay2 x0 x1 x2 (ix2 (1 : Fin 8) q) = ∑ r : Fin 8000, k2_pay1 x0 x1 x2 (ix2 r q) * k2_pay1 x0 x1 x2 (ix2 r q) := by
  unfold k2_pay2
  dsimp only
  rw [stack2_row1, shapeCast_a_1a_apply]
  exact sum_rows2 _ _ _ _ q

/-- and the other six rows are zero. -/
theorem pay2_2_rest (x0 x1 x2 : Vec Ideal S8000x64 .f32) (p : Fin 8) (hp : 2 ≤ p.val) (q : Fin 64) :
    k2_pay2 x0 x1 x2 (ix2 p q) = zeroL := by
  unfold k2_pay2
  dsimp only
  rw [stack2_rest _ _ _ _ p hp q]
  rfl

/-! ## The whole-array functions -/

/-- The 80000 × 64 array of combined values, of the three arrays. -/
def combArr2 (ax nm dn : TN) : TN := fun p => ax p + Ideal.div (nm p) (dn p + eps6)

/-- Row `s` of the 8-row block `b` of the statistics: the column sum over the block's 8000 nodes of the combined value, of its
    square, and zero in the other six rows. -/
def statRow2 (ax nm dn : TN) (b : Fin 10) (s : Fin 8) (j : Fin 64) : EReal :=
  if s.val = 0 then ∑ r : Fin 8000, combOf ax nm dn ⟨8000 * b.val + r.val, by omega⟩ j
  else if s.val = 1 then ∑ r : Fin 8000, combOf ax nm dn ⟨8000 * b.val + r.val, by omega⟩ j * combOf ax nm dn ⟨8000 * b.val + r.val, by omega⟩ j
  else zeroL

/-- The 80 × 64 array of statistics. -/
def statArr2 (ax nm dn : TN) : (⟨2, ![80, 64]⟩ : Shape).Idx → EReal := fun p =>
  statRow2 ax nm dn ⟨(p 0).val / 8, by have := idx2_lt0 p; omega⟩ ⟨(p 0).val % 8, by omega⟩ (p 1)

theorem statArr2_apply (ax nm dn : TN) (k : (⟨2, ![80, 64]⟩ : Shape).Idx) (b : Fin 10) (s : Fin 8) (q : Fin 64)
    (h0 : (k 0).val = 8 * b.val + s.val) (h1 : (k 1).val = q.val) : statArr2 ax nm dn k = statRow2 ax nm dn b s q := by
  unfold statArr2
  have e0 : (⟨(k 0).val / 8, by have := idx2_lt0 k; omega⟩ : Fin 10) = b := Fin.ext (by show (k 0).val / 8 = b.val; omega)
  have e1 : (⟨(k 0).val % 8, by omega⟩ : Fin 8) = s := Fin.ext (by show (k 0).val % 8 = s.val; omega)
  have e2 : (k 1 : Fin 64) = q := Fin.ext h1
  rw [e0, e1, e2]

/-! ## The blocks read where the output's block lies -/

/-- The printed index maps, decided over the grid: every window's block at point `t` is block `(t, 0)`. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Input window 0's block at point `t` is rows `8000 t … 8000 t + 7999` of its array. -/
theorem iblk2_0_apply (c : Dev nD) (t : Fin cfg2.N) (p : Fin 8000) (q : Fin 64) (k : S80000x64.Idx)
    (hk0 : (k 0).val = 8000 * t.val + p.val) (hk1 : (k 1).val = q.val) :
    (iblk2 V c 0 t : Vec Ideal S8000x64 .f32) (ix2 p q) = (V c main_v4 : S80000x64.Idx → Elt Ideal .f32) k := by
  obtain ⟨e0, e0', -⟩ := idx_facts2 t
  unfold iblk2
  rw [View.read_apply]
  show V c main_v4 _ = V c main_v4 _
  congr 1
  funext a
  apply Fin.ext
  match a with
  | ⟨0, _⟩ => show win2_0.index t 0 * 8000 + 1 * p.val = (k 0).val; rw [e0, hk0]; omega
  | ⟨1, _⟩ => show win2_0.index t 1 * 64 + 1 * q.val = (k 1).val; rw [e0', hk1]; omega

/-- Input window 1's block at point `t` is rows `8000 t … 8000 t + 7999` of its array. -/
theorem iblk2_1_apply (c : Dev nD) (t : Fin cfg2.N) (p : Fin 8000) (q : Fin 64) (k : S80000x64.Idx)
    (hk0 : (k 0).val = 8000 * t.val + p.val) (hk1 : (k 1).val = q.val) :
    (iblk2 V c 1 t : Vec Ideal S8000x64 .f32) (ix2 p q) = (V c main_v14 : S80000x64.Idx → Elt Ideal .f32) k := by
  obtain ⟨-, -, e0, e0', -⟩ := idx_facts2 t
  unfold iblk2
  rw [View.read_apply]
  show V c main_v14 _ = V c main_v14 _
  congr 1
  funext a
  apply Fin.ext
  match a with
  | ⟨0, _⟩ => show win2_1.index t 0 * 8000 + 1 * p.val = (k 0).val; rw [e0, hk0]; omega
  | ⟨1, _⟩ => show win2_1.index t 1 * 64 + 1 * q.val = (k 1).val; rw [e0', hk1]; omega

/-- Input window 2's block at point `t` is rows `8000 t … 8000 t + 7999` of its array. -/
theorem iblk2_2_apply (c : Dev nD) (t : Fin cfg2.N) (p : Fin 8000) (q : Fin 64) (k : S80000x64.Idx)
    (hk0 : (k 0).val = 8000 * t.val + p.val) (hk1 : (k 1).val = q.val) :
    (iblk2 V c 2 t : Vec Ideal S8000x64 .f32) (ix2 p q) = (V c main_v15 : S80000x64.Idx → Elt Ideal .f32) k := by
  obtain ⟨-, -, -, -, e0, e0', -⟩ := idx_facts2 t
  unfold iblk2
  rw [View.read_apply]
  show V c main_v15 _ = V c main_v15 _
  congr 1
  funext a
  apply Fin.ext
  match a with
  | ⟨0, _⟩ => show win2_2.index t 0 * 8000 + 1 * p.val = (k 0).val; rw [e0, hk0]; omega
  | ⟨1, _⟩ => show win2_2.index t 1 * 64 + 1 * q.val = (k 1).val; rw [e0', hk1]; omega

/-- The first store's value at point `t`, row `r` of the block: the combined value at node `8000 t + r`. -/
theorem pay2_1_at (c : Dev nD) (t : Fin cfg2.N) (r : Fin 8000) (q : Fin 64) (n : Fin 80000) (hn : n.val = 8000 * t.val + r.val) :
    k2_pay1 (iblk2 V c 0 t) (iblk2 V c 1 t) (iblk2 V c 2 t) (ix2 r q) = c2 V c n q := by
  rw [pay2_1_apply, iblk2_0_apply V c t r q (ix2 n q) hn rfl, iblk2_1_apply V c t r q (ix2 n q) hn rfl, iblk2_2_apply V c t r q (ix2 n q) hn rfl]
  rfl

/-- The second store's value at point `t`: block `t` of the statistics. -/
theorem pay2_2_at (c : Dev nD) (t : Fin cfg2.N) (b : Fin 10) (hb : b.val = t.val) (s : Fin 8) (q : Fin 64) :
    k2_pay2 (iblk2 V c 0 t) (iblk2 V c 1 t) (iblk2 V c 2 t) (ix2 s q) = statRow2 (V c main_v4) (V c main_v14) (V c main_v15) b s q := by
  unfold statRow2
  by_cases h0 : s.val = 0
  · obtain rfl : s = (0 : Fin 8) := Fin.ext h0
    rw [if_pos h0, pay2_2_row0]
    exact Finset.sum_congr rfl fun r _ => pay2_1_at V c t r q _ (by show 8000 * b.val + r.val = _; rw [hb])
  · rw [if_neg h0]
    by_cases h1 : s.val = 1
    · obtain rfl : s = (1 : Fin 8) := Fin.ext h1
      rw [if_pos h1, pay2_2_row1]
      refine Finset.sum_congr rfl fun r _ => ?_
      rw [pay2_1_at V c t r q ⟨8000 * b.val + r.val, by omega⟩ (by show 8000 * b.val + r.val = _; rw [hb])]
    · rw [if_neg h1]
      exact pay2_2_rest _ _ _ s (by omega) q

/-! ## What each point writes back -/

/-- Point `t` writes back block `t` of the combined values -/
theorem flushed2_3_eq (c : Dev nD) (t : Fin cfg2.N) :
    (dat2 (F := Ideal) V c).flushed 3 t = ((cfg2.win 3).blk t).view.read (Elt Ideal) (combArr2 (V c main_v4) (V c main_v14) (V c main_v15)) := by
  show (cfg2.win 3).cut (grid2.coords t) ((dat2 V c).after 3 t) = _
  rw [after2_3]
  unfold out2_3
  rw [View.canon_unit_zero zero_offsets2]
  simp only [View.ld_unit_zero (S := S8000x64) zero_offsets2]
  obtain ⟨-, -, -, -, -, -, e3, e3', -⟩ := idx_facts2 t
  funext j
  have hj0 : (j 0).val < 8000 := (j 0).isLt
  have hj1 : (j 1).val < 64 := (j 1).isLt
  have hy : (win2 3).xinj (grid2.coords t) j = (ix2 (⟨(j 0).val, hj0⟩ : Fin 8000) (⟨(j 1).val, hj1⟩ : Fin 64) : S8000x64.Idx) := by
    funext a; match a with | ⟨0, _⟩ => rfl | ⟨1, _⟩ => rfl
  let k : S80000x64.Idx := ((cfg2.win 3).blk t).view.emb j
  show k2_pay1 (iblk2 V c 0 t) (iblk2 V c 1 t) (iblk2 V c 2 t) ((win2 3).xinj (grid2.coords t) j) = combArr2 (V c main_v4) (V c main_v14) (V c main_v15) k
  have hk0 : (k 0).val = 8000 * t.val + (j 0).val := by
    show win2_3.index t 0 * 8000 + 1 * (j 0).val = 8000 * t.val + (j 0).val
    rw [e3]; omega
  have hk1 : (k 1).val = (j 1).val := by
    show win2_3.index t 1 * 64 + 1 * (j 1).val = (j 1).val
    rw [e3']; omega
  refine (congrArg (k2_pay1 _ _ _) hy).trans ?_
  rw [pay2_1_apply, iblk2_0_apply V c t ⟨(j 0).val, hj0⟩ ⟨(j 1).val, hj1⟩ k hk0 hk1, iblk2_1_apply V c t ⟨(j 0).val, hj0⟩ ⟨(j 1).val, hj1⟩ k hk0 hk1,
    iblk2_2_apply V c t ⟨(j 0).val, hj0⟩ ⟨(j 1).val, hj1⟩ k hk0 hk1]
  rfl

/-- and block `t` of the statistics. -/
theorem flushed2_4_eq (c : Dev nD) (t : Fin cfg2.N) :
    (dat2 (F := Ideal) V c).flushed 4 t = ((cfg2.win 4).blk t).view.read (Elt Ideal) (statArr2 (V c main_v4) (V c main_v14) (V c main_v15)) := by
  show (cfg2.win 4).cut (grid2.coords t) ((dat2 V c).after 4 t) = _
  rw [after2_4]
  unfold out2_4
  rw [View.canon_unit_zero zero_offsets2]
  simp only [View.ld_unit_zero (S := S8000x64) zero_offsets2]
  obtain ⟨-, -, -, -, -, -, -, -, e4, e4'⟩ := idx_facts2 t
  have hN : cfg2.N = 10 := N_2
  have ht : t.val < 10 := by have := t.isLt; omega
  funext j
  have hj0 : (j 0).val < 8 := (j 0).isLt
  have hj1 : (j 1).val < 64 := (j 1).isLt
  have hy : (win2 4).xinj (grid2.coords t) j = (ix2 (⟨(j 0).val, hj0⟩ : Fin 8) (⟨(j 1).val, hj1⟩ : Fin 64) : S8x64.Idx) := by
    funext a; match a with | ⟨0, _⟩ => rfl | ⟨1, _⟩ => rfl
  let k : S80x64.Idx := ((cfg2.win 4).blk t).view.emb j
  show k2_pay2 (iblk2 V c 0 t) (iblk2 V c 1 t) (iblk2 V c 2 t) ((win2 4).xinj (grid2.coords t) j) = statArr2 (V c main_v4) (V c main_v14) (V c main_v15) k
  have hk0 : (k 0).val = 8 * t.val + (j 0).val := by
    show win2_4.index t 0 * 8 + 1 * (j 0).val = 8 * t.val + (j 0).val
    rw [e4]; omega
  have hk1 : (k 1).val = (j 1).val := by
    show win2_4.index t 1 * 64 + 1 * (j 1).val = (j 1).val
    rw [e4']; omega
  refine (congrArg (k2_pay2 _ _ _) hy).trans ?_
  rw [statArr2_apply _ _ _ k ⟨t.val, ht⟩ ⟨(j 0).val, hj0⟩ ⟨(j 1).val, hj1⟩ hk0 hk1]
  exact pay2_2_at V c t ⟨t.val, ht⟩ rfl ⟨(j 0).val, hj0⟩ ⟨(j 1).val, hj1⟩

/-! ## The blocks cover the arrays -/

/-- An index of the 80000 × 64 array is in point `t`'s block iff each coordinate is in the block's range on its axis. -/
theorem mem_blk2_3 (t : Fin cfg2.N) (i : S80000x64.Idx) :
    i ∈ ((cfg2.win 3).blk t).view.set ↔ ∀ a : Fin 2, win2_3.index t a * S8000x64.size a ≤ (i a).val ∧ (i a).val < win2_3.index t a * S8000x64.size a + S8000x64.size a := by
  show i ∈ ((View.whole main_v16_0).slice (win2_3.rect t)).set ↔ _
  rw [View.set_slice_whole, Rect.mem_set_unit]
  exact Iff.rfl

theorem mem_blk2_4 (t : Fin cfg2.N) (i : S80x64.Idx) :
    i ∈ ((cfg2.win 4).blk t).view.set ↔ ∀ a : Fin 2, win2_4.index t a * S8x64.size a ≤ (i a).val ∧ (i a).val < win2_4.index t a * S8x64.size a + S8x64.size a := by
  show i ∈ ((View.whole main_v16_1).slice (win2_4.rect t)).set ↔ _
  rw [View.set_slice_whole, Rect.mem_set_unit]
  exact Iff.rfl

/-- Row `r` of the 80000 × 64 array is in the block of point `r / 8000`. -/
theorem covered2_3 (i : S80000x64.Idx) : ∃ t : Fin cfg2.N, (cfg2.win 3).flush t = true ∧ i ∈ ((cfg2.win 3).blk t).view.set := by
  have hi0 : (i 0).val < 80000 := (i 0).isLt
  have hi1 : (i 1).val < 64 := (i 1).isLt
  have hN : cfg2.N = 10 := N_2
  obtain ⟨t, ht⟩ : ∃ t : Fin cfg2.N, t.val = (i 0).val / 8000 := ⟨⟨(i 0).val / 8000, by omega⟩, rfl⟩
  obtain ⟨-, -, -, -, -, -, e3, e3', -⟩ := idx_facts2 t
  refine ⟨t, flush2_3 t, ?_⟩
  rw [mem_blk2_3]
  intro a
  match a with
  | ⟨0, _⟩ => show win2_3.index t 0 * 8000 ≤ (i 0).val ∧ (i 0).val < win2_3.index t 0 * 8000 + 8000; rw [e3]; omega
  | ⟨1, _⟩ => show win2_3.index t 1 * 64 ≤ (i 1).val ∧ (i 1).val < win2_3.index t 1 * 64 + 64; rw [e3']; omega

/-- Row `r` of the 80 × 64 array is in the block of point `r / 8`. -/
theorem covered2_4 (i : S80x64.Idx) : ∃ t : Fin cfg2.N, (cfg2.win 4).flush t = true ∧ i ∈ ((cfg2.win 4).blk t).view.set := by
  have hi0 : (i 0).val < 80 := (i 0).isLt
  have hi1 : (i 1).val < 64 := (i 1).isLt
  have hN : cfg2.N = 10 := N_2
  obtain ⟨t, ht⟩ : ∃ t : Fin cfg2.N, t.val = (i 0).val / 8 := ⟨⟨(i 0).val / 8, by omega⟩, rfl⟩
  obtain ⟨-, -, -, -, -, -, -, -, e4, e4'⟩ := idx_facts2 t
  refine ⟨t, flush2_4 t, ?_⟩
  rw [mem_blk2_4]
  intro a
  match a with
  | ⟨0, _⟩ => show win2_4.index t 0 * 8 ≤ (i 0).val ∧ (i 0).val < win2_4.index t 0 * 8 + 8; rw [e4]; omega
  | ⟨1, _⟩ => show win2_4.index t 1 * 64 ≤ (i 1).val ∧ (i 1).val < win2_4.index t 1 * 64 + 64; rw [e4']; omega

/-! ## The arrays after the last point -/

theorem arr2_3 (c : Dev nD) : (dat2 (F := Ideal) V c).arrAt 3 cfg2.N = combArr2 (V c main_v4) (V c main_v14) (V c main_v15) :=
  (dat2 (F := Ideal) V c).arrAt_eq_of_cover 3 (combArr2 (V c main_v4) (V c main_v14) (V c main_v15)) (fun t _ => flushed2_3_eq V c t) covered2_3

theorem arr2_4 (c : Dev nD) : (dat2 (F := Ideal) V c).arrAt 4 cfg2.N = statArr2 (V c main_v4) (V c main_v14) (V c main_v15) :=
  (dat2 (F := Ideal) V c).arrAt_eq_of_cover 4 (statArr2 (V c main_v4) (V c main_v14) (V c main_v15)) (fun t _ => flushed2_4_eq V c t) covered2_4

theorem final2_3 (c : Dev nD) (n : Fin 80000) (j : Fin 64) :
    (dat2 (F := Ideal) V c).arrAt 3 cfg2.N (ix2 n j) = c2 V c n j :=
  (congrFun (arr2_3 V c) (ix2 n j)).trans rfl
theorem final2_4_sum (c : Dev nD) (t : Fin 10) (j : Fin 64) :
    (dat2 (F := Ideal) V c).arrAt 4 cfg2.N (ix2 ⟨8 * t.val, by omega⟩ j)
      = ∑ r : Fin 8000, c2 V c ⟨8000 * t.val + r.val, by omega⟩ j := by
  refine (congrFun (arr2_4 V c) (ix2 ⟨8 * t.val, by omega⟩ j)).trans ?_
  rw [statArr2_apply _ _ _ _ t (0 : Fin 8) j rfl rfl]
  unfold statRow2
  rw [if_pos (show ((0 : Fin 8) : Nat) = 0 from rfl)]
theorem final2_4_sq (c : Dev nD) (t : Fin 10) (j : Fin 64) :
    (dat2 (F := Ideal) V c).arrAt 4 cfg2.N (ix2 ⟨8 * t.val + 1, by omega⟩ j)
      = ∑ r : Fin 8000, c2 V c ⟨8000 * t.val + r.val, by omega⟩ j * c2 V c ⟨8000 * t.val + r.val, by omega⟩ j := by
  refine (congrFun (arr2_4 V c) (ix2 ⟨8 * t.val + 1, by omega⟩ j)).trans ?_
  rw [statArr2_apply _ _ _ _ t (1 : Fin 8) j rfl rfl]
  unfold statRow2
  rw [if_neg (show ¬((1 : Fin 8) : Nat) = 0 by decide), if_pos (show ((1 : Fin 8) : Nat) = 1 from rfl)]

end Cert.KernelIdeal.Hand

end
-- ==== Proof.KI.HostScatter.lean ====
/-
  The scatter stretch of the idealized kernel's @main, read at an entry, from ANY contents W of the buffers before the stretch:
  the 128-wide rows are summed into their destination rows from zero, and the two 64-column halves are cut out.
-/
import proofs.«415303_j23759759082192_3_alg».proof.Proof.Gen.KernelIdeal.Launch
import proofs.«415303_j23759759082192_3_alg».proof.Proof.Spec2
import proofs.«415303_j23759759082192_3_alg».proof.Proof.LibIndex
import proofs.«415303_j23759759082192_3_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.ShloMosaic.StableHlo

variable (W : Valuation τ sig (Elt Ideal))

/-- The printed dimension numbers of the stretch's scatter are those of a row scatter. -/
theorem scatter2_eq : scatter_S80000x128_S1280000x1_S1280000x128_1_0_0_1
    = rowScatterDims 80000 1280000 128 scatter_S80000x128_S1280000x1_S1280000x128_1_0_0_1_wf := rfl

/-- On the extended reals the host's accumulating scatter is the exact sum, whatever the record. -/
theorem hostScatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The zero word spread over the operand reads the zero literal at every entry. -/
theorem zeros2_apply (n : Fin 80000) (q : Fin 128) :
    broadcastInDim S80000x128 ![] bcast_S_S80000x128 (constant (F := Ideal) S_ .f32 0x00000000#32) (ix2 n q) = zeroL :=
  (broadcastInDim_apply _ bcast_S_S80000x128 (constant (F := Ideal) S_ .f32 0x00000000#32) (ix2 n q) ix0
    (fun a => a.elim0)).trans (by unfold zeroL; rfl)

/-- The destination vector made a column reads, at `(e, 0)`, the vector at `e`. -/
theorem col2_apply (dst : TI) (e : Fin 1280000) :
    broadcastInDim S1280000x1 ![0] bcast_S1280000_S1280000x1_0 dst (ix2 e 0) = dst (ix1 e) :=
  broadcastInDim_apply _ bcast_S1280000_S1280000x1_0 dst (ix2 e 0) (ix1 e) (fun a => match a with
    | ⟨0, _⟩ => by show e.val = if (1280000 : Nat) = 1 then 0 else e.val; rw [if_neg (by decide)])

/-- The stretch's summed array at an entry: zero plus column `q` of the update rows whose destination word is `n`. -/
theorem scat2_apply (dst : TI) (upd : (⟨2, ![1280000, 128]⟩ : Shape).Idx → EReal) (n : Fin 80000) (q : Fin 128) :
    Host.scatterAdd (F := Ideal) (φ := .f32) scatter_S80000x128_S1280000x1_S1280000x128_1_0_0_1
        (broadcastInDim S80000x128 ![] bcast_S_S80000x128 (constant (F := Ideal) S_ .f32 0x00000000#32))
        (broadcastInDim S1280000x1 ![0] bcast_S1280000_S1280000x1_0 dst) upd (ix2 n q)
      = arrSum dst (fun e => upd (ix2 e q)) n := by
  rw [scatter2_eq, hostScatterAdd_ideal]
  refine (scatterAddRows_apply scatter_S80000x128_S1280000x1_S1280000x128_1_0_0_1_wf _ _ upd n q).trans ?_
  unfold arrSum arriving
  exact congrArg₂ (· + ·) (zeros2_apply n q)
    (Finset.sum_congr (Finset.filter_congr fun e _ => by rw [col2_apply dst e]) fun _ _ => rfl)

/-- The left half of a 128-wide array, read at an entry. -/
theorem sliceLo_apply (x : (⟨2, ![80000, 128]⟩ : Shape).Idx → EReal) (n : Fin 80000) (j : Fin 64) :
    extractStridedSlice S80000x64 ![0, 0] x slices_S80000x128_S80000x64_0_0 (ix2 n j) = x (ix2 n (Fin.castAdd 64 j)) := by
  refine extractStridedSlice_apply (s := S80000x128) (t := S80000x64) ![0, 0] x slices_S80000x128_S80000x64_0_0
    (ix2 n j) (ix2 n (Fin.castAdd 64 j)) ?_
  intro a
  match a with
  | ⟨0, _⟩ => exact (Nat.zero_add n.val).symm
  | ⟨1, _⟩ => exact (Nat.zero_add j.val).symm

/-- The right half of a 128-wide array, read at an entry. -/
theorem sliceHi_apply (x : (⟨2, ![80000, 128]⟩ : Shape).Idx → EReal) (n : Fin 80000) (j : Fin 64) :
    extractStridedSlice S80000x64 ![0, 64] x slices_S80000x128_S80000x64_0_64 (ix2 n j) = x (ix2 n (Fin.natAdd 64 j)) := by
  refine extractStridedSlice_apply (s := S80000x128) (t := S80000x64) ![0, 64] x slices_S80000x128_S80000x64_0_64
    (ix2 n j) (ix2 n (Fin.natAdd 64 j)) ?_
  intro a
  match a with
  | ⟨0, _⟩ => exact (Nat.zero_add n.val).symm
  | ⟨1, _⟩ => exact rfl

/-- Columns 0 to 63 of the summed array. -/
theorem ops2_v14 (n : Fin 80000) (j : Fin 64) :
    after (hostOps2 (F := Ideal)) W main_v14 (ix2 n j)
      = arrSum (W main_arg3) (fun e => W main_v10_0 (ix2 e (Fin.castAdd 64 j))) n := by
  have e : after (hostOps2 (F := Ideal)) W main_v14
      = extractStridedSlice S80000x64 ![0, 0]
          (Host.scatterAdd (F := Ideal) (φ := .f32) scatter_S80000x128_S1280000x1_S1280000x128_1_0_0_1
            (broadcastInDim S80000x128 ![] bcast_S_S80000x128 (constant (F := Ideal) S_ .f32 0x00000000#32))
            (broadcastInDim S1280000x1 ![0] bcast_S1280000_S1280000x1_0 (W main_arg3)) (W main_v10_0))
          slices_S80000x128_S80000x64_0_0 := by
    simp only [hostOps2]; after_results
  rw [e, sliceLo_apply]
  exact scat2_apply (W main_arg3) (W main_v10_0) n (Fin.castAdd 64 j)

/-- Columns 64 to 127 of the summed array. -/
theorem ops2_v15 (n : Fin 80000) (j : Fin 64) :
    after (hostOps2 (F := Ideal)) W main_v15 (ix2 n j)
      = arrSum (W main_arg3) (fun e => W main_v10_0 (ix2 e (Fin.natAdd 64 j))) n := by
  have e : after (hostOps2 (F := Ideal)) W main_v15
      = extractStridedSlice S80000x64 ![0, 64]
          (Host.scatterAdd (F := Ideal) (φ := .f32) scatter_S80000x128_S1280000x1_S1280000x128_1_0_0_1
            (broadcastInDim S80000x128 ![] bcast_S_S80000x128 (constant (F := Ideal) S_ .f32 0x00000000#32))
            (broadcastInDim S1280000x1 ![0] bcast_S1280000_S1280000x1_0 (W main_arg3)) (W main_v10_0))
          slices_S80000x128_S80000x64_0_64 := by
    simp only [hostOps2]; after_results
  rw [e, sliceHi_apply]
  exact scat2_apply (W main_arg3) (W main_v10_0) n (Fin.natAdd 64 j)

end Cert.KernelIdeal.Hand

end
-- ==== Proof.KI.Chain3.lean ====
/-
  The node combine as the kernel computes it is the layer's: summing the 128-wide rows into their destination rows sums the gated
  messages in the lower half and the gates in the upper half, so region 2 stores the A row plus the quotient, and the tiles'
  column sums of that value and of its square.
-/
import proofs.«415303_j23759759082192_3_alg».proof.Proof.KI.Chain2
import proofs.«415303_j23759759082192_3_alg».proof.Proof.KI.Value2
import proofs.«415303_j23759759082192_3_alg».proof.Proof.KI.HostScatter

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The destination indices are never written: at region 1's exit they are the launch's. -/
theorem dst_Chain3 (c : Dev nD) : W7 m ρ c main_arg3 = (inputs m c).dst :=
  (W7_keep m ρ c main_arg3 (by decide)).trans <| (W6_keep m ρ c main_arg3 (by decide)).trans <| (W5_keep m ρ c main_arg3 (by decide)).trans <|
    (W4_keep m ρ c main_arg3 (by decide)).trans <| (W3_keep m ρ c main_arg3 (by decide)).trans <| (W2_keep m ρ c main_arg3 (by decide)).trans <|
      (W1_keep m ρ c main_arg3 (by decide))

/-- A sum over the arriving edges depends only on the destinations and on the summand edge by edge. -/
theorem arrSum_congr_Chain3 {d d' : TI} {u u' : Fin 1280000 → EReal} (hd : d = d') (hu : ∀ e, u e = u' e) (n : Fin 80000) :
    arrSum d u n = arrSum d' u' n := by
  subst hd
  rw [show u = u' from funext hu]

/-- The A rows, cut out of the fused projection after region 0, are untouched until region 2 reads them. -/
theorem a_row_Chain3 (c : Dev nD) (n : Fin 80000) (j : Fin 64) :
    V8 m ρ c main_v4 (ix2 n j) = lin (inputs m c).x (inputs m c).WA (inputs m c).bA n j := by
  have h : W8 m ρ c main_v4 = W3 m ρ c main_v4 :=
    (W8_keep m ρ c main_v4 (by decide)).trans <| (W7_keep m ρ c main_v4 (by decide)).trans <| (W6_keep m ρ c main_v4 (by decide)).trans <|
      (W5_keep m ρ c main_v4 (by decide)).trans (W4_keep m ρ c main_v4 (by decide))
  refine (congrFun h (ix2 n j)).trans ?_
  refine (ops1_v4 (W2 m ρ c) n j).trans ?_
  exact proj_A m ρ c n j

/-- The combine of three arrays at an entry, from the three entries. -/
theorem combOf_eq_Chain3 (ax nm dn : TN) (n : Fin 80000) (j : Fin 64) (a b d : EReal)
    (ha : ax (ix2 n j) = a) (hb : nm (ix2 n j) = b) (hd : dn (ix2 n j) = d) : combOf ax nm dn n j = a + Ideal.div b (d + eps6) := by
  unfold combOf
  rw [ha, hb, hd]

theorem num_K (c : Dev nD) (hI : (inputs m c).Ok) (n : Fin 80000) (j : Fin 64) :
    V8 m ρ c main_v14 (ix2 n j) = num (inputs m c) n j :=
  (ops2_v14 (W7 m ρ c) n j).trans ((arrSum_congr_Chain3 (dst_Chain3 m ρ c) (fun e => out_lo m ρ c hI e j) n).trans rfl)
theorem den_K (c : Dev nD) (hI : (inputs m c).Ok) (n : Fin 80000) (j : Fin 64) :
    V8 m ρ c main_v15 (ix2 n j) = arrSum (inputs m c).dst (fun e => gate (inputs m c) e j) n :=
  (ops2_v15 (W7 m ρ c) n j).trans (arrSum_congr_Chain3 (dst_Chain3 m ρ c) (fun e => out_hi m ρ c hI e j) n)
theorem comb_K (c : Dev nD) (hI : (inputs m c).Ok) (n : Fin 80000) (j : Fin 64) :
    c2 (V8 m ρ) c n j = comb (inputs m c) n j :=
  (combOf_eq_Chain3 _ _ _ n j _ _ _ (a_row_Chain3 m ρ c n j) (num_K m ρ c hI n j) (den_K m ρ c hI n j)).trans rfl
theorem xpre_K (c : Dev nD) (hI : (inputs m c).Ok) (n : Fin 80000) (j : Fin 64) :
    V9 m ρ c main_v16_0 (ix2 n j) = comb (inputs m c) n j :=
  (congrFun (W9_arr m ρ c 3) (ix2 n j)).trans ((final2_3 (V8 m ρ) c n j).trans (comb_K m ρ c hI n j))
theorem stats_x_sum (c : Dev nD) (hI : (inputs m c).Ok) (t : Fin 10) (j : Fin 64) :
    V9 m ρ c main_v16_1 (ix2 ⟨8 * t.val, by omega⟩ j) = ∑ r : Fin 8000, comb (inputs m c) ⟨8000 * t.val + r.val, by omega⟩ j := by
  refine (congrFun (W9_arr m ρ c 4) _).trans ((final2_4_sum (V8 m ρ) c t j).trans ?_)
  show (∑ r : Fin 8000, c2 (V8 m ρ) c ⟨8000 * t.val + r.val, by omega⟩ j : EReal) = ∑ r : Fin 8000, comb (inputs m c) ⟨8000 * t.val + r.val, by omega⟩ j
  exact Finset.sum_congr rfl fun r _ => comb_K m ρ c hI _ j
theorem stats_x_sq (c : Dev nD) (hI : (inputs m c).Ok) (t : Fin 10) (j : Fin 64) :
    V9 m ρ c main_v16_1 (ix2 ⟨8 * t.val + 1, by omega⟩ j)
      = ∑ r : Fin 8000, comb (inputs m c) ⟨8000 * t.val + r.val, by omega⟩ j * comb (inputs m c) ⟨8000 * t.val + r.val, by omega⟩ j := by
  refine (congrFun (W9_arr m ρ c 4) _).trans ((final2_4_sq (V8 m ρ) c t j).trans ?_)
  show (∑ r : Fin 8000, c2 (V8 m ρ) c ⟨8000 * t.val + r.val, by omega⟩ j * c2 (V8 m ρ) c ⟨8000 * t.val + r.val, by omega⟩ j : EReal)
    = ∑ r : Fin 8000, comb (inputs m c) ⟨8000 * t.val + r.val, by omega⟩ j * comb (inputs m c) ⟨8000 * t.val + r.val, by omega⟩ j
  exact Finset.sum_congr rfl fun r _ => by rw [comb_K m ρ c hI _ j]

end Cert.KernelIdeal.Hand

end
-- ==== Proof.KI.Value3.lean ====
/-
  Region 3's output array after its ten points, at the extended reals: the residual plus the normalised value cut at zero.
-/
import proofs.«415303_j23759759082192_3_alg».proof.Proof.KI.Region3
import proofs.«415303_j23759759082192_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- A 1 × 64 row spread over the 8000 rows, at an entry: the row at the entry's lane. -/
theorem bcast_row3 (v : FVec Ideal S1x64 .f32) (j : S8000x64.Idx) :
    broadcastTo S8000x64 v broadcasts_S1x64_S8000x64 j = v (ix2 0 (j 1)) :=
  broadcastTo_apply v _ j (ix2 0 (j 1)) (fun a => by match a with | ⟨0, _⟩ => rfl | ⟨1, _⟩ => rfl)

theorem rsqrt_apply3 (v : FVec Ideal S1x64 .f32) (i : S1x64.Idx) : rsqrt v i = Ideal.rsqrt (v i) := rfl

/-- The body's payload at an entry: the residual plus the normalised value cut at zero. -/
theorem pay3_apply (x0 x1 : Vec Ideal S8000x64 .f32) (x2 x3 x4 x5 : Vec Ideal S1x64 .f32) (j : S8000x64.Idx) :
    k3_pay1 x0 x2 x3 x4 x5 x1 j
      = resid (x1 j) (x0 j) (x2 (ix2 0 (j 1))) (x3 (ix2 0 (j 1))) (x4 (ix2 0 (j 1))) (x5 (ix2 0 (j 1))) := by
  unfold k3_pay1
  simp only [shapeCast_self]
  simp only [addf_apply, subf_apply, mulf_apply, maximumf_apply, broadcast_apply, bcast_row3, rsqrt_apply3]
  rfl

/-- The output array as one function of the region's input arrays, entry by entry. -/
def G3 (a0 a1 : S80000x64.Idx → EReal) (a2 a3 a4 a5 : S1x64.Idx → EReal) : S80000x64.Idx → EReal := fun i =>
  resid (a1 i) (a0 i) (a2 (ix2 0 (i 1))) (a3 (ix2 0 (i 1))) (a4 (ix2 0 (i 1))) (a5 (ix2 0 (i 1)))

/-- The printed index maps, decided over the grid: the two 8000 × 64 inputs move with the output's block, the four rows
    stay at block (0, 0), and the output's block at point `t` is (t, 0). -/
theorem idx_facts3 : ∀ t : Fin cfg3.N,
    win3_0.index t (0 : Fin 2) = win3_6.index t (0 : Fin 2) ∧ win3_0.index t (1 : Fin 2) = win3_6.index t (1 : Fin 2)
    ∧ win3_1.index t (0 : Fin 2) = win3_6.index t (0 : Fin 2) ∧ win3_1.index t (1 : Fin 2) = win3_6.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- `resid` respects equality of each argument. -/
theorem resid_congr3 {r r' v v' m m' a a' g g' b b' : EReal} (hr : r = r') (hv : v = v') (hm : m = m') (ha : a = a')
    (hg : g = g') (hb : b = b') : resid r v m a g b = resid r' v' m' a' g' b' := by
  subst hr hv hm ha hg hb; rfl

/-- Each input block read at an entry of the output's block is its array read at the entry's place in the array: the two
    8000 × 64 inputs sit at the output's own rows, the four rows at lane `j 1` of row 0. -/
theorem blk3_0 (c : Dev nD) (t : Fin cfg3.N) (j : S8000x64.Idx) :
    iblk3 V c 0 t j = V c main_v16_0 (((cfg3.win 6).blk t).view.emb j) := by
  obtain ⟨e00, e01, e10, e11, -, -, -, -, -, -, -, -, -, -⟩ := idx_facts3 t
  show V c main_v16_0 (((cfg3.win 0).blk t).view.emb j) = _
  refine congrArg _ (funext fun a => Fin.ext ?_)
  match a with
  | ⟨0, _⟩ => show win3_0.index t (0 : Fin 2) * 8000 + 1 * (j 0).val = win3_6.index t (0 : Fin 2) * 8000 + 1 * (j 0).val; omega
  | ⟨1, _⟩ => show win3_0.index t (1 : Fin 2) * 64 + 1 * (j 1).val = win3_6.index t (1 : Fin 2) * 64 + 1 * (j 1).val; omega
theorem blk3_1 (c : Dev nD) (t : Fin cfg3.N) (j : S8000x64.Idx) :
    iblk3 V c 1 t j = V c main_arg0 (((cfg3.win 6).blk t).view.emb j) := by
  obtain ⟨e00, e01, e10, e11, -, -, -, -, -, -, -, -, -, -⟩ := idx_facts3 t
  show V c main_arg0 (((cfg3.win 1).blk t).view.emb j) = _
  refine congrArg _ (funext fun a => Fin.ext ?_)
  match a with
  | ⟨0, _⟩ => show win3_1.index t (0 : Fin 2) * 8000 + 1 * (j 0).val = win3_6.index t (0 : Fin 2) * 8000 + 1 * (j 0).val; omega
  | ⟨1, _⟩ => show win3_1.index t (1 : Fin 2) * 64 + 1 * (j 1).val = win3_6.index t (1 : Fin 2) * 64 + 1 * (j 1).val; omega
theorem blk3_2 (c : Dev nD) (t : Fin cfg3.N) (j : S8000x64.Idx) :
    iblk3 V c 2 t (ix2 (0 : Fin 1) (j 1)) = V c main_v43 (ix2 (0 : Fin 1) ((((cfg3.win 6).blk t).view.emb j) 1)) := by
  obtain ⟨-, -, -, -, e20, e21, e30, e31, e40, e41, e50, e51, -, e61⟩ := idx_facts3 t
  show V c main_v43 (((cfg3.win 2).blk t).view.emb (ix2 (0 : Fin 1) (j 1) : S1x64.Idx)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * (j 1).val = win3_6.index t (1 : Fin 2) * 64 + 1 * (j 1).val; omega
theorem blk3_3 (c : Dev nD) (t : Fin cfg3.N) (j : S8000x64.Idx) :
    iblk3 V c 3 t (ix2 (0 : Fin 1) (j 1)) = V c main_v44 (ix2 (0 : Fin 1) ((((cfg3.win 6).blk t).view.emb j) 1)) := by
  obtain ⟨-, -, -, -, e20, e21, e30, e31, e40, e41, e50, e51, -, e61⟩ := idx_facts3 t
  show V c main_v44 (((cfg3.win 3).blk t).view.emb (ix2 (0 : Fin 1) (j 1) : S1x64.Idx)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * (j 1).val = win3_6.index t (1 : Fin 2) * 64 + 1 * (j 1).val; omega
theorem blk3_4 (c : Dev nD) (t : Fin cfg3.N) (j : S8000x64.Idx) :
    iblk3 V c 4 t (ix2 (0 : Fin 1) (j 1)) = V c main_v45 (ix2 (0 : Fin 1) ((((cfg3.win 6).blk t).view.emb j) 1)) := by
  obtain ⟨-, -, -, -, e20, e21, e30, e31, e40, e41, e50, e51, -, e61⟩ := idx_facts3 t
  show V c main_v45 (((cfg3.win 4).blk t).view.emb (ix2 (0 : Fin 1) (j 1) : S1x64.Idx)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * (j 1).val = win3_6.index t (1 : Fin 2) * 64 + 1 * (j 1).val; omega
theorem blk3_5 (c : Dev nD) (t : Fin cfg3.N) (j : S8000x64.Idx) :
    iblk3 V c 5 t (ix2 (0 : Fin 1) (j 1)) = V c main_v46 (ix2 (0 : Fin 1) ((((cfg3.win 6).blk t).view.emb j) 1)) := by
  obtain ⟨-, -, -, -, e20, e21, e30, e31, e40, e41, e50, e51, -, e61⟩ := idx_facts3 t
  show V c main_v46 (((cfg3.win 5).blk t).view.emb (ix2 (0 : Fin 1) (j 1) : S1x64.Idx)) = _
  refine congrArg _ (funext fun a => Fin.ext ?_)
  match a with
  | ⟨0, _⟩ => show win3_5.index t (0 : Fin 2) * 1 + 1 * 0 = 0; omega
  | ⟨1, _⟩ => show win3_5.index t (1 : Fin 2) * 64 + 1 * (j 1).val = win3_6.index t (1 : Fin 2) * 64 + 1 * (j 1).val; omega

/-- WHAT POINT `t` WRITES BACK is block `t` of `G3` of the input arrays as the region finds them: the payload at an
    entry is `resid` of the loaded blocks there, and each block is its array read where the output's block sits. -/
theorem flushed3_eq (c : Dev nD) (t : Fin cfg3.N) :
    (dat3 (F := Ideal) V c).flushed 6 t = ((cfg3.win 6).blk t).view.read (Elt Ideal) (G3 (V c main_v16_0) (V c main_arg0) (V c main_v43) (V c main_v44) (V c main_v45) (V c main_v46)) := by
  show (cfg3.win 6).cut (grid3.coords t) ((dat3 V c).after 6 t) = _
  rw [after3_6]
  unfold out3_6
  rw [View.canon_unit_zero hz3]
  simp only [View.ld_unit_zero (S := S8000x64) hz3, View.ld_unit_zero (S := S1x64) hz3]
  funext j
  refine (pay3_apply _ _ _ _ _ _ _).trans ?_
  exact resid_congr3 (blk3_1 V c t _) (blk3_0 V c t _) (blk3_2 V c t _) (blk3_3 V c t _) (blk3_4 V c t _) (blk3_5 V c t _)
/-- An entry of the array is in point `t`'s block iff each coordinate is in the block's range on its axis. -/
theorem mem_blk3 (t : Fin cfg3.N) (i : S80000x64.Idx) :
    i ∈ ((cfg3.win 6).blk t).view.set ↔ ∀ a : Fin 2, win3_6.index t a * S8000x64.size a ≤ (i a).val ∧ (i a).val < win3_6.index t a * S8000x64.size a + S8000x64.size a := by
  show i ∈ ((View.whole main_v47).slice (win3_6.rect t)).set ↔ _
  rw [View.set_slice_whole, Rect.mem_set_unit]
  exact Iff.rfl

/-- Every entry is in some point's block: row `r` in the block of point `r / 8000`. -/
theorem cover3 (i : S80000x64.Idx) : ∃ t : Fin cfg3.N, (cfg3.win 6).flush t = true ∧ i ∈ ((cfg3.win 6).blk t).view.set := by
  have hi0 : (i 0).val < 80000 := (i 0).isLt
  have hi1 : (i 1).val < 64 := (i 1).isLt
  obtain ⟨t, ht⟩ : ∃ t : Fin cfg3.N, t.val = (i 0).val / 8000 := ⟨⟨(i 0).val / 8000, by show _ < grid3.N; rw [N_3]; omega⟩, rfl⟩
  obtain ⟨-, -, -, -, -, -, -, -, -, -, -, -, e60, e61⟩ := idx_facts3 t
  refine ⟨t, flush3_6 t, ?_⟩
  rw [mem_blk3]
  intro a
  match a with
  | ⟨0, _⟩ => show win3_6.index t (0 : Fin 2) * 8000 ≤ (i 0).val ∧ (i 0).val < win3_6.index t (0 : Fin 2) * 8000 + 8000; omega
  | ⟨1, _⟩ => show win3_6.index t (1 : Fin 2) * 64 ≤ (i 1).val ∧ (i 1).val < win3_6.index t (1 : Fin 2) * 64 + 64; omega

/-- THE ARRAY after the ten points: `G3` of the input arrays. -/
theorem final3 (c : Dev nD) : (dat3 (F := Ideal) V c).arrAt 6 cfg3.N = G3 (V c main_v16_0) (V c main_arg0) (V c main_v43) (V c main_v44) (V c main_v45) (V c main_v46) :=
  (dat3 (F := Ideal) V c).arrAt_eq_of_cover 6 _ (fun t _ => flushed3_eq V c t) cover3

theorem final3_6 (c : Dev nD) (n : Fin 80000) (j : Fin 64) :
    (dat3 (F := Ideal) V c).arrAt 6 cfg3.N (ix2 n j)
      = resid (V c main_arg0 (ix2 n j)) (V c main_v16_0 (ix2 n j)) (V c main_v43 (ix2 0 j)) (V c main_v44 (ix2 0 j))
          (V c main_v45 (ix2 0 j)) (V c main_v46 (ix2 0 j)) := by
  rw [final3]
  rfl

end Cert.KernelIdeal.Hand

end
-- ==== Proof.KI.Value4.lean ====
/-
  Region 4's output array after its 160 points, at the extended reals: the residual plus the normalised gate (the upper half of the
  128-wide array) cut at zero.
-/
import proofs.«415303_j23759759082192_3_alg».proof.Proof.KI.Region4
import proofs.«415303_j23759759082192_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The region's output as one function of its input arrays, entry by entry. -/
def G4 (a0 : S1280000x128.Idx → EReal) (a1 : S1280000x64.Idx → EReal) (a2 a3 a4 a5 : S1x64.Idx → EReal) : S1280000x64.Idx → EReal :=
  fun i => resid (a1 i) (a0 (ix2 (i 0) (Fin.natAdd 64 (i 1)))) (a2 (ix2 0 (i 1))) (a3 (ix2 0 (i 1))) (a4 (ix2 0 (i 1))) (a5 (ix2 0 (i 1)))

/-- A 1 × 64 row spread over 8000 rows, at an entry: the row's entry in that column. -/
theorem spread_row4_apply {α : Type} (x : S1x64.Idx → α) (p : Fin 8000) (q : Fin 64) :
    broadcastTo S8000x64 x broadcasts_S1x64_S8000x64 (ix2 p q) = x (ix2 0 q) :=
  broadcastTo_apply x _ (ix2 p q) (ix2 0 q) (fun a => by match a with | ⟨0, _⟩ => rfl | ⟨1, _⟩ => rfl)

/-- The reciprocal square root is entry by entry. -/
theorem rsqrt4_at {s : Shape} {φ : FTy} (a : FVec Ideal s φ) (i : s.Idx) : rsqrt a i = Ideal.rsqrt (a i) := rfl

/-- The body's payload at an entry: the residual plus the normalised gate cut at zero. -/
theorem pay4_apply (v0 : Vec Ideal S8000x64 .f32) (v2 v4 v6 v8 : Vec Ideal S1x64 .f32) (v21 : Vec Ideal S8000x64 .f32) (p : Fin 8000) (q : Fin 64) :
    k4_pay1 v0 v2 v4 v6 v8 v21 (ix2 p q) = resid (v21 (ix2 p q)) (v0 (ix2 p q)) (v2 (ix2 0 q)) (v4 (ix2 0 q)) (v6 (ix2 0 q)) (v8 (ix2 0 q)) := by
  unfold k4_pay1 resid Cert.Gcn.norm
  simp only [shapeCast_self]
  simp only [addf_apply, maximumf_apply, mulf_apply, subf_apply, broadcast_apply, spread_row4_apply, rsqrt4_at]
  rfl

/-- The payload at any entry of the block. -/
theorem pay4_at (v0 : Vec Ideal S8000x64 .f32) (v2 v4 v6 v8 : Vec Ideal S1x64 .f32) (v21 : Vec Ideal S8000x64 .f32) (y : S8000x64.Idx) :
    k4_pay1 v0 v2 v4 v6 v8 v21 y = resid (v21 y) (v0 y) (v2 (ix2 0 (y 1))) (v4 (ix2 0 (y 1))) (v6 (ix2 0 (y 1))) (v8 (ix2 0 (y 1))) := by
  obtain ⟨p, q, rfl⟩ : ∃ (p : Fin 8000) (q : Fin 64), y = ix2 p q := ⟨y 0, y 1, eq_ix2 y⟩
  exact pay4_apply v0 v2 v4 v6 v8 v21 p q

theorem resid4_congr {r v mu va g b r' v' mu' va' g' b' : EReal} (h0 : r = r') (h1 : v = v') (h2 : mu = mu') (h3 : va = va')
    (h4 : g = g') (h5 : b = b') : resid r v mu va g b = resid r' v' mu' va' g' b' := by
  subst h0 h1 h2 h3 h4 h5; rfl

/-- The printed index maps over the grid: the three row-blocked windows are at block row `t`, the four rows at block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 2000000 in
/-- What point `t` writes back is block `t` of `G4` of the arrays as the region finds them. -/
theorem flushed4_6_eq (c : Dev nD) (t : Fin cfg4.N) :
    (dat4 (F := Ideal) V c).flushed 6 t = ((cfg4.win 6).blk t).view.read (Elt Ideal)
      (G4 (V c main_v10_0) (V c main_arg1) (V c main_v48) (V c main_v49) (V c main_v50) (V c main_v51)) := by
  show (cfg4.win 6).cut (grid4.coords t) ((dat4 V c).after 6 t) = _
  rw [after4_6]
  unfold out4_6
  rw [View.canon_unit_zero hz4]
  simp only [View.ld_unit_zero (S := S8000x64) hz4, View.ld_unit_zero (S := S1x64) hz4]
  obtain ⟨e00, e01, e10, e11, e20, e21, e30, e31, e40, e41, e50, e51, e60, e61⟩ := idx_facts4 t
  funext j
  refine (pay4_at _ _ _ _ _ _ j).trans ?_
  refine resid4_congr ?_ ?_ ?_ ?_ ?_ ?_
  · show V c main_arg1 (((cfg4.win 1).blk t).view.emb j) = V c main_arg1 _
    refine congrArg _ (funext fun a => Fin.ext ?_)
    match a with
    | ⟨0, _⟩ => show win4_1.index t (0 : Fin 2) * 8000 + 1 * (j 0).val = win4_6.index t (0 : Fin 2) * 8000 + 1 * (j 0).val; omega
    | ⟨1, _⟩ => show win4_1.index t (1 : Fin 2) * 64 + 1 * (j 1).val = win4_6.index t (1 : Fin 2) * 64 + 1 * (j 1).val; omega
  · show V c main_v10_0 (((cfg4.win 0).blk t).view.emb (r4_hi.emb j)) = V c main_v10_0 _
    refine congrArg _ (funext fun a => Fin.ext ?_)
    match a with
    | ⟨0, _⟩ => show win4_0.index t (0 : Fin 2) * 8000 + 1 * (0 + 1 * (j 0).val) = win4_6.index t (0 : Fin 2) * 8000 + 1 * (j 0).val; omega
    | ⟨1, _⟩ => show win4_0.index t (1 : Fin 2) * 128 + 1 * (64 + 1 * (j 1).val) = 64 + (win4_6.index t (1 : Fin 2) * 64 + 1 * (j 1).val); omega
  · show V c main_v48 (((cfg4.win 2).blk t).view.emb (ix2 0 (j 1))) = V c main_v48 _
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * (j 1).val = win4_6.index t (1 : Fin 2) * 64 + 1 * (j 1).val; omega
  · show V c main_v49 (((cfg4.win 3).blk t).view.emb (ix2 0 (j 1))) = V c main_v49 _
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * (j 1).val = win4_6.index t (1 : Fin 2) * 64 + 1 * (j 1).val; omega
  · show V c main_v50 (((cfg4.win 4).blk t).view.emb (ix2 0 (j 1))) = V c main_v50 _
    refine congrArg _ (funext fun a => Fin.ext ?_)
    match a with
    | ⟨0, _⟩ => show win4_4.index t (0 : Fin 2) * 1 + 1 * 0 = 0; omega
    | ⟨1, _⟩ => show win4_4.index t (1 : Fin 2) * 64 + 1 * (j 1).val = win4_6.index t (1 : Fin 2) * 64 + 1 * (j 1).val; omega
  · show V c main_v51 (((cfg4.win 5).blk t).view.emb (ix2 0 (j 1))) = V c main_v51 _
    refine congrArg _ (funext fun a => Fin.ext ?_)
    match a with
    | ⟨0, _⟩ => show win4_5.index t (0 : Fin 2) * 1 + 1 * 0 = 0; omega
    | ⟨1, _⟩ => show win4_5.index t (1 : Fin 2) * 64 + 1 * (j 1).val = win4_6.index t (1 : Fin 2) * 64 + 1 * (j 1).val; omega

/-- An index of the array is in point `t`'s block iff each coordinate is in the block's range on its axis. -/
theorem mem_blk4_6 (t : Fin cfg4.N) (i : S1280000x64.Idx) :
    i ∈ ((cfg4.win 6).blk t).view.set ↔ ∀ a : Fin 2, win4_6.index t a * S8000x64.size a ≤ (i a).val ∧ (i a).val < win4_6.index t a * S8000x64.size a + S8000x64.size a := by
  show i ∈ ((View.whole main_v52).slice (win4_6.rect t)).set ↔ _
  rw [View.set_slice_whole, Rect.mem_set_unit]
  exact Iff.rfl

/-- Every entry of the array is in the block of the point its row falls in: row `r` is in block `r / 8000`. -/
theorem covered4_6 (i : S1280000x64.Idx) :
    ∃ t : Fin cfg4.N, (cfg4.win 6).flush t = true ∧ i ∈ ((cfg4.win 6).blk t).view.set := by
  have hN : cfg4.N = 160 := N_4
  have hi0 : (i 0).val < 1280000 := (i 0).isLt
  have hi1 : (i 1).val < 64 := (i 1).isLt
  have ht : (i 0).val / 8000 < cfg4.N := by rw [hN]; omega
  obtain ⟨-, -, -, -, -, -, -, -, -, -, -, -, e60, e61⟩ := idx_facts4 ⟨(i 0).val / 8000, ht⟩
  refine ⟨⟨(i 0).val / 8000, ht⟩, flush4_6 _, ?_⟩
  rw [mem_blk4_6]
  intro a
  match a with
  | ⟨0, _⟩ =>
    show win4_6.index ⟨(i 0).val / 8000, ht⟩ (0 : Fin 2) * 8000 ≤ (i 0).val ∧ (i 0).val < win4_6.index ⟨(i 0).val / 8000, ht⟩ (0 : Fin 2) * 8000 + 8000
    rw [e60]
    show (i 0).val / 8000 * 8000 ≤ (i 0).val ∧ (i 0).val < (i 0).val / 8000 * 8000 + 8000
    omega
  | ⟨1, _⟩ =>
    show win4_6.index ⟨(i 0).val / 8000, ht⟩ (1 : Fin 2) * 64 ≤ (i 1).val ∧ (i 1).val < win4_6.index ⟨(i 0).val / 8000, ht⟩ (1 : Fin 2) * 64 + 64
    rw [e61]
    omega

/-- The array after the last point is `G4` of the arrays the region is handed. -/
theorem final4_6_fun (c : Dev nD) :
    (dat4 (F := Ideal) V c).arrAt 6 cfg4.N
      = G4 (V c main_v10_0) (V c main_arg1) (V c main_v48) (V c main_v49) (V c main_v50) (V c main_v51) :=
  (dat4 (F := Ideal) V c).arrAt_eq_of_cover 6 _ (fun t _ => flushed4_6_eq V c t) covered4_6

theorem final4_6 (c : Dev nD) (r : Fin 1280000) (j : Fin 64) :
    (dat4 (F := Ideal) V c).arrAt 6 cfg4.N (ix2 r j)
      = resid (V c main_arg1 (ix2 r j)) (V c main_v10_0 (ix2 r (Fin.natAdd 64 j))) (V c main_v48 (ix2 0 j)) (V c main_v49 (ix2 0 j))
          (V c main_v50 (ix2 0 j)) (V c main_v51 (ix2 0 j)) := by
  exact congrFun (final4_6_fun V c) (ix2 r j)

end Cert.KernelIdeal.Hand

end
-- ==== Proof.KI.HostStats.lean ====
/-
  The statistics stretch of the idealized kernel's @main, read at an entry, from ANY contents W of the buffers before the stretch:
  rows 8t and 8t + 1 of each partial-sum array are summed over the tiles, divided by the row count, and the variance is the mean
  of the squares minus the squared mean; the node statistics, scale and shift are viewed as rows.
-/
import proofs.«415303_j23759759082192_3_alg».proof.Proof.Gen.KernelIdeal.Launch
import proofs.«415303_j23759759082192_3_alg».proof.Proof.Spec2
import proofs.«415303_j23759759082192_3_alg».proof.Proof.LibIndex
import proofs.«415303_j23759759082192_3_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.ShloMosaic.StableHlo

variable (W : Valuation τ sig (Elt Ideal))

/-- A scalar constant broadcast to a row of 64, read at an entry, is the number its word denotes. -/
theorem cstRow_apply (w : BitVec 32) (j : Fin 64) :
    broadcastInDim S64 ![] bcast_S_S64 (constant (F := Ideal) S_ .f32 w) (ix1 j) = Ideal.ofBits .f32 w :=
  (broadcastInDim_apply _ bcast_S_S64 _ (ix1 j) (fun a => a.elim0) (fun a => a.elim0)).trans rfl

/-- A row of 64 viewed as a [1, 64] array, read at (0, j), is the row at j. -/
theorem rowView_apply {α : Type} (Y : S64.Idx → α) (j : Fin 64) :
    shapeCast S1x64 Y shapeCasts_S64_S1x64 (ix2 (0 : Fin 1) j) = Y (ix1 j) :=
  shapeCast_apply _ _ _ (ix1 j) (by
    rw [Shape.rowMajor_val_one, Shape.rowMajor_val_two]
    show j.val = 0 * 64 + j.val
    omega)

/-- The column sum, from zero, of rows 8 t + r of a [2560, 64] array taken through its [320, 8, 64] view: the literal zero
    plus the sum over the 320 groups. -/
theorem edgeRowSum (X : (⟨S2560x64, .f32⟩ : BufTy).Contents (Elt Ideal)) (r : Nat) (hr : r < 8)
    (sl : S320x8x64.Slices ![0, r, 0] S320x1x64) (j : Fin 64) :
    Host.reduceAdd (F := Ideal) (shapeCast S320x64 (extractStridedSlice S320x1x64 ![0, r, 0] (shapeCast S320x8x64 X shapeCasts_S2560x64_S320x8x64) sl) shapeCasts_S320x1x64_S320x64)
      (constant S_ .f32 0x00000000#32) reducesTo_S320x64_S64_d0 h_S_ (ix1 j)
      = zeroL + ∑ t : Fin 320, X (ix2 ⟨8 * t.val + r, by omega⟩ j) := by
  simp only [Host.reduceAdd, Ideal.hostReduceAdd_def]
  rw [Ideal.hostReduceAdd_single reducesTo_S320x64_S64_d0 (by decide)]
  refine congrArg₂ (· + ·) rfl (Finset.sum_congr rfl fun t _ => ?_)
  have ht : t.val < 320 := t.isLt
  -- the [320, 64] view at (t, j) is the [320, 1, 64] slice at (t, 0, j)
  refine (shapeCast_apply _ _ _ (ix3 (⟨t.val, ht⟩ : Fin 320) (0 : Fin 1) j) (by
    rw [Shape.rowMajor_val_three, Shape.rowMajor_val_two]
    show (t.val * 1 + 0) * 64 + j.val = t.val * 64 + j.val
    omega)).trans ?_
  -- the slice at (t, 0, j) is the [320, 8, 64] view at (t, r, j)
  refine (extractStridedSlice_apply _ _ _ _ (ix3 (⟨t.val, ht⟩ : Fin 320) (⟨r, hr⟩ : Fin 8) j) (fun a => match a with
    | ⟨0, _⟩ => by show t.val = 0 + t.val; omega
    | ⟨1, _⟩ => by show r = r + 0; omega
    | ⟨2, _⟩ => by show j.val = 0 + j.val; omega)).trans ?_
  -- the [320, 8, 64] view at (t, r, j) is row 8 t + r of the [2560, 64] array
  exact shapeCast_apply _ _ _ (ix2 (⟨8 * t.val + r, by omega⟩ : Fin 2560) j) (by
    rw [Shape.rowMajor_val_two, Shape.rowMajor_val_three]
    show (8 * t.val + r) * 64 + j.val = (t.val * 8 + r) * 64 + j.val
    omega)

/-- The same for a [80, 64] array through its [10, 8, 64] view: ten groups. -/
theorem nodeRowSum (X : (⟨S80x64, .f32⟩ : BufTy).Contents (Elt Ideal)) (r : Nat) (hr : r < 8)
    (sl : S10x8x64.Slices ![0, r, 0] S10x1x64) (j : Fin 64) :
    Host.reduceAdd (F := Ideal) (shapeCast S10x64 (extractStridedSlice S10x1x64 ![0, r, 0] (shapeCast S10x8x64 X shapeCasts_S80x64_S10x8x64) sl) shapeCasts_S10x1x64_S10x64)
      (constant S_ .f32 0x00000000#32) reducesTo_S10x64_S64_d0 h_S_ (ix1 j)
      = zeroL + ∑ t : Fin 10, X (ix2 ⟨8 * t.val + r, by omega⟩ j) := by
  simp only [Host.reduceAdd, Ideal.hostReduceAdd_def]
  rw [Ideal.hostReduceAdd_single reducesTo_S10x64_S64_d0 (by decide)]
  refine congrArg₂ (· + ·) rfl (Finset.sum_congr rfl fun t _ => ?_)
  have ht : t.val < 10 := t.isLt
  refine (shapeCast_apply _ _ _ (ix3 (⟨t.val, ht⟩ : Fin 10) (0 : Fin 1) j) (by
    rw [Shape.rowMajor_val_three, Shape.rowMajor_val_two]
    show (t.val * 1 + 0) * 64 + j.val = t.val * 64 + j.val
    omega)).trans ?_
  refine (extractStridedSlice_apply _ _ _ _ (ix3 (⟨t.val, ht⟩ : Fin 10) (⟨r, hr⟩ : Fin 8) j) (fun a => match a with
    | ⟨0, _⟩ => by show t.val = 0 + t.val; omega
    | ⟨1, _⟩ => by show r = r + 0; omega
    | ⟨2, _⟩ => by show j.val = 0 + j.val; omega)).trans ?_
  exact shapeCast_apply _ _ _ (ix2 (⟨8 * t.val + r, by omega⟩ : Fin 80) j) (by
    rw [Shape.rowMajor_val_two, Shape.rowMajor_val_three]
    show (8 * t.val + r) * 64 + j.val = (t.val * 8 + r) * 64 + j.val
    omega)

/-- The mean of rows 8 t + r over the 320 groups: the column sum divided by the broadcast count. -/
theorem edgeMean (X : (⟨S2560x64, .f32⟩ : BufTy).Contents (Elt Ideal)) (r : Nat) (hr : r < 8)
    (sl : S320x8x64.Slices ![0, r, 0] S320x1x64) (w : BitVec 32) (j : Fin 64) :
    Host.divf (F := Ideal)
      (Host.reduceAdd (F := Ideal) (shapeCast S320x64 (extractStridedSlice S320x1x64 ![0, r, 0] (shapeCast S320x8x64 X shapeCasts_S2560x64_S320x8x64) sl) shapeCasts_S320x1x64_S320x64)
        (constant S_ .f32 0x00000000#32) reducesTo_S320x64_S64_d0 h_S_)
      (broadcastInDim S64 ![] bcast_S_S64 (constant (F := Ideal) S_ .f32 w)) (ix1 j)
      = tileMean (fun t : Fin 320 => X (ix2 ⟨8 * t.val + r, by omega⟩ j)) (Ideal.ofBits .f32 w) :=
  congrArg₂ Ideal.div (edgeRowSum X r hr sl j) (cstRow_apply w j)

theorem nodeMean (X : (⟨S80x64, .f32⟩ : BufTy).Contents (Elt Ideal)) (r : Nat) (hr : r < 8)
    (sl : S10x8x64.Slices ![0, r, 0] S10x1x64) (w : BitVec 32) (j : Fin 64) :
    Host.divf (F := Ideal)
      (Host.reduceAdd (F := Ideal) (shapeCast S10x64 (extractStridedSlice S10x1x64 ![0, r, 0] (shapeCast S10x8x64 X shapeCasts_S80x64_S10x8x64) sl) shapeCasts_S10x1x64_S10x64)
        (constant S_ .f32 0x00000000#32) reducesTo_S10x64_S64_d0 h_S_)
      (broadcastInDim S64 ![] bcast_S_S64 (constant (F := Ideal) S_ .f32 w)) (ix1 j)
      = tileMean (fun t : Fin 10 => X (ix2 ⟨8 * t.val + r, by omega⟩ j)) (Ideal.ofBits .f32 w) :=
  congrArg₂ Ideal.div (nodeRowSum X r hr sl j) (cstRow_apply w j)

set_option maxHeartbeats 1000000 in
theorem ops3_v25 (j : Fin 64) :
    after (hostOps3 (F := Ideal)) W main_v25 (ix1 j) = tileMean (fun t : Fin 320 => W main_v10_1 (ix2 ⟨8 * t.val, by omega⟩ j)) cntE := by
  simp only [hostOps3]
  after_results
  exact edgeMean (W main_v10_1) 0 (by omega) slices_S320x8x64_S320x1x64_0_0_0 0x499C4000#32 j
set_option maxHeartbeats 1000000 in
theorem ops3_v29 (j : Fin 64) :
    after (hostOps3 (F := Ideal)) W main_v29 (ix1 j)
      = tileVar (fun t : Fin 320 => W main_v10_1 (ix2 ⟨8 * t.val, by omega⟩ j)) (fun t : Fin 320 => W main_v10_1 (ix2 ⟨8 * t.val + 1, by omega⟩ j)) cntE := by
  simp only [hostOps3]
  after_results
  -- the mean of the squares minus the product of the mean with itself
  exact congrArg₂ (· - ·) (edgeMean (W main_v10_1) 1 (by omega) slices_S320x8x64_S320x1x64_0_1_0 0x499C4000#32 j)
    (congrArg₂ (· * ·) (edgeMean (W main_v10_1) 0 (by omega) slices_S320x8x64_S320x1x64_0_0_0 0x499C4000#32 j)
      (edgeMean (W main_v10_1) 0 (by omega) slices_S320x8x64_S320x1x64_0_0_0 0x499C4000#32 j))
set_option maxHeartbeats 1000000 in
theorem ops3_v43 (j : Fin 64) :
    after (hostOps3 (F := Ideal)) W main_v43 (ix2 0 j) = tileMean (fun t : Fin 10 => W main_v16_1 (ix2 ⟨8 * t.val, by omega⟩ j)) cntN := by
  simp only [hostOps3]
  after_results
  refine (rowView_apply _ j).trans ?_
  exact nodeMean (W main_v16_1) 0 (by omega) slices_S10x8x64_S10x1x64_0_0_0 0x479C4000#32 j
set_option maxHeartbeats 1000000 in
theorem ops3_v44 (j : Fin 64) :
    after (hostOps3 (F := Ideal)) W main_v44 (ix2 0 j)
      = tileVar (fun t : Fin 10 => W main_v16_1 (ix2 ⟨8 * t.val, by omega⟩ j)) (fun t : Fin 10 => W main_v16_1 (ix2 ⟨8 * t.val + 1, by omega⟩ j)) cntN := by
  simp only [hostOps3]
  after_results
  refine (rowView_apply _ j).trans ?_
  exact congrArg₂ (· - ·) (nodeMean (W main_v16_1) 1 (by omega) slices_S10x8x64_S10x1x64_0_1_0 0x479C4000#32 j)
    (congrArg₂ (· * ·) (nodeMean (W main_v16_1) 0 (by omega) slices_S10x8x64_S10x1x64_0_0_0 0x479C4000#32 j)
      (nodeMean (W main_v16_1) 0 (by omega) slices_S10x8x64_S10x1x64_0_0_0 0x479C4000#32 j))
set_option maxHeartbeats 1000000 in
theorem ops3_v45 (j : Fin 64) : after (hostOps3 (F := Ideal)) W main_v45 (ix2 0 j) = W main_arg14 (ix1 j) := by
  simp only [hostOps3]
  after_results
  exact rowView_apply (W main_arg14) j
set_option maxHeartbeats 1000000 in
theorem ops3_v46 (j : Fin 64) : after (hostOps3 (F := Ideal)) W main_v46 (ix2 0 j) = W main_arg15 (ix1 j) := by
  simp only [hostOps3]
  after_results
  exact rowView_apply (W main_arg15) j

end Cert.KernelIdeal.Hand

end
-- ==== Proof.MathA.lean ====
/-
  Sums over a tiling of the rows, the float literals as real numbers, and the two forms of the biased variance.

  A column sum over all rows is the sum over the tiles of the tiles' column sums. For real values v₁ … v_M with mean μ,
  the mean of the squares minus μ² equals the mean of the squared deviations: ∑ (vᵢ - μ)² = ∑ vᵢ² - M μ². On the extended
  reals this needs every vᵢ real.
-/
import proofs.«415303_j23759759082192_3_alg».proof.Proof.Spec
import Idealize.ShloMosaic.PureOps.Ideal
import Mathlib.Logic.Equiv.Fin.Basic
import Mathlib.Data.Fintype.BigOperators
import Mathlib.Algebra.BigOperators.Ring.Finset
import Mathlib.Data.EReal.Operations
import Mathlib.Tactic.Ring
import Mathlib.Tactic.FieldSimp
import Mathlib.Tactic.NormNum

noncomputable section

open scoped BigOperators

namespace Cert.Gcn

open Idealize.ShloMosaic Idealize.ShloMosaic.ValueIdx

/-- A sum over `T * R` rows is the sum over `T` tiles of the sums over the `R` rows of each tile: row `R t + r` is
    the image of the pair `(t, r)` under the bijection between pairs and rows. -/
theorem sum_tiles_aux {A : Type*} [AddCommMonoid A] (T R : Nat) (f : Fin (T * R) → A)
    (h : ∀ (t : Fin T) (r : Fin R), R * t.val + r.val < T * R) :
    ∑ t : Fin T, ∑ r : Fin R, f ⟨R * t.val + r.val, h t r⟩ = ∑ n : Fin (T * R), f n := by
  rw [← Fintype.sum_prod_type']
  refine Fintype.sum_equiv finProdFinEquiv _ _ ?_
  rintro ⟨t, r⟩
  congr 1
  ext
  simp only [finProdFinEquiv_apply_val]
  omega

theorem sum_tiles_N {A : Type*} [AddCommMonoid A] (f : Fin 80000 → A) :
    ∑ t : Fin 10, ∑ r : Fin 8000, f ⟨8000 * t.val + r.val, by omega⟩ = ∑ n : Fin 80000, f n :=
  sum_tiles_aux 10 8000 f (fun t r => by omega)
theorem sum_tiles_E {A : Type*} [AddCommMonoid A] (f : Fin 1280000 → A) :
    ∑ t : Fin 320, ∑ r : Fin 4000, f ⟨4000 * t.val + r.val, by omega⟩ = ∑ e : Fin 1280000, f e :=
  sum_tiles_aux 320 4000 f (fun t r => by omega)

theorem zeroL_eq : zeroL = 0 := by
  simp [zeroL, Ideal.ofBits, Ideal.ieee]
theorem oneL_eq : oneL = 1 := by
  simp [oneL, Ideal.ofBits, Ideal.ieee, -EReal.coe_mul]; norm_num
theorem cntN_eq : cntN = ((80000 : ℝ) : EReal) := by
  simp [cntN, Ideal.ofBits, Ideal.ieee, -EReal.coe_mul]; norm_num
theorem cntE_eq : cntE = ((1280000 : ℝ) : EReal) := by
  simp [cntE, Ideal.ofBits, Ideal.ieee, -EReal.coe_mul]; norm_num
theorem eps6_pos : ∃ r : ℝ, 0 < r ∧ eps6 = (r : EReal) := by
  refine ⟨8796093 / 2 ^ 43, by norm_num, ?_⟩
  simp [eps6, Ideal.ofBits, Ideal.ieee, -EReal.coe_mul]; norm_num

/-- The inclusion of the reals in the extended reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two forms of the biased variance agree on real values; `cnt` is the row count as a float. -/
theorem var_of_sq {M : Nat} (hM : 0 < M) (v : Fin M → Fin 64 → EReal) (hv : ∀ i j, ∃ r : ℝ, v i j = (r : EReal))
    (cnt : EReal) (hc : cnt = ((M : ℝ) : EReal)) (j : Fin 64) :
    Ideal.div (zeroL + ∑ i : Fin M, v i j * v i j) cnt - mean v cnt j * mean v cnt j = var v cnt j := by
  obtain ⟨r, hr⟩ : ∃ r : Fin M → ℝ, ∀ i, v i j = (r i : EReal) :=
    ⟨fun i => (hv i j).choose, fun i => (hv i j).choose_spec⟩
  have hM' : (M : ℝ) ≠ 0 := Nat.cast_ne_zero.mpr hM.ne'
  subst hc
  -- the column sum, the mean, the sum of squares and the sum of squared deviations are real
  have hS : (zeroL + ∑ i : Fin M, v i j) = ((∑ i, r i : ℝ) : EReal) := by
    rw [zeroL_eq, zero_add, coe_sum]; exact Finset.sum_congr rfl (fun i _ => hr i)
  have hmean : mean v ((M : ℝ) : EReal) j = (((∑ i, r i) * (1 / (M : ℝ)) : ℝ) : EReal) := by
    rw [mean, hS, Ideal.div_coe hM', ← EReal.coe_mul]
  have hQ : (zeroL + ∑ i : Fin M, v i j * v i j) = ((∑ i, r i * r i : ℝ) : EReal) := by
    rw [zeroL_eq, zero_add, coe_sum]
    exact Finset.sum_congr rfl (fun i _ => by rw [hr i, ← EReal.coe_mul])
  have hD : (zeroL + ∑ i : Fin M, (v i j - mean v ((M : ℝ) : EReal) j) * (v i j - mean v ((M : ℝ) : EReal) j))
      = ((∑ i, (r i - (∑ i, r i) * (1 / (M : ℝ))) * (r i - (∑ i, r i) * (1 / (M : ℝ))) : ℝ) : EReal) := by
    rw [zeroL_eq, zero_add, coe_sum]
    exact Finset.sum_congr rfl (fun i _ => by rw [hr i, hmean, ← EReal.coe_sub, ← EReal.coe_mul])
  rw [var, hD, hQ, hmean, Ideal.div_coe hM', Ideal.div_coe hM', ← EReal.coe_mul, ← EReal.coe_mul, ← EReal.coe_mul,
    ← EReal.coe_sub, EReal.coe_eq_coe_iff]
  -- in the reals: ∑ (rᵢ - μ)² = ∑ rᵢ² - 2 μ ∑ rᵢ + M μ², and M μ = ∑ rᵢ
  have hexp : ∀ μ : ℝ, ∑ i, (r i - μ) * (r i - μ) = ∑ i, r i * r i - 2 * μ * ∑ i, r i + (M : ℝ) * (μ * μ) := by
    intro μ
    have h1 : ∀ i, (r i - μ) * (r i - μ) = r i * r i - 2 * μ * r i + μ * μ := fun i => by ring
    simp only [h1, Finset.sum_add_distrib, Finset.sum_sub_distrib, ← Finset.mul_sum, Finset.sum_const,
      Finset.card_univ, Fintype.card_fin, nsmul_eq_mul]
    ring
  rw [hexp]
  field_simp
  ring

end Cert.Gcn

end
-- ==== Proof.MathB.lean ====
/-
  Every intermediate of the layer is a real number when the inputs are: an affine map of real rows is real; the logistic
  function takes every extended real to a real in [0, 1]; a sum of reals is real; the quotient of a real by a positive real is
  real. Hence the combined node value and the gate are real, and their two variance forms agree.
-/
import proofs.«415303_j23759759082192_3_alg».proof.Proof.Spec
import proofs.«415303_j23759759082192_3_alg».proof.Proof.MathA
import Idealize.ShloMosaic.PureOps.Ideal
import Mathlib.Data.EReal.Basic
import Mathlib.Data.Finset.Insert
import Mathlib.Algebra.BigOperators.Group.Finset.Basic

noncomputable section

open scoped BigOperators

namespace Cert.Gcn

open Idealize.ShloMosaic Idealize.ShloMosaic.ValueIdx

/-- The sum of two reals is real. -/
private theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is real. -/
private theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is real. -/
private theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative reals is a nonnegative real. -/
private theorem real_sum_nonneg {ι : Type*} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl 0, by simp⟩
  | insert a s ha ih =>
    rw [Finset.sum_insert ha]
    obtain ⟨x, hx0, hx⟩ := h a (Finset.mem_insert_self a s)
    obtain ⟨y, hy0, hy⟩ := ih fun i hi => h i (Finset.mem_insert_of_mem hi)
    exact ⟨x + y, add_nonneg hx0 hy0, by rw [hx, hy, EReal.coe_add]⟩

/-- The logistic function of any extended real is a nonnegative real: 0 at the bottom, 1 at the top, and the reciprocal of
    the positive number 1 + e⁻ʳ at a real r. -/
private theorem logistic_real (y : EReal) : ∃ r : ℝ, 0 ≤ r ∧ Ideal.logistic y = (r : EReal) := by
  induction y using EReal.rec with
  | bot => exact ⟨0, le_refl 0, by rw [Ideal.logistic_bot, EReal.coe_zero]⟩
  | coe r => exact ⟨(1 + Real.exp (-r))⁻¹, inv_nonneg.mpr (by positivity), Ideal.logistic_coe r⟩
  | top => exact ⟨1, zero_le_one, by rw [Ideal.logistic_top, EReal.coe_one]⟩

theorem lin_real {M : Nat} (x : (⟨2, ![M, 64]⟩ : Shape).Idx → EReal) (W : TW) (b : TB) (hx : IsReal x) (hW : IsReal W) (hb : IsReal b)
    (i : Fin M) (j : Fin 64) : ∃ r : ℝ, lin x W b i j = (r : EReal) := by
  unfold lin
  exact real_add (real_sum _ _ fun k _ => real_mul (hx _) (hW _)) (hb _)

theorem gate_real (I : Inputs) (e : Fin 1280000) (j : Fin 64) : ∃ r : ℝ, 0 ≤ r ∧ gate I e j = (r : EReal) := by
  unfold gate
  exact logistic_real _

theorem comb_real (I : Inputs) (hI : I.Ok) (n : Fin 80000) (j : Fin 64) : ∃ r : ℝ, comb I n j = (r : EReal) := by
  -- the A row, the numerator and the denominator are real, and the denominator is positive
  obtain ⟨a, ha⟩ := lin_real I.x I.WA I.bA hI.x hI.WA hI.bA n j
  obtain ⟨p, hp⟩ : ∃ r : ℝ, num I n j = (r : EReal) := by
    unfold num
    rw [zeroL_eq, zero_add]
    refine real_sum _ _ fun e _ => real_mul ?_ (lin_real I.x I.WB I.bB hI.x hI.WB hI.bB _ _)
    obtain ⟨r, _, hr⟩ := gate_real I e j
    exact ⟨r, hr⟩
  obtain ⟨q, hq0, hq⟩ : ∃ r : ℝ, 0 < r ∧ den I n j = (r : EReal) := by
    unfold den
    rw [zeroL_eq, zero_add]
    obtain ⟨s, hs0, hs⟩ := real_sum_nonneg (arriving I.dst n) (fun e => gate I e j) fun e _ => gate_real I e j
    obtain ⟨t, ht0, ht⟩ := eps6_pos
    exact ⟨s + t, add_pos_of_nonneg_of_pos hs0 ht0, by rw [hs, ht, EReal.coe_add]⟩
  -- a real over a nonzero real is the product with the reciprocal
  refine ⟨a + p * (1 / q), ?_⟩
  unfold comb
  rw [ha, hp, hq, Ideal.div_coe hq0.ne', ← EReal.coe_mul, ← EReal.coe_add]

theorem var_comb (I : Inputs) (hI : I.Ok) (j : Fin 64) :
    Ideal.div (zeroL + ∑ n : Fin 80000, comb I n j * comb I n j) cntN - mean (comb I) cntN j * mean (comb I) cntN j
      = var (comb I) cntN j :=
  var_of_sq (by norm_num) (comb I) (fun n j => comb_real I hI n j) cntN (by rw [cntN_eq]; norm_num) j

theorem var_gate (I : Inputs) (j : Fin 64) :
    Ideal.div (zeroL + ∑ e : Fin 1280000, gate I e j * gate I e j) cntE - mean (gate I) cntE j * mean (gate I) cntE j
      = var (gate I) cntE j :=
  var_of_sq (by norm_num) (gate I)
    (fun e j => by obtain ⟨r, _, hr⟩ := gate_real I e j; exact ⟨r, hr⟩) cntE (by rw [cntE_eq]; norm_num) j

end Cert.Gcn

end
-- ==== Proof.KI.Chain4.lean ====
/-
  The kernel's statistics are the layer's: the sum over the tiles of the tiles' column sums is the column sum over all rows, and
  the mean of the squares minus the squared mean is the biased variance because every value is real. Hence regions 3 and 4 store
  the layer's two results.
-/
import proofs.«415303_j23759759082192_3_alg».proof.Proof.KI.Chain3
import proofs.«415303_j23759759082192_3_alg».proof.Proof.KI.Value3
import proofs.«415303_j23759759082192_3_alg».proof.Proof.KI.Value4
import proofs.«415303_j23759759082192_3_alg».proof.Proof.KI.HostStats
import proofs.«415303_j23759759082192_3_alg».proof.Proof.MathA
import proofs.«415303_j23759759082192_3_alg».proof.Proof.MathB

set_option maxRecDepth 16384

noncomputable section

open scoped BigOperators

namespace Cert.KernelIdeal.Hand

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The column mean from the tiles' sums of a family over all node rows is the column mean over all rows. -/
theorem chain4_tileMean_N (f : Fin 80000 → EReal) (cnt : EReal) :
    tileMean (fun t : Fin 10 => ∑ r : Fin 8000, f ⟨8000 * t.val + r.val, by omega⟩) cnt = Ideal.div (zeroL + ∑ n, f n) cnt :=
  congrArg (fun s : EReal => Ideal.div (zeroL + s) cnt) (sum_tiles_N f)
/-- The same over the edge rows. -/
theorem chain4_tileMean_E (f : Fin 1280000 → EReal) (cnt : EReal) :
    tileMean (fun t : Fin 320 => ∑ r : Fin 4000, f ⟨4000 * t.val + r.val, by omega⟩) cnt = Ideal.div (zeroL + ∑ e, f e) cnt :=
  congrArg (fun s : EReal => Ideal.div (zeroL + s) cnt) (sum_tiles_E f)

/-- Equal arguments give equal residual-plus-normalised values. -/
theorem chain4_resid_congr {r r' v v' mu mu' va va' g g' b b' : EReal} (h1 : r = r') (h2 : v = v') (h3 : mu = mu') (h4 : va = va')
    (h5 : g = g') (h6 : b = b') : resid r v mu va g b = resid r' v' mu' va' g' b' := by
  subst h1 h2 h3 h4 h5 h6; rfl

/-- A buffer that nothing up to the statistics stretch writes holds its launch contents after it. -/
theorem chain4_W9_launch (c : Dev nD) (b : Ref sig .tc) (h1 : b ∉ hostOps0_W) (h2 : b ≠ main_v3) (h3 : b ∉ hostOps1_W)
    (h4 : b ∉ hostOps1_1_W) (h5 : b ∉ hostOps1_2_W) (h6 : b ∉ hostOps1_3_W) (h7 : b ≠ main_v10_0 ∧ b ≠ main_v10_1)
    (h8 : b ∉ hostOps2_W) (h9 : b ≠ main_v16_0 ∧ b ≠ main_v16_1) : W9 m ρ c b = m ((c : Thread nD τ).loc b) :=
  (W9_keep m ρ c b h9).trans <| (W8_keep m ρ c b h8).trans <| (W7_keep m ρ c b h7).trans <| (W6_keep m ρ c b h6).trans <|
    (W5_keep m ρ c b h5).trans <| (W4_keep m ρ c b h4).trans <| (W3_keep m ρ c b h3).trans <| (W2_keep m ρ c b h2).trans <|
    (W1_keep m ρ c b h1)
theorem chain4_W10_launch (c : Dev nD) (b : Ref sig .tc) (h1 : b ∉ hostOps0_W) (h2 : b ≠ main_v3) (h3 : b ∉ hostOps1_W)
    (h4 : b ∉ hostOps1_1_W) (h5 : b ∉ hostOps1_2_W) (h6 : b ∉ hostOps1_3_W) (h7 : b ≠ main_v10_0 ∧ b ≠ main_v10_1)
    (h8 : b ∉ hostOps2_W) (h9 : b ≠ main_v16_0 ∧ b ≠ main_v16_1) (h10 : b ∉ hostOps3_W) :
    W10 m ρ c b = m ((c : Thread nD τ).loc b) :=
  (W10_keep m ρ c b h10).trans (chain4_W9_launch m ρ c b h1 h2 h3 h4 h5 h6 h7 h8 h9)

/-- The edge partial sums, written by region 1, are untouched up to the statistics stretch. -/
theorem chain4_v10_1 (c : Dev nD) : W9 m ρ c main_v10_1 = W7 m ρ c main_v10_1 :=
  (W9_keep m ρ c main_v10_1 (by decide)).trans (W8_keep m ρ c main_v10_1 (by decide))

theorem mu_x (c : Dev nD) (hI : (inputs m c).Ok) (j : Fin 64) :
    V10 m ρ c main_v43 (ix2 0 j) = mean (comb (inputs m c)) cntN j := by
  refine (ops3_v43 (W9 m ρ c) j).trans ?_
  refine (congrArg (fun s : Fin 10 → EReal => tileMean s cntN) (funext fun t => stats_x_sum m ρ c hI t j)).trans ?_
  exact chain4_tileMean_N (fun n => comb (inputs m c) n j) cntN
theorem var_x (c : Dev nD) (hI : (inputs m c).Ok) (j : Fin 64) :
    V10 m ρ c main_v44 (ix2 0 j) = var (comb (inputs m c)) cntN j := by
  refine (ops3_v44 (W9 m ρ c) j).trans ?_
  refine (congrArg₂ (fun s1 s2 : Fin 10 → EReal => tileVar s1 s2 cntN) (funext fun t => stats_x_sum m ρ c hI t j)
    (funext fun t => stats_x_sq m ρ c hI t j)).trans ?_
  exact (congrArg₂ (fun a b : EReal => a - b * b) (chain4_tileMean_N (fun n => comb (inputs m c) n j * comb (inputs m c) n j) cntN)
    (chain4_tileMean_N (fun n => comb (inputs m c) n j) cntN)).trans (var_comb (inputs m c) hI j)
theorem mu_e (c : Dev nD) (hI : (inputs m c).Ok) (j : Fin 64) :
    V10 m ρ c main_v25 (ix1 j) = mean (gate (inputs m c)) cntE j := by
  refine (ops3_v25 (W9 m ρ c) j).trans ?_
  refine (congrArg (fun s : Fin 320 → EReal => tileMean s cntE)
    (funext fun t => (congrFun (chain4_v10_1 m ρ c) _).trans (stats_e_sum m ρ c hI t j))).trans ?_
  exact chain4_tileMean_E (fun e => gate (inputs m c) e j) cntE
theorem var_e (c : Dev nD) (hI : (inputs m c).Ok) (j : Fin 64) :
    V10 m ρ c main_v29 (ix1 j) = var (gate (inputs m c)) cntE j := by
  refine (ops3_v29 (W9 m ρ c) j).trans ?_
  refine (congrArg₂ (fun s1 s2 : Fin 320 → EReal => tileVar s1 s2 cntE)
    (funext fun t => (congrFun (chain4_v10_1 m ρ c) _).trans (stats_e_sum m ρ c hI t j))
    (funext fun t => (congrFun (chain4_v10_1 m ρ c) _).trans (stats_e_sq m ρ c hI t j))).trans ?_
  exact (congrArg₂ (fun a b : EReal => a - b * b) (chain4_tileMean_E (fun e => gate (inputs m c) e j * gate (inputs m c) e j) cntE)
    (chain4_tileMean_E (fun e => gate (inputs m c) e j) cntE)).trans (var_gate (inputs m c) j)
theorem kernel_x (c : Dev nD) (hI : (inputs m c).Ok) : V13 m ρ c main_v47 = xnew (inputs m c) := by
  funext p
  obtain ⟨n, j, rfl⟩ : ∃ n j, p = ix2 n j := ⟨p 0, p 1, eq_ix2 p⟩
  -- region 3's output array, untouched afterwards
  refine (congrFun ((W13_keep m ρ c main_v47 (by decide)).trans ((W12_keep m ρ c main_v47 (by decide)).trans (W11_arr m ρ c 6))) _).trans ?_
  refine (final3_6 (V10 m ρ) c n j).trans ?_
  show _ = resid ((inputs m c).x (ix2 n j)) (comb (inputs m c) n j) (mean (comb (inputs m c)) cntN j) (var (comb (inputs m c)) cntN j)
    ((inputs m c).gx (ix1 j)) ((inputs m c).bx (ix1 j))
  refine chain4_resid_congr ?_ ?_ (mu_x m ρ c hI j) (var_x m ρ c hI j) ?_ ?_
  · exact congrFun (chain4_W10_launch m ρ c main_arg0 (by decide) (by decide) (by decide) (by decide) (by decide) (by decide)
      (by decide) (by decide) (by decide) (by decide)) _
  · exact (congrFun (W10_keep m ρ c main_v16_0 (by decide)) _).trans (xpre_K m ρ c hI n j)
  · exact (ops3_v45 (W9 m ρ c) j).trans (congrFun (chain4_W9_launch m ρ c main_arg14 (by decide) (by decide) (by decide)
      (by decide) (by decide) (by decide) (by decide) (by decide) (by decide)) _)
  · exact (ops3_v46 (W9 m ρ c) j).trans (congrFun (chain4_W9_launch m ρ c main_arg15 (by decide) (by decide) (by decide)
      (by decide) (by decide) (by decide) (by decide) (by decide) (by decide)) _)
theorem kernel_e (c : Dev nD) (hI : (inputs m c).Ok) : V13 m ρ c main_v52 = enew (inputs m c) := by
  funext p
  obtain ⟨r, j, rfl⟩ : ∃ r j, p = ix2 r j := ⟨p 0, p 1, eq_ix2 p⟩
  -- region 4's output array
  refine (congrFun (W13_arr m ρ c 6) _).trans ?_
  refine (final4_6 (V12 m ρ) c r j).trans ?_
  show _ = resid ((inputs m c).e (ix2 r j)) (gate (inputs m c) r j) (mean (gate (inputs m c)) cntE j) (var (gate (inputs m c)) cntE j)
    ((inputs m c).ge (ix1 j)) ((inputs m c).be (ix1 j))
  refine chain4_resid_congr ?_ ?_ ?_ ?_ ?_ ?_
  · exact congrFun ((W12_keep m ρ c main_arg1 (by decide)).trans ((W11_keep m ρ c main_arg1 (by decide)).trans
      (chain4_W10_launch m ρ c main_arg1 (by decide) (by decide) (by decide) (by decide) (by decide) (by decide)
        (by decide) (by decide) (by decide) (by decide)))) _
  · exact (congrFun ((W12_keep m ρ c main_v10_0 (by decide)).trans ((W11_keep m ρ c main_v10_0 (by decide)).trans
      ((W10_keep m ρ c main_v10_0 (by decide)).trans ((W9_keep m ρ c main_v10_0 (by decide)).trans
        (W8_keep m ρ c main_v10_0 (by decide)))))) _).trans (out_hi m ρ c hI r j)
  · exact (ops4_v48 (W11 m ρ c) j).trans ((congrFun (W11_keep m ρ c main_v25 (by decide)) _).trans (mu_e m ρ c hI j))
  · exact (ops4_v49 (W11 m ρ c) j).trans ((congrFun (W11_keep m ρ c main_v29 (by decide)) _).trans (var_e m ρ c hI j))
  · exact (ops4_v50 (W11 m ρ c) j).trans (congrFun ((W11_keep m ρ c main_arg16 (by decide)).trans
      (chain4_W10_launch m ρ c main_arg16 (by decide) (by decide) (by decide) (by decide) (by decide) (by decide)
        (by decide) (by decide) (by decide) (by decide))) _)
  · exact (ops4_v51 (W11 m ρ c) j).trans (congrFun ((W11_keep m ρ c main_arg17 (by decide)).trans
      (chain4_W10_launch m ρ c main_arg17 (by decide) (by decide) (by decide) (by decide) (by decide) (by decide)
        (by decide) (by decide) (by decide) (by decide))) _)

end Cert.KernelIdeal.Hand

end
-- ==== Proof.Ref.RefGate.lean ====
/-
  The reference's affine maps, its gathered message rows and its gate, read one operation at a time: a matrix product plus a
  broadcast bias is the affine map of a row; a gather at an index word in range reads that row (a negative word would first be
  shifted by the row count; none is); 1 / (1 + exp (-v)) is the logistic function.
-/
import proofs.«415303_j23759759082192_3_alg».proof.Proof.Gen.ReferenceIdeal.Read
import proofs.«415303_j23759759082192_3_alg».proof.Proof.Spec
import proofs.«415303_j23759759082192_3_alg».proof.Proof.LibIndex
import proofs.«415303_j23759759082192_3_alg».proof.Proof.LibScatter
import proofs.«415303_j23759759082192_3_alg».proof.Proof.LibPlainDot
import proofs.«415303_j23759759082192_3_alg».proof.Proof.MathA

noncomputable section

open scoped BigOperators

namespace Cert.ReferenceIdeal.RefValue

open Cert.ReferenceIdeal Cert.ReferenceIdeal.Gen Cert.ReferenceIdeal.Read Cert.Gcn
open Idealize.ShloMosaic Idealize.ShloMosaic.TcCoe Idealize.ShloMosaic.ValueIdx Idealize.SL.Sem

/-- A word that is not negative is not below zero, so the wrap keeps it. -/
theorem wrap_nonneg (w a : BitVec 32) (h : 0 ≤ w.toInt) :
    Scalar.select (IntOp.cmpi .slt w 0#32) a w = w := by
  have hlt : w.slt 0#32 = false := by
    unfold BitVec.slt
    rw [BitVec.toInt_zero]
    exact decide_eq_false (by omega)
  unfold Scalar.select IntOp.cmpi
  simp only [hlt]
  rfl

/-- Operations 0 to 3: the affine map A of the node rows. -/
theorem linA_at (x : (⟨2, ![80000, 64]⟩ : Shape).Idx → EReal) (W : TW) (b : TB) (n : Fin 80000) (j : Fin 64) :
    val_main_v3 (F := Ideal) x W b (ix2 n j) = lin x W b n j := by
  have hl : ∀ k : Fin 64, lidx_main_v0 (ix2 n j) k = ix2 n k := fun k =>
    funext fun a => Fin.ext (by match a with | ⟨0, _⟩ => rfl | ⟨1, _⟩ => rfl)
  have hr : ∀ k : Fin 64, ridx_main_v0 (ix2 n j) k = ix2 k j := fun k =>
    funext fun a => Fin.ext (by match a with | ⟨0, _⟩ => rfl | ⟨1, _⟩ => rfl)
  have hb : idx_main_v1 (idx_main_v2 (ix2 n j)) = ix1 j :=
    funext fun a => Fin.ext (by match a with | ⟨0, _⟩ => rfl)
  rw [val_main_v3_apply, val_main_v0_apply, val_main_v2_apply, val_main_v1_apply]
  simp only [hl, hr, hb, Ideal.addf_def]
  rfl

/-- Operations 4 to 7: the affine map B of the node rows. -/
theorem linB_at (x : (⟨2, ![80000, 64]⟩ : Shape).Idx → EReal) (W : TW) (b : TB) (n : Fin 80000) (j : Fin 64) :
    val_main_v7 (F := Ideal) x W b (ix2 n j) = lin x W b n j := by
  have hl : ∀ k : Fin 64, lidx_main_v4 (ix2 n j) k = ix2 n k := fun k =>
    funext fun a => Fin.ext (by match a with | ⟨0, _⟩ => rfl | ⟨1, _⟩ => rfl)
  have hr : ∀ k : Fin 64, ridx_main_v4 (ix2 n j) k = ix2 k j := fun k =>
    funext fun a => Fin.ext (by match a with | ⟨0, _⟩ => rfl | ⟨1, _⟩ => rfl)
  have hb : idx_main_v5 (idx_main_v6 (ix2 n j)) = ix1 j :=
    funext fun a => Fin.ext (by match a with | ⟨0, _⟩ => rfl)
  rw [val_main_v7_apply, val_main_v4_apply, val_main_v6_apply, val_main_v5_apply]
  simp only [hl, hr, hb, Ideal.addf_def]
  rfl

/-- Operations 8 to 11: the affine map C of the edge rows. -/
theorem linC_at (x : (⟨2, ![1280000, 64]⟩ : Shape).Idx → EReal) (W : TW) (b : TB) (n : Fin 1280000) (j : Fin 64) :
    val_main_v11 (F := Ideal) x W b (ix2 n j) = lin x W b n j := by
  have hl : ∀ k : Fin 64, lidx_main_v8 (ix2 n j) k = ix2 n k := fun k =>
    funext fun a => Fin.ext (by match a with | ⟨0, _⟩ => rfl | ⟨1, _⟩ => rfl)
  have hr : ∀ k : Fin 64, ridx_main_v8 (ix2 n j) k = ix2 k j := fun k =>
    funext fun a => Fin.ext (by match a with | ⟨0, _⟩ => rfl | ⟨1, _⟩ => rfl)
  have hb : idx_main_v9 (idx_main_v10 (ix2 n j)) = ix1 j :=
    funext fun a => Fin.ext (by match a with | ⟨0, _⟩ => rfl)
  rw [val_main_v11_apply, val_main_v8_apply, val_main_v10_apply, val_main_v9_apply]
  simp only [hl, hr, hb, Ideal.addf_def]
  rfl

/-- Operations 12 to 15: the affine map D of the node rows. -/
theorem linD_at (x : (⟨2, ![80000, 64]⟩ : Shape).Idx → EReal) (W : TW) (b : TB) (n : Fin 80000) (j : Fin 64) :
    val_main_v15 (F := Ideal) x W b (ix2 n j) = lin x W b n j := by
  have hl : ∀ k : Fin 64, lidx_main_v12 (ix2 n j) k = ix2 n k := fun k =>
    funext fun a => Fin.ext (by match a with | ⟨0, _⟩ => rfl | ⟨1, _⟩ => rfl)
  have hr : ∀ k : Fin 64, ridx_main_v12 (ix2 n j) k = ix2 k j := fun k =>
    funext fun a => Fin.ext (by match a with | ⟨0, _⟩ => rfl | ⟨1, _⟩ => rfl)
  have hb : idx_main_v13 (idx_main_v14 (ix2 n j)) = ix1 j :=
    funext fun a => Fin.ext (by match a with | ⟨0, _⟩ => rfl)
  rw [val_main_v15_apply, val_main_v12_apply, val_main_v14_apply, val_main_v13_apply]
  simp only [hl, hr, hb, Ideal.addf_def]
  rfl

/-- Operations 16 to 19: the affine map E of the node rows. -/
theorem linE_at (x : (⟨2, ![80000, 64]⟩ : Shape).Idx → EReal) (W : TW) (b : TB) (n : Fin 80000) (j : Fin 64) :
    val_main_v19 (F := Ideal) x W b (ix2 n j) = lin x W b n j := by
  have hl : ∀ k : Fin 64, lidx_main_v16 (ix2 n j) k = ix2 n k := fun k =>
    funext fun a => Fin.ext (by match a with | ⟨0, _⟩ => rfl | ⟨1, _⟩ => rfl)
  have hr : ∀ k : Fin 64, ridx_main_v16 (ix2 n j) k = ix2 k j := fun k =>
    funext fun a => Fin.ext (by match a with | ⟨0, _⟩ => rfl | ⟨1, _⟩ => rfl)
  have hb : idx_main_v17 (idx_main_v18 (ix2 n j)) = ix1 j :=
    funext fun a => Fin.ext (by match a with | ⟨0, _⟩ => rfl)
  rw [val_main_v19_apply, val_main_v16_apply, val_main_v18_apply, val_main_v17_apply]
  simp only [hl, hr, hb, Ideal.addf_def]
  rfl

/-- The wrapped source column, first use: in range, the word itself. -/
theorem wrap25 (idx : TI) (h : InRange idx) (e : Fin 1280000) :
    val_main_v25 (F := Ideal) idx (ix2 e 0) = idx (ix1 e) := by
  have hi : idx_main_v25 (ix2 e (0 : Fin 1)) = ix1 e :=
    funext fun a => Fin.ext (by match a with | ⟨0, _⟩ => rfl)
  rw [val_main_v25_apply, hi, val_main_v24_apply, val_main_v21_apply, val_main_v20_apply, val_main_c_apply]
  exact wrap_nonneg _ _ (h e).1

/-- The wrapped destination column: in range, the word itself. -/
theorem wrap32 (idx : TI) (h : InRange idx) (e : Fin 1280000) :
    val_main_v32 (F := Ideal) idx (ix2 e 0) = idx (ix1 e) := by
  have hi : idx_main_v32 (ix2 e (0 : Fin 1)) = ix1 e :=
    funext fun a => Fin.ext (by match a with | ⟨0, _⟩ => rfl)
  rw [val_main_v32_apply, hi, val_main_v31_apply, val_main_v28_apply, val_main_v27_apply, val_main_c_1_apply]
  exact wrap_nonneg _ _ (h e).1

/-- The wrapped source column, second use: in range, the word itself. -/
theorem wrap47 (idx : TI) (h : InRange idx) (e : Fin 1280000) :
    val_main_v47 (F := Ideal) idx (ix2 e 0) = idx (ix1 e) := by
  have hi : idx_main_v47 (ix2 e (0 : Fin 1)) = ix1 e :=
    funext fun a => Fin.ext (by match a with | ⟨0, _⟩ => rfl)
  rw [val_main_v47_apply, hi, val_main_v46_apply, val_main_v43_apply, val_main_v42_apply, val_main_c_4_apply]
  exact wrap_nonneg _ _ (h e).1

/-- Operation 26: D gathered at the source rows. -/
theorem gatherD (x : TN) (idx : TI) (W : TW) (b : TB) (h : InRange idx) (e : Fin 1280000) (j : Fin 64) :
    val_main_v26 (F := Ideal) x idx W b (ix2 e j) = lin x W b (rowOf idx e) j := by
  unfold val_main_v26
  have wf : GatherDims.WF ⟨2, ![80000, 64]⟩ ⟨2, ![1280000, 1]⟩ ⟨2, ![1280000, 64]⟩ [1] [0] [] [0] [] 1 ![1, 64] :=
    gather_S80000x64_S1280000x1_S1280000x64_1_0_n_n_0_1_164.wf
  have hg : gather_S80000x64_S1280000x1_S1280000x64_1_0_n_n_0_1_164 = rowGatherDims 80000 1280000 64 wf := rfl
  rw [hg, gatherRows_apply (by decide) wf]
  show val_main_v15 (F := Ideal) x W b (ix2 (crow 80000 _ (val_main_v25 (F := Ideal) idx (ix2 e 0))) j) = _
  rw [wrap25 idx h e, linD_at]
  rfl

/-- Operation 33: E gathered at the destination rows. -/
theorem gatherE (x : TN) (idx : TI) (W : TW) (b : TB) (h : InRange idx) (e : Fin 1280000) (j : Fin 64) :
    val_main_v33 (F := Ideal) x idx W b (ix2 e j) = lin x W b (rowOf idx e) j := by
  unfold val_main_v33
  have wf : GatherDims.WF ⟨2, ![80000, 64]⟩ ⟨2, ![1280000, 1]⟩ ⟨2, ![1280000, 64]⟩ [1] [0] [] [0] [] 1 ![1, 64] :=
    gather_S80000x64_S1280000x1_S1280000x64_1_0_n_n_0_1_164.wf
  have hg : gather_S80000x64_S1280000x1_S1280000x64_1_0_n_n_0_1_164 = rowGatherDims 80000 1280000 64 wf := rfl
  rw [hg, gatherRows_apply (by decide) wf]
  show val_main_v19 (F := Ideal) x W b (ix2 (crow 80000 _ (val_main_v32 (F := Ideal) idx (ix2 e 0))) j) = _
  rw [wrap32 idx h e, linE_at]
  rfl

/-- Operation 48: B gathered at the source rows. -/
theorem gatherB (x : TN) (idx : TI) (W : TW) (b : TB) (h : InRange idx) (e : Fin 1280000) (j : Fin 64) :
    val_main_v48 (F := Ideal) x idx W b (ix2 e j) = lin x W b (rowOf idx e) j := by
  unfold val_main_v48
  have wf : GatherDims.WF ⟨2, ![80000, 64]⟩ ⟨2, ![1280000, 1]⟩ ⟨2, ![1280000, 64]⟩ [1] [0] [] [0] [] 1 ![1, 64] :=
    gather_S80000x64_S1280000x1_S1280000x64_1_0_n_n_0_1_164.wf
  have hg : gather_S80000x64_S1280000x1_S1280000x64_1_0_n_n_0_1_164 = rowGatherDims 80000 1280000 64 wf := rfl
  rw [hg, gatherRows_apply (by decide) wf]
  show val_main_v7 (F := Ideal) x W b (ix2 (crow 80000 _ (val_main_v47 (F := Ideal) idx (ix2 e 0))) j) = _
  rw [wrap47 idx h e, linB_at]
  rfl

theorem linA_ref (I : Inputs) (n : Fin 80000) (j : Fin 64) :
    val_main_v3 (F := Ideal) I.x I.WA I.bA (ix2 n j) = lin I.x I.WA I.bA n j :=
  linA_at I.x I.WA I.bA n j

theorem msgB_ref (I : Inputs) (hs : InRange I.src) (e : Fin 1280000) (j : Fin 64) :
    val_main_v48 (F := Ideal) I.x I.src I.WB I.bB (ix2 e j) = lin I.x I.WB I.bB (rowOf I.src e) j :=
  gatherB I.x I.src I.WB I.bB hs e j

theorem gate_ref (I : Inputs) (hs : InRange I.src) (hd : InRange I.dst) (e : Fin 1280000) (j : Fin 64) :
    val_main_v41 (F := Ideal) I.x I.e I.src I.dst I.WC I.bC I.WD I.bD I.WE I.bE (ix2 e j) = gate I e j := by
  rw [val_main_v41_apply, val_main_v40_apply, val_main_cst_3_apply, val_main_v39_apply, val_main_v38_apply,
    val_main_cst_apply, val_main_v37_apply, val_main_v36_apply, val_main_v35_apply, val_main_v34_apply,
    gatherD I.x I.src I.WD I.bD hs e j, gatherE I.x I.dst I.WE I.bE hd e j, linC_at]
  simp only [Ideal.hostDivf_def, Ideal.addf_def, Ideal.hostUnary_exp_def, Ideal.hostNegf_def, Ideal.negf_def,
    Ideal.ofBits_def]
  unfold gate Ideal.logistic
  rw [← oneL_eq]
  rfl

end Cert.ReferenceIdeal.RefValue

end
-- ==== Proof.Ref.RefX.lean ====
/-
  The reference's node result: the gated messages and the gates are summed into their destination rows, the quotient is added
  to the A row, and the result is normalised by its column mean and biased variance over the 80000 rows, scaled, shifted, cut at
  zero and added to the input.
-/
import proofs.«415303_j23759759082192_3_alg».proof.Proof.Gen.ReferenceIdeal.Read
import proofs.«415303_j23759759082192_3_alg».proof.Proof.Spec
import proofs.«415303_j23759759082192_3_alg».proof.Proof.LibIndex
import proofs.«415303_j23759759082192_3_alg».proof.Proof.LibScatter
import proofs.«415303_j23759759082192_3_alg».proof.Proof.LibPlainDot
import proofs.«415303_j23759759082192_3_alg».proof.Proof.MathA
import proofs.«415303_j23759759082192_3_alg».proof.Proof.Ref.RefGate

noncomputable section

open scoped BigOperators

namespace Cert.ReferenceIdeal.RefValue

open Cert.ReferenceIdeal Cert.ReferenceIdeal.Gen Cert.ReferenceIdeal.Read Cert.Gcn
open Idealize.ShloMosaic Idealize.ShloMosaic.TcCoe Idealize.ShloMosaic.ValueIdx Idealize.SL.Sem

/-- A row scatter-add into the 80000 × 64 array, at row n and column j: the operand there plus column j of the update rows
    whose index word, read signed, is n. -/
theorem scat_at (x : TN) (idx : IVec S1280000x1 32) (upd : TE) (n : Fin 80000) (j : Fin 64) :
    Host.scatterAdd (F := Ideal) (φ := .f32) scatter_S80000x64_S1280000x1_S1280000x64_1_0_0_1 x idx upd (ix2 n j)
      = x (ix2 n j) + ∑ e ∈ Finset.univ.filter (fun e : Fin 1280000 => (idx (ix2 e (0 : Fin 1))).toInt = (n.val : Int)), upd (ix2 e j) :=
  scatterAddRows_apply Facts₀.scatter_S80000x64_S1280000x1_S1280000x64_1_0_0_1_wf x idx upd n j

/-- The sum of gated messages: the scatter-add of gate times gathered B rows, by destination, from the zero array. -/
theorem num_ref (I : Inputs) (hs : InRange I.src) (hd : InRange I.dst) (n : Fin 80000) (j : Fin 64) :
    val_main_v52 (F := Ideal) I.x I.e I.src I.dst I.WB I.bB I.WC I.bC I.WD I.bD I.WE I.bE (ix2 n j) = num I n j := by
  have hidx : ∀ e : Fin 1280000, val_main_v51 (F := Ideal) I.dst (ix2 e (0 : Fin 1)) = I.dst (ix1 e) := fun e => by
    rw [val_main_v51_apply]
    exact congrArg I.dst (funext fun a => Fin.ext (by match a with | ⟨0, _⟩ => rfl))
  unfold val_main_v52
  rw [scat_at, val_main_v50_apply, val_main_cst_6_apply]
  simp only [hidx]
  unfold num arriving
  refine congrArg₂ (· + ·) rfl (Finset.sum_congr rfl fun e _ => ?_)
  rw [val_main_v49_apply, gate_ref I hs hd, msgB_ref I hs]
  rfl

/-- The sum of gates plus the small constant: the scatter-add of the gates, by destination, from the zero array, plus the literal. -/
theorem den_ref (I : Inputs) (hs : InRange I.src) (hd : InRange I.dst) (n : Fin 80000) (j : Fin 64) :
    val_main_v57 (F := Ideal) I.x I.e I.src I.dst I.WC I.bC I.WD I.bD I.WE I.bE (ix2 n j) = den I n j := by
  have hidx : ∀ e : Fin 1280000, val_main_v54 (F := Ideal) I.dst (ix2 e (0 : Fin 1)) = I.dst (ix1 e) := fun e => by
    rw [val_main_v54_apply]
    exact congrArg I.dst (funext fun a => Fin.ext (by match a with | ⟨0, _⟩ => rfl))
  rw [val_main_v57_apply, val_main_v56_apply, val_main_cst_8_apply]
  unfold val_main_v55
  rw [scat_at, val_main_v53_apply, val_main_cst_7_apply]
  simp only [hidx]
  unfold den arriving
  refine congrArg₂ (· + ·) (congrArg₂ (· + ·) rfl (Finset.sum_congr rfl fun e _ => ?_)) rfl
  exact gate_ref I hs hd e j

theorem comb_ref (I : Inputs) (hs : InRange I.src) (hd : InRange I.dst) (n : Fin 80000) (j : Fin 64) :
    val_main_v59 (F := Ideal) I.x I.e I.src I.dst I.WA I.bA I.WB I.bB I.WC I.bC I.WD I.bD I.WE I.bE (ix2 n j) = comb I n j := by
  rw [val_main_v59_apply, val_main_v58_apply, linA_ref, num_ref I hs hd, den_ref I hs hd]
  rfl

/-- The column mean: the sum over all rows from the zero literal, divided by the count literal. -/
theorem mean_ref (I : Inputs) (hs : InRange I.src) (hd : InRange I.dst) (j : Fin 64) :
    val_main_v62 (F := Ideal) I.x I.e I.src I.dst I.WA I.bA I.WB I.bB I.WC I.bC I.WD I.bD I.WE I.bE (ix1 j)
      = mean (comb I) cntN j := by
  have hix : ∀ k : Fin 80000, idx_main_v60 (ix1 j) k = ix2 k j := fun k =>
    funext fun a => Fin.ext (by match a with | ⟨0, _⟩ => rfl | ⟨1, _⟩ => rfl)
  rw [val_main_v62_apply, val_main_v60_apply, val_main_v61_apply, val_main_cst_10_apply, val_main_cst_9_apply]
  simp only [Ideal.hostDivf_def, Ideal.ofBits_def]
  unfold mean
  refine congrArg₂ Ideal.div (congrArg₂ (· + ·) rfl (Finset.sum_congr rfl fun k _ => ?_)) rfl
  rw [hix k]
  exact comb_ref I hs hd k j

/-- The squared deviation from the column mean, at row k and column j. -/
theorem sq_ref (I : Inputs) (hs : InRange I.src) (hd : InRange I.dst) (k : Fin 80000) (j : Fin 64) :
    val_main_v66 (F := Ideal) I.x I.e I.src I.dst I.WA I.bA I.WB I.bB I.WC I.bC I.WD I.bD I.WE I.bE (ix2 k j)
      = (comb I k j - mean (comb I) cntN j) * (comb I k j - mean (comb I) cntN j) := by
  have hix : idx_main_v63 (idx_main_v64 (ix2 k j)) = ix1 j :=
    funext fun a => Fin.ext (by match a with | ⟨0, _⟩ => rfl)
  rw [val_main_v66_apply, val_main_v65_apply, val_main_v64_apply, val_main_v63_apply, hix,
    comb_ref I hs hd, mean_ref I hs hd]
  rfl

/-- The biased column variance: the sum of squared deviations from the zero literal, divided by the count literal. -/
theorem var_ref (I : Inputs) (hs : InRange I.src) (hd : InRange I.dst) (j : Fin 64) :
    val_main_v69 (F := Ideal) I.x I.e I.src I.dst I.WA I.bA I.WB I.bB I.WC I.bC I.WD I.bD I.WE I.bE (ix1 j)
      = var (comb I) cntN j := by
  have hix : ∀ k : Fin 80000, idx_main_v67 (ix1 j) k = ix2 k j := fun k =>
    funext fun a => Fin.ext (by match a with | ⟨0, _⟩ => rfl | ⟨1, _⟩ => rfl)
  rw [val_main_v69_apply, val_main_v67_apply, val_main_v68_apply, val_main_cst_12_apply, val_main_cst_11_apply]
  simp only [Ideal.hostDivf_def, Ideal.ofBits_def]
  unfold var
  refine congrArg₂ Ideal.div (congrArg₂ (· + ·) rfl (Finset.sum_congr rfl fun k _ => ?_)) rfl
  rw [hix k]
  exact sq_ref I hs hd k j

theorem ref_x_val (I : Inputs) (hs : InRange I.src) (hd : InRange I.dst) :
    val_main_v112 (F := Ideal) I.x I.e I.src I.dst I.WA I.bA I.WB I.bB I.WC I.bC I.WD I.bD I.WE I.bE I.gx I.bx = xnew I := by
  funext p
  obtain ⟨n, j, rfl⟩ : ∃ n j, p = ix2 n j := ⟨p 0, p 1, eq_ix2 p⟩
  have h71 : idx_main_v70 (idx_main_v71 (ix2 n j)) = ix1 j :=
    funext fun a => Fin.ext (by match a with | ⟨0, _⟩ => rfl)
  have h77 : idx_main_v76 (idx_main_v77 (ix2 n j)) = ix1 j :=
    funext fun a => Fin.ext (by match a with | ⟨0, _⟩ => rfl)
  have h80 : idx_main_v79 (idx_main_v80 (ix2 n j)) = ix1 j :=
    funext fun a => Fin.ext (by match a with | ⟨0, _⟩ => rfl)
  have h83 : idx_main_v82 (idx_main_v83 (ix2 n j)) = ix1 j :=
    funext fun a => Fin.ext (by match a with | ⟨0, _⟩ => rfl)
  rw [val_main_v112_apply, val_main_v85_apply, val_main_v84_apply, val_main_v81_apply, val_main_v78_apply,
    val_main_v72_apply, val_main_v71_apply, val_main_v70_apply, h71,
    val_main_v77_apply, val_main_v76_apply, h77, val_main_v75_apply, val_main_v74_apply, val_main_v73_apply,
    val_main_cst_13_apply, val_main_v80_apply, val_main_v79_apply, h80, val_main_v83_apply, val_main_v82_apply, h83,
    val_main_call0_v0_apply, val_main_call0_cst_apply,
    comb_ref I hs hd, mean_ref I hs hd, var_ref I hs hd]
  rfl

end Cert.ReferenceIdeal.RefValue

end
-- ==== Proof.Ref.RefE.lean ====
/-
  The reference's edge result: the gate is normalised by its column mean and biased variance over the 1280000 rows, scaled,
  shifted, cut at zero and added to the input.
-/
import proofs.«415303_j23759759082192_3_alg».proof.Proof.Gen.ReferenceIdeal.Read
import proofs.«415303_j23759759082192_3_alg».proof.Proof.Spec
import proofs.«415303_j23759759082192_3_alg».proof.Proof.LibIndex
import proofs.«415303_j23759759082192_3_alg».proof.Proof.LibScatter
import proofs.«415303_j23759759082192_3_alg».proof.Proof.LibPlainDot
import proofs.«415303_j23759759082192_3_alg».proof.Proof.MathA
import proofs.«415303_j23759759082192_3_alg».proof.Proof.Ref.RefGate

noncomputable section

open scoped BigOperators

namespace Cert.ReferenceIdeal.RefValue

open Cert.ReferenceIdeal Cert.ReferenceIdeal.Gen Cert.ReferenceIdeal.Read Cert.Gcn
open Idealize.ShloMosaic Idealize.ShloMosaic.TcCoe Idealize.ShloMosaic.ValueIdx Idealize.SL.Sem

/-- The column sum of the gate over all rows, from the zero literal. -/
theorem gate_sum_ref (I : Inputs) (hs : InRange I.src) (hd : InRange I.dst) (j : Fin 64) :
    val_main_v86 (F := Ideal) I.x I.e I.src I.dst I.WC I.bC I.WD I.bD I.WE I.bE (ix1 j)
      = zeroL + ∑ e : Fin 1280000, gate I e j := by
  rw [val_main_v86_apply]
  refine congrArg₂ (· + ·) rfl (Finset.sum_congr rfl fun k _ => ?_)
  rw [show idx_main_v86 (ix1 j) k = ix2 k j from
    funext fun a => Fin.ext (by match a with | ⟨0, _⟩ => rfl | ⟨1, _⟩ => rfl)]
  exact gate_ref I hs hd k j

/-- The column mean of the gate: the column sum divided by the row-count literal. -/
theorem gate_mean_ref (I : Inputs) (hs : InRange I.src) (hd : InRange I.dst) (j : Fin 64) :
    val_main_v88 (F := Ideal) I.x I.e I.src I.dst I.WC I.bC I.WD I.bD I.WE I.bE (ix1 j)
      = mean (gate I) cntE j := by
  rw [val_main_v88_apply, gate_sum_ref I hs hd, val_main_v87_apply, val_main_cst_15_apply]
  rfl

/-- The deviation of the gate from its column mean (the first of the two places the reference forms it). -/
theorem gate_dev_ref (I : Inputs) (hs : InRange I.src) (hd : InRange I.dst) (e : Fin 1280000) (j : Fin 64) :
    val_main_v91 (F := Ideal) I.x I.e I.src I.dst I.WC I.bC I.WD I.bD I.WE I.bE (ix2 e j)
      = gate I e j - mean (gate I) cntE j := by
  rw [val_main_v91_apply, gate_ref I hs hd, val_main_v90_apply, val_main_v89_apply,
    show idx_main_v89 (idx_main_v90 (ix2 e j)) = ix1 j from
      funext fun a => Fin.ext (by match a with | ⟨0, _⟩ => rfl),
    gate_mean_ref I hs hd]
  rfl

/-- The biased column variance of the gate: the column sum of squared deviations divided by the row-count literal. -/
theorem gate_var_ref (I : Inputs) (hs : InRange I.src) (hd : InRange I.dst) (j : Fin 64) :
    val_main_v95 (F := Ideal) I.x I.e I.src I.dst I.WC I.bC I.WD I.bD I.WE I.bE (ix1 j)
      = var (gate I) cntE j := by
  rw [val_main_v95_apply, val_main_v93_apply, val_main_v94_apply, val_main_cst_17_apply]
  have hsum : ∀ k : Fin 1280000,
      val_main_v92 (F := Ideal) I.x I.e I.src I.dst I.WC I.bC I.WD I.bD I.WE I.bE (idx_main_v93 (ix1 j) k)
        = (gate I k j - mean (gate I) cntE j) * (gate I k j - mean (gate I) cntE j) := by
    intro k
    rw [show idx_main_v93 (ix1 j) k = ix2 k j from
      funext fun a => Fin.ext (by match a with | ⟨0, _⟩ => rfl | ⟨1, _⟩ => rfl)]
    rw [val_main_v92_apply, gate_dev_ref I hs hd]
    rfl
  rw [Finset.sum_congr rfl fun k _ => hsum k]
  rfl

theorem ref_e_val (I : Inputs) (hs : InRange I.src) (hd : InRange I.dst) :
    val_main_v113 (F := Ideal) I.x I.e I.src I.dst I.WC I.bC I.WD I.bD I.WE I.bE I.ge I.be = enew I := by
  funext p
  obtain ⟨e, j, rfl⟩ : ∃ e j, p = ix2 e j := ⟨p 0, p 1, eq_ix2 p⟩
  rw [val_main_v113_apply, val_main_v111_apply, val_main_v110_apply, val_main_v107_apply, val_main_v104_apply,
    val_main_v98_apply, gate_ref I hs hd, val_main_v97_apply, val_main_v96_apply,
    show idx_main_v96 (idx_main_v97 (ix2 e j)) = ix1 j from
      funext fun a => Fin.ext (by match a with | ⟨0, _⟩ => rfl),
    gate_mean_ref I hs hd,
    val_main_v103_apply, val_main_v102_apply,
    show idx_main_v102 (idx_main_v103 (ix2 e j)) = ix1 j from
      funext fun a => Fin.ext (by match a with | ⟨0, _⟩ => rfl),
    val_main_v101_apply, val_main_v100_apply, gate_var_ref I hs hd, val_main_v99_apply, val_main_cst_18_apply,
    val_main_v106_apply, val_main_v105_apply,
    show idx_main_v105 (idx_main_v106 (ix2 e j)) = ix1 j from
      funext fun a => Fin.ext (by match a with | ⟨0, _⟩ => rfl),
    val_main_v109_apply, val_main_v108_apply,
    show idx_main_v108 (idx_main_v109 (ix2 e j)) = ix1 j from
      funext fun a => Fin.ext (by match a with | ⟨0, _⟩ => rfl),
    val_main_call1_v0_apply, val_main_call1_cst_apply]
  rfl

end Cert.ReferenceIdeal.RefValue

end
-- ==== Proof.Ref.RefValue.lean ====
/-
  The reference program's two results are the layer's two results at its own argument arrays.
-/
import proofs.«415303_j23759759082192_3_alg».proof.Proof.Gen.ReferenceIdeal.Read
import proofs.«415303_j23759759082192_3_alg».proof.Proof.Spec
import proofs.«415303_j23759759082192_3_alg».proof.Proof.LibIndex
import proofs.«415303_j23759759082192_3_alg».proof.Proof.LibScatter
import proofs.«415303_j23759759082192_3_alg».proof.Proof.LibPlainDot
import proofs.«415303_j23759759082192_3_alg».proof.Proof.MathA
import proofs.«415303_j23759759082192_3_alg».proof.Proof.Ref.RefX
import proofs.«415303_j23759759082192_3_alg».proof.Proof.Ref.RefE

noncomputable section

open scoped BigOperators

namespace Cert.ReferenceIdeal.RefValue

open Cert.ReferenceIdeal Cert.ReferenceIdeal.Gen Cert.ReferenceIdeal.Read Cert.Gcn
open Idealize.ShloMosaic Idealize.ShloMosaic.TcCoe Idealize.ShloMosaic.ValueIdx Idealize.SL.Sem

/-- The eighteen argument arrays of core `c` at launch, as the layer's inputs. -/
def inputs (m : (ℓ : Loc nD τ sig) → Buf (Elt Ideal) ℓ) (c : Dev nD) : Inputs where
  x := m ((c.tc : Thread nD τ).loc main_arg0)
  e := m ((c.tc : Thread nD τ).loc main_arg1)
  src := m ((c.tc : Thread nD τ).loc main_arg2)
  dst := m ((c.tc : Thread nD τ).loc main_arg3)
  WA := m ((c.tc : Thread nD τ).loc main_arg4)
  bA := m ((c.tc : Thread nD τ).loc main_arg5)
  WB := m ((c.tc : Thread nD τ).loc main_arg6)
  bB := m ((c.tc : Thread nD τ).loc main_arg7)
  WC := m ((c.tc : Thread nD τ).loc main_arg8)
  bC := m ((c.tc : Thread nD τ).loc main_arg9)
  WD := m ((c.tc : Thread nD τ).loc main_arg10)
  bD := m ((c.tc : Thread nD τ).loc main_arg11)
  WE := m ((c.tc : Thread nD τ).loc main_arg12)
  bE := m ((c.tc : Thread nD τ).loc main_arg13)
  gx := m ((c.tc : Thread nD τ).loc main_arg14)
  bx := m ((c.tc : Thread nD τ).loc main_arg15)
  ge := m ((c.tc : Thread nD τ).loc main_arg16)
  be := m ((c.tc : Thread nD τ).loc main_arg17)

theorem ref_x (m : (ℓ : Loc nD τ sig) → Buf (Elt Ideal) ℓ) (c : Dev nD)
    (hs : InRange (inputs m c).src) (hd : InRange (inputs m c).dst) :
    Cert.ReferenceIdeal.Value.res_main_v112 (F := Ideal) m c = xnew (inputs m c) :=
  (val_main_v112_eq (F := Ideal) m c).trans (ref_x_val (inputs m c) hs hd)

theorem ref_e (m : (ℓ : Loc nD τ sig) → Buf (Elt Ideal) ℓ) (c : Dev nD)
    (hs : InRange (inputs m c).src) (hd : InRange (inputs m c).dst) :
    Cert.ReferenceIdeal.Value.res_main_v113 (F := Ideal) m c = enew (inputs m c) :=
  (val_main_v113_eq (F := Ideal) m c).trans (ref_e_val (inputs m c) hs hd)

end Cert.ReferenceIdeal.RefValue

end
-- ==== Proof.Pre.lean ====
/-
  What the precondition says. The printed predicate is a conjunction of twenty tests, each an all-reduction of an
  elementwise comparison: |a| < +∞ for each of the sixteen float inputs, and 0 ≤ idx, idx < 80000 for the two index arrays.
  If it evaluates to true, every float input is an array of real numbers and both index arrays are in range.
-/
import proofs.«415303_j23759759082192_3_alg».proof.Pre_finite_inputs
import proofs.«415303_j23759759082192_3_alg».proof.Proof.Spec
import Idealize.ShloMosaic.PureOps.Ideal
import Idealize.ShloMosaic.Lib.ReduceAll
import Idealize.ShloMosaic.Lib.StableHlo.Predicate

noncomputable section

namespace Cert.Gcn

open Idealize.ShloMosaic Idealize.ShloMosaic.ValueIdx

namespace Pre

/-- The rank-0 shape has one index. -/
theorem subsingleton_idx0 : Subsingleton (⟨0, ![]⟩ : Shape).Idx := ⟨fun _ _ => funext fun d => d.elim0⟩

/-- The word 0x7F800000 denotes +∞. -/
theorem inf_word : Ideal.ofBits .f32 0x7F800000#32 = (⊤ : EReal) := by simp [Ideal.ofBits, Ideal.ieee]

/-- An extended real whose absolute value max x (−x) lies strictly below +∞ is neither infinity: it is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- A float array, of any shape: if the all-reduction of |x| < +∞ against the broadcast +∞ is true, every entry is real. -/
theorem isReal_of_all {S : Shape} {axes : List (Fin S.rank)} (hb : (⟨0, ![]⟩ : Shape).BroadcastsInDim S ![])
    (hr : S.ReducesTo axes ⟨0, ![]⟩) (hs : 0 < (⟨0, ![]⟩ : Shape).numel) (x : S.Idx → EReal)
    (h : Host.reduce IntOp.andi
        (cmpf (F := Ideal) (φ := .f32) .olt (Host.absf (F := Ideal) (φ := .f32) x)
          (broadcastInDim S ![] hb (constant (F := Ideal) ⟨0, ![]⟩ .f32 0x7F800000#32)))
        (constantI ⟨0, ![]⟩ 1 1#1) hr hs ix0 = 1#1) : IsReal x := by
  haveI := subsingleton_idx0
  intro p
  exact real_of_abs_lt_inf (x p) (Host.reduce_andi_all _ _ hr hs ix0 h p)

/-- An index array, of any shape: if the all-reduction of idx ≥ 0 (signed) against the broadcast 0 is true, every word is
    nonnegative as a signed integer. -/
theorem nonneg_of_all {S : Shape} {axes : List (Fin S.rank)} (hb : (⟨0, ![]⟩ : Shape).BroadcastsInDim S ![])
    (hr : S.ReducesTo axes ⟨0, ![]⟩) (hs : 0 < (⟨0, ![]⟩ : Shape).numel) (idx : IVec S 32)
    (h : Host.reduce IntOp.andi
        (cmpi .sge idx (broadcastInDim S ![] hb (constantI ⟨0, ![]⟩ 32 0#32)))
        (constantI ⟨0, ![]⟩ 1 1#1) hr hs ix0 = 1#1) (p : S.Idx) : 0 ≤ (idx p).toInt := by
  haveI := subsingleton_idx0
  have e : IntOp.cmpi .sge (idx p) 0#32 = 1#1 := Host.reduce_andi_all _ _ hr hs ix0 h p
  exact IntOp.cmpi_sge.1 e

/-- The same for idx < 80000 (signed) against the broadcast 80000. -/
theorem lt_of_all {S : Shape} {axes : List (Fin S.rank)} (hb : (⟨0, ![]⟩ : Shape).BroadcastsInDim S ![])
    (hr : S.ReducesTo axes ⟨0, ![]⟩) (hs : 0 < (⟨0, ![]⟩ : Shape).numel) (idx : IVec S 32)
    (h : Host.reduce IntOp.andi
        (cmpi .slt idx (broadcastInDim S ![] hb (constantI ⟨0, ![]⟩ 32 80000#32)))
        (constantI ⟨0, ![]⟩ 1 1#1) hr hs ix0 = 1#1) (p : S.Idx) : (idx p).toInt < 80000 := by
  haveI := subsingleton_idx0
  have e : IntOp.cmpi .slt (idx p) 80000#32 = 1#1 := Host.reduce_andi_all _ _ hr hs ix0 h p
  have := IntOp.cmpi_slt.1 e
  have h8 : (80000#32 : BitVec 32).toInt = 80000 := by decide
  omega

end Pre

open Cert.Pre_finite_inputs Pre in
theorem ok_of_fn [Cert.Pre_finite_inputs.Facts] (I : Inputs)
    (h : Cert.Pre_finite_inputs.fn (F := Ideal) I.x I.e I.src I.dst I.WA I.bA I.WB I.bB I.WC I.bC I.WD I.bD I.WE I.bE I.gx I.bx I.ge I.be
      = (fun _ => 1#1)) : I.Ok := by
  -- the predicate at its one index, its operations in view, the conjunction of twenty tests split
  have h0 := congrFun h ix0
  dsimp only [fn, fn_part1, fn_part2, fn_part3, fn_part4, fn_part5] at h0
  simp only [Idealize.ShloMosaic.andi, IntOp.andi_eq_one] at h0
  obtain ⟨⟨⟨⟨⟨⟨⟨⟨⟨⟨⟨⟨⟨⟨⟨⟨⟨⟨⟨hx, he⟩, hWA⟩, hbA⟩, hWB⟩, hbB⟩, hWC⟩, hbC⟩, hWD⟩, hbD⟩, hWE⟩, hbE⟩, hgx⟩, hbx⟩, hge⟩, hbe⟩, hs0⟩, hs1⟩, hd0⟩, hd1⟩ := h0
  exact
    { src := fun e => ⟨nonneg_of_all _ _ _ I.src hs0 (ix1 e), lt_of_all _ _ _ I.src hs1 (ix1 e)⟩
      dst := fun e => ⟨nonneg_of_all _ _ _ I.dst hd0 (ix1 e), lt_of_all _ _ _ I.dst hd1 (ix1 e)⟩
      x := isReal_of_all _ _ _ I.x hx
      e := isReal_of_all _ _ _ I.e he
      WA := isReal_of_all _ _ _ I.WA hWA
      bA := isReal_of_all _ _ _ I.bA hbA
      WB := isReal_of_all _ _ _ I.WB hWB
      bB := isReal_of_all _ _ _ I.bB hbB
      WC := isReal_of_all _ _ _ I.WC hWC
      bC := isReal_of_all _ _ _ I.bC hbC
      WD := isReal_of_all _ _ _ I.WD hWD
      bD := isReal_of_all _ _ _ I.bD hbD
      WE := isReal_of_all _ _ _ I.WE hWE
      bE := isReal_of_all _ _ _ I.bE hbE
      gx := isReal_of_all _ _ _ I.gx hgx
      bx := isReal_of_all _ _ _ I.bx hbx
      ge := isReal_of_all _ _ _ I.ge hge
      be := isReal_of_all _ _ _ I.be hbe }

end Cert.Gcn

end
-- ==== Proof.lean ====
/-
  The certificate. The word-level kernel and its idealization are the same thirteen items, five pipelined kernel regions
  among stretches of host operations: each runs to the end, faults nowhere and writes no argument (the frames). At the
  extended reals the idealized kernel computes, region by region, the layer's two results: the fused projection is the four
  affine maps side by side; the gathers read the rows the index words name, because the precondition keeps every word in
  range; the 128-wide scatter sums messages and gates together; the tiles' partial sums add up to the column sums; and the
  mean of the squares minus the squared mean is the biased variance, because every value is a real number when the inputs are.
  The reference computes the same two results one operation at a time. Nothing was rewritten by the ideal pass, so the
  idealization conjunct is trivial.
-/
import proofs.«415303_j23759759082192_3_alg».proof.Defs
import proofs.«415303_j23759759082192_3_alg».proof.Proof.Gen.Kernel
import proofs.«415303_j23759759082192_3_alg».proof.Proof.Gen.KernelIdeal
import proofs.«415303_j23759759082192_3_alg».proof.Proof.Gen.ReferenceIdeal
import proofs.«415303_j23759759082192_3_alg».proof.Proof.Gen.ReferenceIdeal.Run
import proofs.«415303_j23759759082192_3_alg».proof.Proof.Gen.ReferenceIdeal.Read
import proofs.«415303_j23759759082192_3_alg».proof.Proof.Gen.Pre_finite_inputs
import proofs.«415303_j23759759082192_3_alg».proof.Proof.K.Carry
import proofs.«415303_j23759759082192_3_alg».proof.Proof.KI.Carry
import proofs.«415303_j23759759082192_3_alg».proof.Proof.KI.Chain4
import proofs.«415303_j23759759082192_3_alg».proof.Proof.Ref.RefValue
import proofs.«415303_j23759759082192_3_alg».proof.Proof.Pre
import Idealize.ShloMosaic.Adequacy
import Idealize.ShloMosaic.Init

noncomputable section

namespace Cert.Proof

open Idealize.ShloMosaic Idealize.SL.Sem Cert.Gcn

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The precondition makes the kernel's inputs admissible: index words in range, float arrays real. -/
theorem ok_of_pre (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.Hand.inputs m c).Ok :=
  ok_of_fn (Cert.KernelIdeal.Hand.inputs m c) (h c)

/-- Both programs end with the layer's two results at the kernel's inputs. -/
theorem algebraic : Cert.algebraic_KernelIdeal_ReferenceIdeal := by
  intro m ρ m' ρ' hpre hagree
  have hin : ∀ c, Cert.ReferenceIdeal.RefValue.inputs m' c = Cert.KernelIdeal.Hand.inputs m c := by
    intro c
    obtain ⟨h0, h1, h2, h3, h4, h5, h6, h7, h8, h9, h10, h11, h12, h13, h14, h15, h16, h17⟩ := hagree c
    unfold Cert.ReferenceIdeal.RefValue.inputs Cert.KernelIdeal.Hand.inputs
    rw [h0, h1, h2, h3, h4, h5, h6, h7, h8, h9, h10, h11, h12, h13, h14, h15, h16, h17]
  refine ⟨fun c => xnew (Cert.KernelIdeal.Hand.inputs m c), fun c => enew (Cert.KernelIdeal.Hand.inputs m c), ?_, ?_⟩
  · refine (θ_run Cert.KernelIdeal.defs _ _).mono (fun r h c => ⟨?_, ?_, ?_⟩) (Cert.KernelIdeal.Hand.run (F := Ideal) m ρ)
    · exact (h c _ (Cert.KernelIdeal.Hand.mem_uc Cert.KernelIdeal.main_v47 (by decide))).trans
        (Cert.KernelIdeal.Hand.kernel_x m ρ c (ok_of_pre m hpre c))
    · exact (h c _ (Cert.KernelIdeal.Hand.mem_uc Cert.KernelIdeal.main_v52 (by decide))).trans
        (Cert.KernelIdeal.Hand.kernel_e m ρ c (ok_of_pre m hpre c))
    · exact ⟨(h c _ (Cert.KernelIdeal.Hand.mem_uc Cert.KernelIdeal.main_arg0 (by decide))).trans (Cert.KernelIdeal.Hand.W13_main_arg0 m ρ c),
        (h c _ (Cert.KernelIdeal.Hand.mem_uc Cert.KernelIdeal.main_arg1 (by decide))).trans (Cert.KernelIdeal.Hand.W13_main_arg1 m ρ c),
        (h c _ (Cert.KernelIdeal.Hand.mem_uc Cert.KernelIdeal.main_arg2 (by decide))).trans (Cert.KernelIdeal.Hand.W13_main_arg2 m ρ c),
        (h c _ (Cert.KernelIdeal.Hand.mem_uc Cert.KernelIdeal.main_arg3 (by decide))).trans (Cert.KernelIdeal.Hand.W13_main_arg3 m ρ c),
        (h c _ (Cert.KernelIdeal.Hand.mem_uc Cert.KernelIdeal.main_arg4 (by decide))).trans (Cert.KernelIdeal.Hand.W13_main_arg4 m ρ c),
        (h c _ (Cert.KernelIdeal.Hand.mem_uc Cert.KernelIdeal.main_arg5 (by decide))).trans (Cert.KernelIdeal.Hand.W13_main_arg5 m ρ c),
        (h c _ (Cert.KernelIdeal.Hand.mem_uc Cert.KernelIdeal.main_arg6 (by decide))).trans (Cert.KernelIdeal.Hand.W13_main_arg6 m ρ c),
        (h c _ (Cert.KernelIdeal.Hand.mem_uc Cert.KernelIdeal.main_arg7 (by decide))).trans (Cert.KernelIdeal.Hand.W13_main_arg7 m ρ c),
        (h c _ (Cert.KernelIdeal.Hand.mem_uc Cert.KernelIdeal.main_arg8 (by decide))).trans (Cert.KernelIdeal.Hand.W13_main_arg8 m ρ c),
        (h c _ (Cert.KernelIdeal.Hand.mem_uc Cert.KernelIdeal.main_arg9 (by decide))).trans (Cert.KernelIdeal.Hand.W13_main_arg9 m ρ c),
        (h c _ (Cert.KernelIdeal.Hand.mem_uc Cert.KernelIdeal.main_arg10 (by decide))).trans (Cert.KernelIdeal.Hand.W13_main_arg10 m ρ c),
        (h c _ (Cert.KernelIdeal.Hand.mem_uc Cert.KernelIdeal.main_arg11 (by decide))).trans (Cert.KernelIdeal.Hand.W13_main_arg11 m ρ c),
        (h c _ (Cert.KernelIdeal.Hand.mem_uc Cert.KernelIdeal.main_arg12 (by decide))).trans (Cert.KernelIdeal.Hand.W13_main_arg12 m ρ c),
        (h c _ (Cert.KernelIdeal.Hand.mem_uc Cert.KernelIdeal.main_arg13 (by decide))).trans (Cert.KernelIdeal.Hand.W13_main_arg13 m ρ c),
        (h c _ (Cert.KernelIdeal.Hand.mem_uc Cert.KernelIdeal.main_arg14 (by decide))).trans (Cert.KernelIdeal.Hand.W13_main_arg14 m ρ c),
        (h c _ (Cert.KernelIdeal.Hand.mem_uc Cert.KernelIdeal.main_arg15 (by decide))).trans (Cert.KernelIdeal.Hand.W13_main_arg15 m ρ c),
        (h c _ (Cert.KernelIdeal.Hand.mem_uc Cert.KernelIdeal.main_arg16 (by decide))).trans (Cert.KernelIdeal.Hand.W13_main_arg16 m ρ c),
        (h c _ (Cert.KernelIdeal.Hand.mem_uc Cert.KernelIdeal.main_arg17 (by decide))).trans (Cert.KernelIdeal.Hand.W13_main_arg17 m ρ c)⟩
  · refine (θ_run Cert.ReferenceIdeal.defs _ _).mono (fun r h c => ⟨?_, ?_, (h c).2.2⟩)
      (Cert.ReferenceIdeal.Value.run (F := Ideal) m' ρ')
    · have hI := ok_of_pre m hpre c
      rw [← hin c] at hI
      exact ((h c).1.trans (Cert.ReferenceIdeal.RefValue.ref_x m' c hI.src hI.dst)).trans (congrArg xnew (hin c))
    · have hI := ok_of_pre m hpre c
      rw [← hin c] at hI
      exact ((h c).2.1.trans (Cert.ReferenceIdeal.RefValue.ref_e m' c hI.src hI.dst)).trans (congrArg enew (hin c))

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
